-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S256x256 : Shape := ⟨2, ![256, 256]⟩
abbrev S256 : Shape := ⟨1, ![256]⟩
abbrev S256x1 : Shape := ⟨2, ![256, 1]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_

variable [Facts]

def fn_part2 {F : FTy → Type} [FloatOps F] (main_arg7 : FVec F S256x256 .f32) (main_arg8 : FVec F S256 .f32) (main_arg9 : FVec F S256x1 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg9
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  main_v48

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S8x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x1 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_v13 main_v16
-- ==== Kernel.lean ====
abbrev S8x4096x256 : Shape := ⟨3, ![8, 4096, 256]⟩
abbrev S256x256 : Shape := ⟨2, ![256, 256]⟩
abbrev S256 : Shape := ⟨1, ![256]⟩
abbrev S256x1 : Shape := ⟨2, ![256, 1]⟩
abbrev S1x4096x256 : Shape := ⟨3, ![1, 4096, 256]⟩
abbrev S256x4096 : Shape := ⟨2, ![256, 4096]⟩
abbrev S4096x256 : Shape := ⟨2, ![4096, 256]⟩
abbrev S1x256 : Shape := ⟨2, ![1, 256]⟩
abbrev S1x256x256 : Shape := ⟨3, ![1, 256, 256]⟩
abbrev S4096 : Shape := ⟨1, ![4096]⟩
abbrev S4096x1 : Shape := ⟨2, ![4096, 1]⟩
abbrev S1 : Shape := ⟨1, ![1]⟩
abbrev S1x1 : Shape := ⟨2, ![1, 1]⟩

abbrev nBuf : Space → Nat
  | .hbm => 11
  | .vmem => 16
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S8x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x1, .f32⟩
  | .local _ .vmem, ⟨11, _⟩ => ⟨S1x4096x256, .f32⟩
  | .local _ .vmem, ⟨12, _⟩ => ⟨S1x4096x256, .f32⟩
  | .local _ .vmem, ⟨13, _⟩ => ⟨S256x4096, .f32⟩
  | .local _ .vmem, ⟨14, _⟩ => ⟨S4096x256, .f32⟩
  | .local _ .vmem, ⟨15, _⟩ => ⟨S4096x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def k0_off2 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v39 : Index := Scalar.indexCast v4
  let c0_18 : Index := 0#32
  ![v39.toNat, 0]
def k0_cond2 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_19 : BitVec 32 := 0#32
  let v45 : BitVec 1 := Scalar.cmpi .ne v44 c0_i32_19
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4096x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  transposes_S4096x256_p1_0_S256x4096 : S4096x256.Transposes [1, 0] S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  h_S1x256x256 : 0 < S1x256x256.numel
  shapeCasts_S1x256x256_S256x256 : S1x256x256.ShapeCasts S256x256
  broadcasts_S1x256_S256x256 : S1x256.Broadcasts S256x256
  reduces_S256x4096_S256 : S256x4096.Reduces [1] S256
  shapeCasts_S256_S256x1 : S256.ShapeCasts S256x1
  broadcasts_S256x1_S256x4096 : S256x1.Broadcasts S256x4096
  broadcasts_S256x1_S256x256 : S256x1.Broadcasts S256x256
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256 : S256x1.ShapeCasts S256
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  broadcasts_S1x1_S4096x1 : S1x1.Broadcasts S4096x1
  broadcasts_S4096x1_S4096x256 : S4096x1.Broadcasts S4096x256
  shapeCasts_S4096x256_S1x4096x256 : S4096x256.ShapeCasts S1x4096x256
  dot_S4096x256_S256x256_S4096x256_1_0_0_1_n_n_wf : DotDims.WF S4096x256 S256x256 S4096x256 [1] [0] [0] [1] [] []
  dot_S256x256_S256x256_S256x256_1_0_0_1_n_n_wf : DotDims.WF S256x256 S256x256 S256x256 [1] [0] [0] [1] [] []
  dot_S256x256_S256x4096_S256x4096_1_0_0_1_n_n_wf : DotDims.WF S256x256 S256x4096 S256x4096 [1] [0] [0] [1] [] []
  dot_S256x4096_S4096x256_S256x256_1_0_0_1_n_n_wf : DotDims.WF S256x4096 S4096x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x4096x256.size a
  k0_off2_inb : ∀ i : grid0.Coords, ∀ a, (k0_off2 i) a + S256x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x256.size a
  hwx0_0 : ∀ i : grid0.Coords, EltTy.bits .f32 = 32 ∨ (Rect.block (s := S8x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x4096x256.size a ≤ S8x4096x256.size a
  hwx0_10 : ∀ i : grid0.Coords, EltTy.bits .f32 = 32 ∨ (Rect.block (s := S8x4096x256) S1x4096x256.size (cc0_transform_10 i) (hinb0_10 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1x4096x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S8x4096x256 : Shape := ⟨3, ![8, 4096, 256]⟩
abbrev S256x256 : Shape := ⟨2, ![256, 256]⟩
abbrev S256 : Shape := ⟨1, ![256]⟩
abbrev S256x1 : Shape := ⟨2, ![256, 1]⟩
abbrev S1x1x256 : Shape := ⟨3, ![1, 1, 256]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S8x1 : Shape := ⟨2, ![8, 1]⟩
abbrev S8x1x1 : Shape := ⟨3, ![8, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S8x4096x256, .f32⟩
  | .hbm, ⟨11, _⟩ => ⟨S1x1x256, .f32⟩
  | .hbm, ⟨12, _⟩ => ⟨S8x4096x256, .f32⟩
  | .hbm, ⟨13, _⟩ => ⟨S8x4096x256, .f32⟩
  | .hbm, ⟨14, _⟩ => ⟨S8x4096x256, .f32⟩
  | .hbm, ⟨15, _⟩ => ⟨S1x1x256, .f32⟩
  | .hbm, ⟨16, _⟩ => ⟨S8x4096x256, .f32⟩
  | .hbm, ⟨17, _⟩ => ⟨S8x4096x256, .f32⟩
  | .hbm, ⟨18, _⟩ => ⟨S8x4096x256, .f32⟩
  | .hbm, ⟨19, _⟩ => ⟨S1x1x256, .f32⟩
  | .hbm, ⟨20, _⟩ => ⟨S8x4096x256, .f32⟩
  | .hbm, ⟨21, _⟩ => ⟨S8x4096x256, .f32⟩
  | .hbm, ⟨22, _⟩ => ⟨S_, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x256, .f32⟩
  | .hbm, ⟨42, _⟩ => ⟨S8x4096x256, .f32⟩
  | .hbm, ⟨43, _⟩ => ⟨S1x1x256, .f32⟩
  | .hbm, ⟨44, _⟩ => ⟨S8x4096x256, .f32⟩
  | .hbm, ⟨45, _⟩ => ⟨S8x4096x256, .f32⟩
  | .hbm, ⟨46, _⟩ => ⟨S8x4096x1, .f32⟩
  | .hbm, ⟨47, _⟩ => ⟨S_, .f32⟩
  | .hbm, ⟨48, _⟩ => ⟨S8x1, .f32⟩
  | .hbm, ⟨49, _⟩ => ⟨S_, .f32⟩
  | .hbm, ⟨50, _⟩ => ⟨S8x1, .f32⟩
  | .hbm, ⟨51, _⟩ => ⟨S8x1, .f32⟩
  | .hbm, ⟨52, _⟩ => ⟨S8x1x1, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S8x1, .f32⟩
  | .hbm, ⟨58, _⟩ => ⟨S8x1x1, .f32⟩
  | .hbm, ⟨59, _⟩ => ⟨S8x4096x1, .f32⟩
  | .hbm, ⟨60, _⟩ => ⟨S8x4096x1, .f32⟩
  | .hbm, ⟨61, _⟩ => ⟨S8x4096x256, .f32⟩
  | .hbm, ⟨62, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  reducesTo_S8x4096x1_S8x1_d1 : S8x4096x1.ReducesTo [1] S8x1
  bcast_S_S8x1 : S_.BroadcastsInDim S8x1 (![] : Fin 0 → Fin S8x1.rank)
  bcast_S8x1_S8x1x1_0_2 : S8x1.BroadcastsInDim S8x1x1 (![0, 2] : Fin 2 → Fin S8x1x1.rank)
  bcast_S8x1x1_S8x4096x1_0_1_2 : S8x1x1.BroadcastsInDim S8x4096x1 (![0, 1, 2] : Fin 3 → Fin S8x4096x1.rank)
  bcast_S8x4096x1_S8x4096x256_0_1_2 : S8x4096x1.BroadcastsInDim S8x4096x256 (![0, 1, 2] : Fin 3 → Fin S8x4096x256.rank)
  dot_S8x4096x256_S256x256_S8x4096x256_2_0_01_1_n_n_wf : DotDims.WF S8x4096x256 S256x256 S8x4096x256 [2] [0] [0, 1] [1] [] []
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]
  dot_S8x4096x256_S256x1_S8x4096x1_2_0_01_1_n_n_wf : DotDims.WF S8x4096x256 S256x1 S8x4096x1 [2] [0] [0, 1] [1] [] []

variable [Facts₀]

def dot_S8x4096x256_S256x256_S8x4096x256_2_0_01_1_n_n : DotDims S8x4096x256 S256x256 S8x4096x256 where
  lhsContracting := [2]
  rhsContracting := [0]
  lhsNonContracting := [0, 1]
  rhsNonContracting := [1]
  lhsBatch := []
  rhsBatch := []
  wf := dot_S8x4096x256_S256x256_S8x4096x256_2_0_01_1_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf
def dot_S8x4096x256_S256x1_S8x4096x1_2_0_01_1_n_n : DotDims S8x4096x256 S256x1 S8x4096x1 where
  lhsContracting := [2]
  rhsContracting := [0]
  lhsNonContracting := [0, 1]
  rhsNonContracting := [1]
  lhsBatch := []
  rhsBatch := []
  wf := dot_S8x4096x256_S256x1_S8x4096x1_2_0_01_1_n_n_wf

class Facts : Prop extends Facts₀ where

variable [Facts]
-- ==== Proof.Kernel.Shared.lean ====
import proofs.«414912_j34961033789956_3_alg».proof.Proof.Gen.Kernel.Frame
import proofs.«414912_j34961033789956_3_alg».proof.Proof.Gen.Kernel.Skeleton
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which grid points take which branch

The body branches twice on the second grid coordinate `q`: keys and values are recomputed where `q = 0`, the
pooled output is written where `q = 15`. Along the row-major enumeration of the 8 × 16 grid these are the points
≡ 0 and ≡ 15 (mod 16). -/

/-- The first branch's condition, from the grid coordinates. -/
abbrev condKV (i : grid0.Coords) : Prop := (Scalar.cmpi .ne (Scalar.extui (Scalar.cmpi .eq (BitVec.ofNat 32 (i 1).val) 0#32)) 0#32) = 1#1
theorem condKV_iff : ∀ t : Fin cfg0.N, condKV (grid0.coords t) ↔ t.val % 16 = 0 :=
  (by decide +kernel : ∀ t : Fin grid0.N, condKV (grid0.coords t) ↔ t.val % 16 = 0)

/-- The second branch's condition. -/
abbrev condOut (i : grid0.Coords) : Prop := k0_cond2 i = 1#1
theorem condOut_iff : ∀ t : Fin cfg0.N, condOut (grid0.coords t) ↔ t.val % 16 = 15 :=
  (by decide +kernel : ∀ t : Fin grid0.N, condOut (grid0.coords t) ↔ t.val % 16 = 15)

/-- No input window is ever idle; the output window is idle exactly off the points ≡ 15 (mod 16). -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem idle10_iff : ∀ t : Fin cfg0.N, cfg0.idle 10 (grid0.coords t) = true ↔ ¬ t.val % 16 = 15 :=
  (by decide +kernel : ∀ t : Fin grid0.N, cfg0.idle 10 (grid0.coords t) = true ↔ ¬ t.val % 16 = 15)

/-! ## The memrefs the body is called with -/

abbrev mw0 (t : Fin cfg0.N) : Memref sig .tc .vmem S1x4096x256 .f32 := win0_0.stage (cfg0.slots t 0)
abbrev hw0 (t : Fin cfg0.N) : (mw0 t).IsWhole := hstage0_0 ((cfg0.slots t 0).cast nbuf0_0)
abbrev mw1 (t : Fin cfg0.N) : Memref sig .tc .vmem S256x256 .f32 := win0_1.stage (cfg0.slots t 1)
abbrev hw1 (t : Fin cfg0.N) : (mw1 t).IsWhole := hstage0_1 ((cfg0.slots t 1).cast nbuf0_1)
abbrev mw2 (t : Fin cfg0.N) : Memref sig .tc .vmem S256 .f32 := win0_2.stage (cfg0.slots t 2)
abbrev hw2 (t : Fin cfg0.N) : (mw2 t).IsWhole := hstage0_2 ((cfg0.slots t 2).cast nbuf0_2)
abbrev mw3 (t : Fin cfg0.N) : Memref sig .tc .vmem S256x256 .f32 := win0_3.stage (cfg0.slots t 3)
abbrev hw3 (t : Fin cfg0.N) : (mw3 t).IsWhole := hstage0_3 ((cfg0.slots t 3).cast nbuf0_3)
abbrev mw4 (t : Fin cfg0.N) : Memref sig .tc .vmem S256 .f32 := win0_4.stage (cfg0.slots t 4)
abbrev hw4 (t : Fin cfg0.N) : (mw4 t).IsWhole := hstage0_4 ((cfg0.slots t 4).cast nbuf0_4)
abbrev mw5 (t : Fin cfg0.N) : Memref sig .tc .vmem S256x256 .f32 := win0_5.stage (cfg0.slots t 5)
abbrev hw5 (t : Fin cfg0.N) : (mw5 t).IsWhole := hstage0_5 ((cfg0.slots t 5).cast nbuf0_5)
abbrev mw6 (t : Fin cfg0.N) : Memref sig .tc .vmem S256 .f32 := win0_6.stage (cfg0.slots t 6)
abbrev hw6 (t : Fin cfg0.N) : (mw6 t).IsWhole := hstage0_6 ((cfg0.slots t 6).cast nbuf0_6)
abbrev mw7 (t : Fin cfg0.N) : Memref sig .tc .vmem S256x256 .f32 := win0_7.stage (cfg0.slots t 7)
abbrev hw7 (t : Fin cfg0.N) : (mw7 t).IsWhole := hstage0_7 ((cfg0.slots t 7).cast nbuf0_7)
abbrev mw8 (t : Fin cfg0.N) : Memref sig .tc .vmem S256 .f32 := win0_8.stage (cfg0.slots t 8)
abbrev hw8 (t : Fin cfg0.N) : (mw8 t).IsWhole := hstage0_8 ((cfg0.slots t 8).cast nbuf0_8)
abbrev mw9 (t : Fin cfg0.N) : Memref sig .tc .vmem S256x1 .f32 := win0_9.stage (cfg0.slots t 9)
abbrev hw9 (t : Fin cfg0.N) : (mw9 t).IsWhole := hstage0_9 ((cfg0.slots t 9).cast nbuf0_9)
abbrev mw10 (t : Fin cfg0.N) : Memref sig .tc .vmem S1x4096x256 .f32 := win0_10.stage (cfg0.slots t 10)
abbrev hw10 (t : Fin cfg0.N) : (mw10 t).IsWhole := hstage0_10 ((cfg0.slots t 10).cast nbuf0_10)
/-- The three scratch buffers: the transposed keys, the values, the batch's logits. -/
abbrev scKT : Memref sig .tc .vmem S256x4096 .f32 := Memref.whole cc0_scratch0
abbrev scV : Memref sig .tc .vmem S4096x256 .f32 := Memref.whole cc0_scratch1
abbrev scL : Memref sig .tc .vmem S4096x256 .f32 := Memref.whole cc0_scratch2

/-- What the region is handed besides the windows: the three scratch buffers at some contents and the generator's
    register at some state. -/
theorem PhiA_eq (c : Dev nD) :
    (Pipeline.ΦA spec0 c : sProp 𝕄)
      = iprop(iprop((∃ d, owns (c : Thread nD τ) scKT fullShare d) ∗ (∃ d, owns (c : Thread nD τ) scV fullShare d) ∗ (∃ d, owns (c : Thread nD τ) scL fullShare d)) ∗ (∃ r, prngReg c r)) := by
  unfold Pipeline.ΦA; rw [scopedRest0_eq]; simp only [scKT, scV, scL, owns_whole]; try rfl

/-! ## What a point computes

At point (b, q) the body reads rows 256 q … 256 q + 255 of the batch's block (`rectQ`), computes their logits against
the keys and values held in scratch, and writes them into the same rows of the logits scratch (`rectL`). -/

abbrev rectQ (i : grid0.Coords) : Rect S1x4096x256 := Rect.unit (s := S1x4096x256) (k0_off1 i) S1x256x256.size (k0_off1_inb i)
abbrev rectL (i : grid0.Coords) : Rect S4096x256 := Rect.unit (s := S4096x256) (k0_off2 i) S256x256.size (k0_off2_inb i)

/-- The logits of the point's 256 rows, from the batch block, the weights and the scratch's keys and values. -/
def tileOf (i : grid0.Coords) (x0 : Vec F S1x4096x256 .f32) (x1 : Vec F S256x256 .f32) (x2 : Vec F S256 .f32)
    (kT : Vec F S256x4096 .f32) (vv : Vec F S4096x256 .f32) (x7 : Vec F S256x256 .f32) (x8 : Vec F S256 .f32) : FVec F S256x256 .f32 :=
  k0_pay1 (k0_pay6 (View.ld x0 (rectQ i)) x1 x2 kT vv x7) x8

/-- The logits scratch after the point: the point's rows replaced. -/
def updL (i : grid0.Coords) (xs2 : Vec F S4096x256 .f32) (tile : FVec F S256x256 .f32) : Vec F S4096x256 .f32 :=
  (rectL i).overlay xs2 tile

/-- One store through a rectangle replaces the contents on the rectangle and nowhere else. -/
theorem read_writes_one {sg : RefSig} {κ : Kind} {sp : Space} {s : Shape} {e : EltTy} {Val : EltTy → Type}
    (v : View sg κ sp s e) (f : v.ty.Contents Val) (r : Rect s) (w : r.shape.Idx → Val e) :
    v.read Val (v.writes Val f [⟨r, w⟩]) = r.overlay (v.read Val f) w := by
  funext j
  by_cases hj : j ∈ r.set
  · obtain ⟨x, rfl⟩ : ∃ x, r.emb x = j := r.exists_idx_of_mem hj
    rw [View.read_writes_cons_emb, Rect.overlay_emb]
  · rw [View.read_writes_apply_of_forall_not_mem v f j [⟨r, w⟩] (fun p hp => by
      rw [List.mem_singleton] at hp; subst hp; exact hj), Rect.overlay_of_not_mem _ _ _ hj]

/-- The zero offsets of a whole-buffer access, of each rank the body uses. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

end Cert.Kernel.Gen

end
-- ==== Proof.Kernel.Values.lean ====
import proofs.«414912_j34961033789956_3_alg».proof.Proof.Gen.Kernel.Frame
import proofs.«414912_j34961033789956_3_alg».proof.Proof.Gen.Kernel.Skeleton
import proofs.«414912_j34961033789956_3_alg».proof.Proof.Kernel.Shared
import Idealize.ShloMosaic.Lib.ValueIdx
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The argument arrays, and what each grid point sees of them

The first argument is a stack of 8 batches; the window over it hands the body one whole batch, the one the first grid
coordinate names, at every point of that batch. The nine other arguments are handed to the body whole at every point. -/

abbrev aX (c : Dev nD) : Vec F S8x4096x256 .f32 := V m c main_arg0
abbrev aWq (c : Dev nD) : Vec F S256x256 .f32 := V m c main_arg1
abbrev aBq (c : Dev nD) : Vec F S256 .f32 := V m c main_arg2
abbrev aWk (c : Dev nD) : Vec F S256x256 .f32 := V m c main_arg3
abbrev aBk (c : Dev nD) : Vec F S256 .f32 := V m c main_arg4
abbrev aWv (c : Dev nD) : Vec F S256x256 .f32 := V m c main_arg5
abbrev aBv (c : Dev nD) : Vec F S256 .f32 := V m c main_arg6
abbrev aWo (c : Dev nD) : Vec F S256x256 .f32 := V m c main_arg7
abbrev aBo (c : Dev nD) : Vec F S256 .f32 := V m c main_arg8
abbrev aCv (c : Dev nD) : Vec F S256x1 .f32 := V m c main_arg9

/-- The batch a grid point belongs to. -/
def bOf (t : Fin cfg0.N) : Fin 8 := ⟨t.val / 16, by have := t.isLt; have : cfg0.N = 128 := N_0; omega⟩

/-- Batch `b` of the first argument, as a block. -/
def xBatch (c : Dev nD) (b : Fin 8) : Vec F S1x4096x256 .f32 := fun y => aX m c (ix3 b (y 1) (y 2))

/-- The block indices of the eleven windows, decided over the grid: the first window's and the output's leading index
    is the batch, every other index is zero. -/
theorem idx_facts : ∀ t : Fin cfg0.N, win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 2) = 0 ∧ win0_9.index t (1 : Fin 2) = 0
    ∧ win0_10.index t (0 : Fin 3) = t.val / 16 ∧ win0_10.index t (1 : Fin 3) = 0 ∧ win0_10.index t (2 : Fin 3) = 0 :=
  (by decide +kernel : ∀ t : Fin grid0.N, _)

theorem iblk0_eq (c : Dev nD) (t : Fin cfg0.N) : (iblk m c 0 t : Vec F S1x4096x256 .f32) = xBatch m c (bOf t) := by
  obtain ⟨e0, e1, e2, -⟩ := idx_facts t
  funext y
  show V m c main_arg0 (((cfg0.win 0).blk t).view.emb y) = V m c main_arg0 (ix3 (bOf t) (y 1) (y 2))
  refine congrArg _ (funext fun a => Fin.ext ?_)
  match a with
  | ⟨0, _⟩ => show win0_0.index t (0 : Fin 3) * 1 + 1 * (y 0).val = t.val / 16; have hy : (y 0).val < 1 := (y 0).isLt; omega
  | ⟨1, _⟩ => show win0_0.index t (1 : Fin 3) * 4096 + 1 * (y 1).val = (y 1).val; omega
  | ⟨2, _⟩ => show win0_0.index t (2 : Fin 3) * 256 + 1 * (y 2).val = (y 2).val; omega

theorem iblk1_eq (c : Dev nD) (t : Fin cfg0.N) : (iblk m c 1 t : Vec F S256x256 .f32) = aWq m c := by
  obtain ⟨-, -, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem iblk2_eq (c : Dev nD) (t : Fin cfg0.N) : (iblk m c 2 t : Vec F S256 .f32) = aBq m c := by
  obtain ⟨-, -, -, -, -, e0, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 256 + 1 * (y 0).val = (y 0).val; omega

theorem iblk3_eq (c : Dev nD) (t : Fin cfg0.N) : (iblk m c 3 t : Vec F S256x256 .f32) = aWk m c := by
  obtain ⟨-, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem iblk4_eq (c : Dev nD) (t : Fin cfg0.N) : (iblk m c 4 t : Vec F S256 .f32) = aBk m c := by
  obtain ⟨-, -, -, -, -, -, -, -, e0, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 1) * 256 + 1 * (y 0).val = (y 0).val; omega

theorem iblk5_eq (c : Dev nD) (t : Fin cfg0.N) : (iblk m c 5 t : Vec F S256x256 .f32) = aWv m c := by
  obtain ⟨-, -, -, -, -, -, -, -, -, e0, e1, -⟩ := idx_facts t
  funext y
  show V m c main_arg5 (((cfg0.win 5).blk t).view.emb y) = V m c main_arg5 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem iblk6_eq (c : Dev nD) (t : Fin cfg0.N) : (iblk m c 6 t : Vec F S256 .f32) = aBv m c := by
  obtain ⟨-, -, -, -, -, -, -, -, -, -, -, e0, -⟩ := idx_facts t
  funext y
  show V m c main_arg6 (((cfg0.win 6).blk t).view.emb y) = V m c main_arg6 y
  refine congrArg _ (funext fun a => Fin.ext ?_)
  match a with
  | ⟨0, _⟩ => show win0_6.index t (0 : Fin 1) * 256 + 1 * (y 0).val = (y 0).val; omega

theorem iblk7_eq (c : Dev nD) (t : Fin cfg0.N) : (iblk m c 7 t : Vec F S256x256 .f32) = aWo m c := by
  obtain ⟨-, -, -, -, -, -, -, -, -, -, -, -, e0, e1, -⟩ := idx_facts t
  funext y
  show V m c main_arg7 (((cfg0.win 7).blk t).view.emb y) = V m c main_arg7 y
  refine congrArg _ (funext fun a => Fin.ext ?_)
  match a with
  | ⟨0, _⟩ => show win0_7.index t (0 : Fin 2) * 256 + 1 * (y 0).val = (y 0).val; omega
  | ⟨1, _⟩ => show win0_7.index t (1 : Fin 2) * 256 + 1 * (y 1).val = (y 1).val; omega

theorem iblk8_eq (c : Dev nD) (t : Fin cfg0.N) : (iblk m c 8 t : Vec F S256 .f32) = aBo m c := by
  obtain ⟨-, -, -, -, -, -, -, -, -, -, -, -, -, -, e0, -⟩ := idx_facts t
  funext y
  show V m c main_arg8 (((cfg0.win 8).blk t).view.emb y) = V m c main_arg8 y
  refine congrArg _ (funext fun a => Fin.ext ?_)
  match a with
  | ⟨0, _⟩ => show win0_8.index t (0 : Fin 1) * 256 + 1 * (y 0).val = (y 0).val; omega

theorem iblk9_eq (c : Dev nD) (t : Fin cfg0.N) : (iblk m c 9 t : Vec F S256x1 .f32) = aCv m c := by
  obtain ⟨-, -, -, -, -, -, -, -, -, -, -, -, -, -, -, e0, e1, -⟩ := idx_facts t
  funext y
  show V m c main_arg9 (((cfg0.win 9).blk t).view.emb y) = V m c main_arg9 y
  refine congrArg _ (funext fun a => Fin.ext ?_)
  match a with
  | ⟨0, _⟩ => show win0_9.index t (0 : Fin 2) * 256 + 1 * (y 0).val = (y 0).val; omega
  | ⟨1, _⟩ => show win0_9.index t (1 : Fin 2) * 1 + 1 * (y 1).val = (y 1).val; omega

/-! ## What the scratch buffers and the output block hold, batch by batch -/

/-- The transposed keys and the values of batch `b`. -/
abbrev KTb (c : Dev nD) (b : Fin 8) : Vec F S256x4096 .f32 := k0_pay4 (xBatch m c b) (aWk m c) (aBk m c)
abbrev Vb (c : Dev nD) (b : Fin 8) : Vec F S4096x256 .f32 := k0_pay5 (xBatch m c b) (aWv m c) (aBv m c)

/-- The 256 rows of logits point `t` computes. -/
def tileAt (c : Dev nD) (t : Fin cfg0.N) : FVec F S256x256 .f32 :=
  tileOf (grid0.coords t) (xBatch m c (bOf t)) (aWq m c) (aBq m c) (KTb m c (bOf t)) (Vb m c (bOf t)) (aWo m c) (aBo m c)

/-- The point of batch `b` that computes row `r` of its logits. -/
def ptOf (b : Fin 8) (r : Fin 4096) : Fin cfg0.N := ⟨16 * b.val + r.val / 256, by have := b.isLt; have := r.isLt; have : cfg0.N = 128 := N_0; omega⟩

/-- The logits of batch `b`, all 4096 rows. -/
def Lb (c : Dev nD) (b : Fin 8) : Vec F S4096x256 .f32 := fun j =>
  tileAt m c (ptOf b (j 0)) (ix2 (⟨(j 0).val % 256, Nat.mod_lt _ (by decide)⟩ : Fin 256) (j 1))

/-- The pooled batch `b`: what the output block holds after the batch's last point. -/
def outb (c : Dev nD) (b : Fin 8) : Vec F S1x4096x256 .f32 := k0_pay2 (Lb m c b) (aCv m c)

/-- The whole result array. -/
def GK (c : Dev nD) : Vec F S8x4096x256 .f32 := fun i => outb m c (i 0) (ix3 (0 : Fin 1) (i 1) (i 2))

end Cert.Kernel.Gen

end
-- ==== Proof.Kernel.RunA.lean ====
import proofs.«414912_j34961033789956_3_alg».proof.Proof.Gen.Kernel.Frame
import proofs.«414912_j34961033789956_3_alg».proof.Proof.Gen.Kernel.Skeleton
import proofs.«414912_j34961033789956_3_alg».proof.Proof.Kernel.Shared
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point of a batch

The body first projects every row of the batch block to its key and its value and stores them — the keys transposed —
whole into their scratch buffers, whatever those held; then it does what every point does, against the keys and values
just stored. -/

set_option maxHeartbeats 1000000 in
theorem runA (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x1 .f32) (harg11 : arg11.IsWhole) (arg12 : Memref sig .tc .vmem S1x4096x256 .f32) (harg12 : arg12.IsWhole) (arg13 : Memref sig .tc .vmem S256x4096 .f32) (harg13 : arg13.IsWhole) (arg14 : Memref sig .tc .vmem S4096x256 .f32) (harg14 : arg14.IsWhole) (arg15 : Memref sig .tc .vmem S4096x256 .f32) (harg15 : arg15.IsWhole) (hc0 : condKV i) (hc1 : ¬condOut i)
    (x0 : Vec F S1x4096x256 .f32) (x1 : Vec F S256x256 .f32) (x2 : Vec F S256 .f32) (x3 : Vec F S256x256 .f32) (x4 : Vec F S256 .f32) (x5 : Vec F S256x256 .f32) (x6 : Vec F S256 .f32) (x7 : Vec F S256x256 .f32) (x8 : Vec F S256 .f32) (x9 : Vec F S256x1 .f32) (X10 : Vec F S1x4096x256 .f32) (xs0 : Vec F S256x4096 .f32) (xs1 : Vec F S4096x256 .f32) (xs2 : Vec F S4096x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare X10 ∗ owns (c : Thread nD τ) arg13 fullShare xs0 ∗ owns (c : Thread nD τ) arg14 fullShare xs1 ∗ owns (c : Thread nD τ) arg15 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare X10 ∗ owns (c : Thread nD τ) arg13 fullShare (k0_pay4 x0 x3 x4) ∗ owns (c : Thread nD τ) arg14 fullShare (k0_pay5 x0 x5 x6) ∗ owns (c : Thread nD τ) arg15 fullShare (updL i xs2 (tileOf i x0 x1 x2 (k0_pay4 x0 x3 x4) (k0_pay5 x0 x5 x6) x7 x8))) -∗ K ⟨⟩))
      ⊢ wp frame (wpE (defs₀ (F := F)) Variants.none c none) E (cc0__attn_pool_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_pool_kernel_eq_skeleton]; unfold cc0__attn_pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  obtain rfl := harg12.eq_unread hf10; obtain rfl := harg13.eq_unread hfs0; obtain rfl := harg14.eq_unread hfs1; obtain rfl := harg15.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr; swap; · iexact HS0
    ipureintro
    sl_unfold_run_names
    rw [View.read_writes_eq_canon _ _ _ (fun y => ⟨_, List.mem_singleton_self _, View.mem_set_unit_zero hz2 inb_S256x4096_S256x4096_0_0 y⟩), View.canon_unit_zero hz2]
    sl_unfold_run_names
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3, read_writes_one, View.readCov_unit_zero (S := S256x4096) _ hz2, View.readCov_unit_zero (S := S4096x256) _ hz2, View.readCov_unit_zero (S := S1x4096x256) _ hz3]
  isplitl [HS1]
  · iexists _; isplitr; swap; · iexact HS1
    ipureintro
    sl_unfold_run_names
    rw [View.read_writes_eq_canon _ _ _ (fun y => ⟨_, List.mem_singleton_self _, View.mem_set_unit_zero hz2 inb_S4096x256_S4096x256_0_0 y⟩), View.canon_unit_zero hz2]
    sl_unfold_run_names
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3, read_writes_one, View.readCov_unit_zero (S := S256x4096) _ hz2, View.readCov_unit_zero (S := S4096x256) _ hz2, View.readCov_unit_zero (S := S1x4096x256) _ hz3]
  iexists _; isplitr; swap; · iexact HS2
  ipureintro
  sl_unfold_run_names
  rw [read_writes_one, harg15.read_unread]
  unfold updL tileOf
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3, read_writes_one, View.readCov_unit_zero (S := S256x4096) _ hz2, View.readCov_unit_zero (S := S4096x256) _ hz2, View.readCov_unit_zero (S := S1x4096x256) _ hz3]

end Cert.Kernel.Gen

end
-- ==== Proof.Kernel.RunB.lean ====
import proofs.«414912_j34961033789956_3_alg».proof.Proof.Gen.Kernel.Frame
import proofs.«414912_j34961033789956_3_alg».proof.Proof.Gen.Kernel.Skeleton
import proofs.«414912_j34961033789956_3_alg».proof.Proof.Kernel.Shared
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A middle point of a batch (neither its first nor its last)

The body recomputes nothing and writes no output: it computes the point's 256 rows of logits from the batch block, the
weights and the keys and values the scratch holds, and writes them into their rows of the logits scratch. Every other
buffer is handed back as it was found. -/

set_option maxHeartbeats 1000000 in
theorem runB (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x1 .f32) (harg11 : arg11.IsWhole) (arg12 : Memref sig .tc .vmem S1x4096x256 .f32) (harg12 : arg12.IsWhole) (arg13 : Memref sig .tc .vmem S256x4096 .f32) (harg13 : arg13.IsWhole) (arg14 : Memref sig .tc .vmem S4096x256 .f32) (harg14 : arg14.IsWhole) (arg15 : Memref sig .tc .vmem S4096x256 .f32) (harg15 : arg15.IsWhole) (hc0 : ¬condKV i) (hc1 : ¬condOut i)
    (x0 : Vec F S1x4096x256 .f32) (x1 : Vec F S256x256 .f32) (x2 : Vec F S256 .f32) (x3 : Vec F S256x256 .f32) (x4 : Vec F S256 .f32) (x5 : Vec F S256x256 .f32) (x6 : Vec F S256 .f32) (x7 : Vec F S256x256 .f32) (x8 : Vec F S256 .f32) (x9 : Vec F S256x1 .f32) (X10 : Vec F S1x4096x256 .f32) (xs0 : Vec F S256x4096 .f32) (xs1 : Vec F S4096x256 .f32) (xs2 : Vec F S4096x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare X10 ∗ owns (c : Thread nD τ) arg13 fullShare xs0 ∗ owns (c : Thread nD τ) arg14 fullShare xs1 ∗ owns (c : Thread nD τ) arg15 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare X10 ∗ owns (c : Thread nD τ) arg13 fullShare xs0 ∗ owns (c : Thread nD τ) arg14 fullShare xs1 ∗ owns (c : Thread nD τ) arg15 fullShare (updL i xs2 (tileOf i x0 x1 x2 xs0 xs1 x7 x8))) -∗ K ⟨⟩))
      ⊢ wp frame (wpE (defs₀ (F := F)) Variants.none c none) E (cc0__attn_pool_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_pool_kernel_eq_skeleton]; unfold cc0__attn_pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  obtain rfl := harg12.eq_unread hf10; obtain rfl := harg13.eq_unread hfs0; obtain rfl := harg14.eq_unread hfs1; obtain rfl := harg15.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr; · ipureintro; exact harg13.read_unread _
    iexact HS0
  isplitl [HS1]
  · iexists _; isplitr; · ipureintro; exact harg14.read_unread _
    iexact HS1
  iexists _; isplitr; swap; · iexact HS2
  ipureintro
  rw [read_writes_one, harg15.read_unread]
  unfold updL tileOf
  sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3]

end Cert.Kernel.Gen

end
-- ==== Proof.Kernel.RunC.lean ====
import proofs.«414912_j34961033789956_3_alg».proof.Proof.Gen.Kernel.Frame
import proofs.«414912_j34961033789956_3_alg».proof.Proof.Gen.Kernel.Skeleton
import proofs.«414912_j34961033789956_3_alg».proof.Proof.Kernel.Shared
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The last point of a batch

After writing its own rows of logits the body reads the whole logits scratch back — the rows the batch's earlier points
wrote and its own —, pools it against the fixed vector, and stores the pooled batch whole into the output block. -/

set_option maxHeartbeats 1000000 in
theorem runC (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x1 .f32) (harg11 : arg11.IsWhole) (arg12 : Memref sig .tc .vmem S1x4096x256 .f32) (harg12 : arg12.IsWhole) (arg13 : Memref sig .tc .vmem S256x4096 .f32) (harg13 : arg13.IsWhole) (arg14 : Memref sig .tc .vmem S4096x256 .f32) (harg14 : arg14.IsWhole) (arg15 : Memref sig .tc .vmem S4096x256 .f32) (harg15 : arg15.IsWhole) (hc0 : ¬condKV i) (hc1 : condOut i)
    (x0 : Vec F S1x4096x256 .f32) (x1 : Vec F S256x256 .f32) (x2 : Vec F S256 .f32) (x3 : Vec F S256x256 .f32) (x4 : Vec F S256 .f32) (x5 : Vec F S256x256 .f32) (x6 : Vec F S256 .f32) (x7 : Vec F S256x256 .f32) (x8 : Vec F S256 .f32) (x9 : Vec F S256x1 .f32) (X10 : Vec F S1x4096x256 .f32) (xs0 : Vec F S256x4096 .f32) (xs1 : Vec F S4096x256 .f32) (xs2 : Vec F S4096x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare X10 ∗ owns (c : Thread nD τ) arg13 fullShare xs0 ∗ owns (c : Thread nD τ) arg14 fullShare xs1 ∗ owns (c : Thread nD τ) arg15 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay2 (updL i xs2 (tileOf i x0 x1 x2 xs0 xs1 x7 x8)) x9) ∗ owns (c : Thread nD τ) arg13 fullShare xs0 ∗ owns (c : Thread nD τ) arg14 fullShare xs1 ∗ owns (c : Thread nD τ) arg15 fullShare (updL i xs2 (tileOf i x0 x1 x2 xs0 xs1 x7 x8))) -∗ K ⟨⟩))
      ⊢ wp frame (wpE (defs₀ (F := F)) Variants.none c none) E (cc0__attn_pool_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_pool_kernel_eq_skeleton]; unfold cc0__attn_pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  obtain rfl := harg12.eq_unread hf10; obtain rfl := harg13.eq_unread hfs0; obtain rfl := harg14.eq_unread hfs1; obtain rfl := harg15.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    sl_unfold_run_names
    rw [View.read_writes_eq_canon _ _ _ (fun y => ⟨_, List.mem_singleton_self _, View.mem_set_unit_zero hz3 inb_S1x4096x256_S1x4096x256_0_0_0 y⟩), View.canon_unit_zero hz3]
    unfold updL tileOf
    sl_unfold_run_names
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3, read_writes_one, View.readCov_unit_zero (S := S256x4096) _ hz2, View.readCov_unit_zero (S := S4096x256) _ hz2, View.readCov_unit_zero (S := S1x4096x256) _ hz3]
  isplitl [HS0]
  · iexists _; isplitr; · ipureintro; exact harg13.read_unread _
    iexact HS0
  isplitl [HS1]
  · iexists _; isplitr; · ipureintro; exact harg14.read_unread _
    iexact HS1
  iexists _; isplitr; swap; · iexact HS2
  ipureintro
  sl_unfold_run_names
  rw [read_writes_one, harg15.read_unread]
  unfold updL tileOf
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3, read_writes_one, View.readCov_unit_zero (S := S256x4096) _ hz2, View.readCov_unit_zero (S := S4096x256) _ hz2, View.readCov_unit_zero (S := S1x4096x256) _ hz3]

end Cert.Kernel.Gen

end
-- ==== Proof.Kernel.Region.lean ====
import proofs.«414912_j34961033789956_3_alg».proof.Proof.Gen.Kernel.Frame
import proofs.«414912_j34961033789956_3_alg».proof.Proof.Gen.Kernel.Skeleton
import proofs.«414912_j34961033789956_3_alg».proof.Proof.Kernel.Values
import proofs.«414912_j34961033789956_3_alg».proof.Proof.Kernel.RunA
import proofs.«414912_j34961033789956_3_alg».proof.Proof.Kernel.RunB
import proofs.«414912_j34961033789956_3_alg».proof.Proof.Kernel.RunC
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The invariant between points

After point `n` (batch `b`, tile `q`) the first two scratch buffers hold the transposed keys and the values of batch
`b`, and the third holds, in its rows below 256 (q + 1), the logits of batch `b`; its other rows are whatever earlier
batches left. Before the first point the scratch holds anything. -/

/-- Contents `d` of the logits scratch agree with batch `b`'s logits on the rows the batch's points up to `n` wrote. -/
def RowsDone (c : Dev nD) (n : ℕ) (hn : n < cfg0.N) (d : Vec F S4096x256 .f32) : Prop :=
  ∀ j : S4096x256.Idx, (j 0).val < 256 * (n % 16 + 1) → d j = Lb m c (bOf ⟨n, hn⟩) j

def PhiS (c : Dev nD) : (n : ℕ) → n ≤ cfg0.N → sProp 𝕄
  | 0, _ => Pipeline.ΦA spec0 c
  | n + 1, hn => iprop(iprop(owns (c : Thread nD τ) scKT fullShare (KTb m c (bOf ⟨n, hn⟩)) ∗ owns (c : Thread nD τ) scV fullShare (Vb m c (bOf ⟨n, hn⟩)) ∗ (∃ d, ⌜RowsDone m c n hn d⌝ ∗ owns (c : Thread nD τ) scL fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scKT fullShare (KTb m c (bOf ⟨n, hn⟩)) ∗ owns (c : Thread nD τ) scV fullShare (Vb m c (bOf ⟨n, hn⟩)) ∗ (∃ d, ⌜RowsDone m c n hn d⌝ ∗ owns (c : Thread nD τ) scL fullShare d)) ∗ (∃ r, prngReg c r)) := rfl

theorem PhiS_pos (c : Dev nD) (n : ℕ) (h : n ≤ cfg0.N) (hz : n ≠ 0) :
    PhiS m c n h = iprop(iprop(owns (c : Thread nD τ) scKT fullShare (KTb m c (bOf ⟨n - 1, by omega⟩)) ∗ owns (c : Thread nD τ) scV fullShare (Vb m c (bOf ⟨n - 1, by omega⟩)) ∗ (∃ d, ⌜RowsDone m c (n - 1) (by omega) d⌝ ∗ owns (c : Thread nD τ) scL fullShare d)) ∗ (∃ r, prngReg c r)) := by
  cases n with
  | zero => exact absurd rfl hz
  | succ n => rfl

/-! ## The proof data -/

/-- Per core: the arrays as the region finds them; after the body at point `t` each input's buffer still at its block
    and the output's at the pooled batch (consulted only at a batch's last point, the only one that stores it); the
    invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xBatch m c (bOf t)
    | ⟨1, _⟩ => aWq m c
    | ⟨2, _⟩ => aBq m c
    | ⟨3, _⟩ => aWk m c
    | ⟨4, _⟩ => aBk m c
    | ⟨5, _⟩ => aWv m c
    | ⟨6, _⟩ => aBv m c
    | ⟨7, _⟩ => aWo m c
    | ⟨8, _⟩ => aBo m c
    | ⟨9, _⟩ => aCv m c
    | ⟨10, _⟩ => outb m c (bOf t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = xBatch m c (bOf t) := by dsimp only [dats]
theorem after_1 (c : Dev nD) (t : Fin cfg0.N) : (dats m 0 c).after 1 t = aWq m c := by dsimp only [dats]
theorem after_2 (c : Dev nD) (t : Fin cfg0.N) : (dats m 0 c).after 2 t = aBq m c := by dsimp only [dats]
theorem after_3 (c : Dev nD) (t : Fin cfg0.N) : (dats m 0 c).after 3 t = aWk m c := by dsimp only [dats]
theorem after_4 (c : Dev nD) (t : Fin cfg0.N) : (dats m 0 c).after 4 t = aBk m c := by dsimp only [dats]
theorem after_5 (c : Dev nD) (t : Fin cfg0.N) : (dats m 0 c).after 5 t = aWv m c := by dsimp only [dats]
theorem after_6 (c : Dev nD) (t : Fin cfg0.N) : (dats m 0 c).after 6 t = aBv m c := by dsimp only [dats]
theorem after_7 (c : Dev nD) (t : Fin cfg0.N) : (dats m 0 c).after 7 t = aWo m c := by dsimp only [dats]
theorem after_8 (c : Dev nD) (t : Fin cfg0.N) : (dats m 0 c).after 8 t = aBo m c := by dsimp only [dats]
theorem after_9 (c : Dev nD) (t : Fin cfg0.N) : (dats m 0 c).after 9 t = aCv m c := by dsimp only [dats]
theorem after_10 (c : Dev nD) (t : Fin cfg0.N) : (dats m 0 c).after 10 t = outb m c (bOf t) := by dsimp only [dats]

/-- Each input's current buffer holds its block at every point, fetched there or not. -/
theorem before_0 (c : Dev nD) (t : Fin cfg0.N) (d) : (dats m 0 c).before 0 t d = xBatch m c (bOf t) :=
  (before0_0_of m (dats m 0 c) (A_eq m c 0) (fun t => (after_0 m c t).trans (iblk0_eq m c t).symm) t d).trans (iblk0_eq m c t)
theorem before_1 (c : Dev nD) (t : Fin cfg0.N) (d) : (dats m 0 c).before 1 t d = aWq m c :=
  (before0_1_of m (dats m 0 c) (A_eq m c 1) (fun t => (after_1 m c t).trans (iblk1_eq m c t).symm) t d).trans (iblk1_eq m c t)
theorem before_2 (c : Dev nD) (t : Fin cfg0.N) (d) : (dats m 0 c).before 2 t d = aBq m c :=
  (before0_2_of m (dats m 0 c) (A_eq m c 2) (fun t => (after_2 m c t).trans (iblk2_eq m c t).symm) t d).trans (iblk2_eq m c t)
theorem before_3 (c : Dev nD) (t : Fin cfg0.N) (d) : (dats m 0 c).before 3 t d = aWk m c :=
  (before0_3_of m (dats m 0 c) (A_eq m c 3) (fun t => (after_3 m c t).trans (iblk3_eq m c t).symm) t d).trans (iblk3_eq m c t)
theorem before_4 (c : Dev nD) (t : Fin cfg0.N) (d) : (dats m 0 c).before 4 t d = aBk m c :=
  (before0_4_of m (dats m 0 c) (A_eq m c 4) (fun t => (after_4 m c t).trans (iblk4_eq m c t).symm) t d).trans (iblk4_eq m c t)
theorem before_5 (c : Dev nD) (t : Fin cfg0.N) (d) : (dats m 0 c).before 5 t d = aWv m c :=
  (before0_5_of m (dats m 0 c) (A_eq m c 5) (fun t => (after_5 m c t).trans (iblk5_eq m c t).symm) t d).trans (iblk5_eq m c t)
theorem before_6 (c : Dev nD) (t : Fin cfg0.N) (d) : (dats m 0 c).before 6 t d = aBv m c :=
  (before0_6_of m (dats m 0 c) (A_eq m c 6) (fun t => (after_6 m c t).trans (iblk6_eq m c t).symm) t d).trans (iblk6_eq m c t)
theorem before_7 (c : Dev nD) (t : Fin cfg0.N) (d) : (dats m 0 c).before 7 t d = aWo m c :=
  (before0_7_of m (dats m 0 c) (A_eq m c 7) (fun t => (after_7 m c t).trans (iblk7_eq m c t).symm) t d).trans (iblk7_eq m c t)
theorem before_8 (c : Dev nD) (t : Fin cfg0.N) (d) : (dats m 0 c).before 8 t d = aBo m c :=
  (before0_8_of m (dats m 0 c) (A_eq m c 8) (fun t => (after_8 m c t).trans (iblk8_eq m c t).symm) t d).trans (iblk8_eq m c t)
theorem before_9 (c : Dev nD) (t : Fin cfg0.N) (d) : (dats m 0 c).before 9 t d = aCv m c :=
  (before0_9_of m (dats m 0 c) (A_eq m c 9) (fun t => (after_9 m c t).trans (iblk9_eq m c t).symm) t d).trans (iblk9_eq m c t)

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d))
    ∗ (∃ d, owns (c : Thread nD τ) (mw6 t) fullShare ((dats m 0 c).before 6 t d))
    ∗ (∃ d, owns (c : Thread nD τ) (mw7 t) fullShare ((dats m 0 c).before 7 t d))
    ∗ (∃ d, owns (c : Thread nD τ) (mw8 t) fullShare ((dats m 0 c).before 8 t d))
    ∗ (∃ d, owns (c : Thread nD τ) (mw9 t) fullShare ((dats m 0 c).before 9 t d))
    ∗ (∃ d, owns (c : Thread nD τ) (mw10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem coords1 : ∀ t : Fin cfg0.N, ((grid0.coords t) 1).val = t.val % 16 :=
  (by decide +kernel : ∀ t : Fin grid0.N, ((grid0.coords t) 1).val = t.val % 16)

theorem offL0 (t : Fin cfg0.N) : k0_off2 (grid0.coords t) (0 : Fin 2) = 256 * (t.val % 16) := by
  rw [k0_off2_eq]; show 256 * ((grid0.coords t) 1).val = _; rw [coords1 t]
theorem offL1 (t : Fin cfg0.N) : k0_off2 (grid0.coords t) (1 : Fin 2) = 0 := by
  rw [k0_off2_eq]; rfl

/-- Membership in the rows a point writes: rows 256 q … 256 q + 255, every column. -/
theorem mem_rectL (t : Fin cfg0.N) (j : S4096x256.Idx) :
    j ∈ (rectL (grid0.coords t)).set ↔ 256 * (t.val % 16) ≤ (j 0).val ∧ (j 0).val < 256 * (t.val % 16) + 256 := by
  rw [Rect.mem_set_unit, Fin.forall_fin_two, offL0 t, offL1 t]
  have h1 : (j 1).val < 256 := (j 1).isLt
  constructor
  · intro h; exact h.1
  · intro h; exact ⟨h, Nat.zero_le _, by show (j 1).val < 0 + 256; omega⟩

/-- The batch of the point before a point that is not a batch's first is the same batch. -/
theorem bOf_pred (t : Fin cfg0.N) (hz : t.val ≠ 0) (h0 : ¬t.val % 16 = 0) :
    bOf ⟨t.val - 1, Nat.lt_of_le_of_lt (Nat.sub_le _ _) t.isLt⟩ = bOf t := by
  apply Fin.ext; unfold bOf; dsimp only; omega

/-- The point's rows of the updated scratch are the point's logits; -/
theorem updL_in (c : Dev nD) (t : Fin cfg0.N) (d : Vec F S4096x256 .f32) (j : S4096x256.Idx)
    (hj : 256 * (t.val % 16) ≤ (j 0).val ∧ (j 0).val < 256 * (t.val % 16) + 256) :
    updL (grid0.coords t) d (tileAt m c t) j = Lb m c (bOf t) j := by
  have hN : t.val < 128 := lt_of_lt_of_eq t.isLt (show cfg0.N = 128 from N_0)
  obtain ⟨x, hx⟩ : ∃ x, (rectL (grid0.coords t)).emb x = j := (rectL (grid0.coords t)).exists_idx_of_mem ((mem_rectL t j).mpr hj)
  have e : updL (grid0.coords t) d (tileAt m c t) j = tileAt m c t x := by
    rw [← hx]; exact Rect.overlay_emb _ _ _ x
  have c0 : (j 0).val = 256 * (t.val % 16) + (x 0).val := by
    have := congrArg (fun i : S4096x256.Idx => (i 0).val) hx
    simp only [Rect.emb_apply, Rect.off_unit, Rect.stride_unit, Nat.one_mul] at this
    rw [offL0 t] at this; exact this.symm
  have c1 : (j 1).val = (x 1).val := by
    have := congrArg (fun i : S4096x256.Idx => (i 1).val) hx
    simp only [Rect.emb_apply, Rect.off_unit, Rect.stride_unit, Nat.one_mul] at this
    rw [offL1 t] at this; omega
  have hx0 : (x 0).val < 256 := (x 0).isLt
  rw [e]; unfold Lb
  have hp : ptOf (bOf t) (j 0) = t := by
    apply Fin.ext; unfold ptOf bOf; dsimp only; omega
  rw [hp]
  refine congrArg (tileAt m c t) (funext fun a => Fin.ext ?_)
  match a with
  | ⟨0, _⟩ => show (x 0).val = (j 0).val % 256; omega
  | ⟨1, _⟩ => show (x 1).val = (j 1).val; omega

/-- the other rows are as before. -/
theorem updL_out (c : Dev nD) (t : Fin cfg0.N) (d : Vec F S4096x256 .f32) (j : S4096x256.Idx)
    (hj : ¬(256 * (t.val % 16) ≤ (j 0).val ∧ (j 0).val < 256 * (t.val % 16) + 256)) :
    updL (grid0.coords t) d (tileAt m c t) j = d j := by
  unfold updL; exact Rect.overlay_of_not_mem _ _ _ (fun h => hj ((mem_rectL t j).mp h))

theorem rowsDone_first (c : Dev nD) (t : Fin cfg0.N) (h0 : t.val % 16 = 0) (d : Vec F S4096x256 .f32) :
    RowsDone m c t.val t.isLt (updL (grid0.coords t) d (tileAt m c t)) := by
  intro j hj
  exact updL_in m c t d j (by omega)

theorem rowsDone_step (c : Dev nD) (t : Fin cfg0.N) (hz : t.val ≠ 0) (h0 : ¬t.val % 16 = 0) (d : Vec F S4096x256 .f32)
    (hd : RowsDone m c (t.val - 1) (Nat.lt_of_le_of_lt (Nat.sub_le _ _) t.isLt) d) :
    RowsDone m c t.val t.isLt (updL (grid0.coords t) d (tileAt m c t)) := by
  intro j hj
  by_cases hin : 256 * (t.val % 16) ≤ (j 0).val ∧ (j 0).val < 256 * (t.val % 16) + 256
  · exact updL_in m c t d j hin
  · rw [updL_out m c t d j hin]
    have := hd j (by omega)
    rw [bOf_pred t hz h0] at this
    exact this

theorem rowsDone_full (c : Dev nD) (t : Fin cfg0.N) (h1 : t.val % 16 = 15) (d : Vec F S4096x256 .f32)
    (hd : RowsDone m c t.val t.isLt d) : d = Lb m c (bOf t) := by
  funext j
  have hj : (j 0).val < 4096 := (j 0).isLt
  exact hd j (by omega)

set_option maxHeartbeats 4000000 in
/-- The body at any point: which branches it takes is decided by the point's position in its batch; the invariant hands
    it the scratch as the point before left it and takes it back with this point's rows of logits added — and, at a
    batch's first point, with the batch's keys and values; at a batch's last point the output block is the pooled batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (mw0 t) fullShare ((dats m 0 c).after 0 t) from by
    unfold Dat.leavesExact; rw [live0 t], after_0]
  rw [show (dats m 0 c).leavesExact 1 t = owns (c : Thread nD τ) (mw1 t) fullShare ((dats m 0 c).after 1 t) from by
    unfold Dat.leavesExact; rw [live1 t], after_1]
  rw [show (dats m 0 c).leavesExact 2 t = owns (c : Thread nD τ) (mw2 t) fullShare ((dats m 0 c).after 2 t) from by
    unfold Dat.leavesExact; rw [live2 t], after_2]
  rw [show (dats m 0 c).leavesExact 3 t = owns (c : Thread nD τ) (mw3 t) fullShare ((dats m 0 c).after 3 t) from by
    unfold Dat.leavesExact; rw [live3 t], after_3]
  rw [show (dats m 0 c).leavesExact 4 t = owns (c : Thread nD τ) (mw4 t) fullShare ((dats m 0 c).after 4 t) from by
    unfold Dat.leavesExact; rw [live4 t], after_4]
  rw [show (dats m 0 c).leavesExact 5 t = owns (c : Thread nD τ) (mw5 t) fullShare ((dats m 0 c).after 5 t) from by
    unfold Dat.leavesExact; rw [live5 t], after_5]
  rw [show (dats m 0 c).leavesExact 6 t = owns (c : Thread nD τ) (mw6 t) fullShare ((dats m 0 c).after 6 t) from by
    unfold Dat.leavesExact; rw [live6 t], after_6]
  rw [show (dats m 0 c).leavesExact 7 t = owns (c : Thread nD τ) (mw7 t) fullShare ((dats m 0 c).after 7 t) from by
    unfold Dat.leavesExact; rw [live7 t], after_7]
  rw [show (dats m 0 c).leavesExact 8 t = owns (c : Thread nD τ) (mw8 t) fullShare ((dats m 0 c).after 8 t) from by
    unfold Dat.leavesExact; rw [live8 t], after_8]
  rw [show (dats m 0 c).leavesExact 9 t = owns (c : Thread nD τ) (mw9 t) fullShare ((dats m 0 c).after 9 t) from by
    unfold Dat.leavesExact; rw [live9 t], after_9]
  rw [PhiS_castSucc m c t]
  by_cases h0 : t.val % 16 = 0
  · have h1 : ¬t.val % 16 = 15 := by omega
    rw [Dat.leavesExact_idle (dats m 0 c) 10 t ((idle10_iff t).mpr h1) (Bool.eq_false_iff.mpr fun h => h1 ((flush0_10 t).mp h))]
    by_cases hz : t.val = 0
    ·
        rw [PhiS_zero m c _ _ hz, PhiA_eq]
        iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runA c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) scKT (Memref.isWhole_whole _) scV (Memref.isWhole_whole _) scL (Memref.isWhole_whole _) ((condKV_iff t).mpr h0) (fun h => h1 ((condOut_iff t).mp h)) (xBatch m c (bOf t)) (aWq m c) (aBq m c) (aWk m c) (aBk m c) (aWv m c) (aBv m c) (aWo m c) (aBo m c) (aCv m c) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexists _; isplitr; swap; · iexact HS2
            ipureintro
            exact rowsDone_first m c t h0 _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

    ·
        rw [PhiS_pos m c _ _ hz]
        iintro ⟨⟨⟨HS0, HS1, ⟨%s2, %hs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runA c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) scKT (Memref.isWhole_whole _) scV (Memref.isWhole_whole _) scL (Memref.isWhole_whole _) ((condKV_iff t).mpr h0) (fun h => h1 ((condOut_iff t).mp h)) (xBatch m c (bOf t)) (aWq m c) (aBq m c) (aWk m c) (aBk m c) (aWv m c) (aBv m c) (aWo m c) (aBo m c) (aCv m c) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexists _; isplitr; swap; · iexact HS2
            ipureintro
            exact rowsDone_first m c t h0 _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

  · have hz : t.val ≠ 0 := fun h => h0 (by rw [h])
    by_cases h1 : t.val % 16 = 15
    · rw [show (dats m 0 c).leavesExact 10 t = owns (c : Thread nD τ) (mw10 t) fullShare ((dats m 0 c).after 10 t) from by
      unfold Dat.leavesExact; rw [Bool.eq_false_iff.mpr fun h => ((idle10_iff t).mp h) h1], after_10]
      skip
      rw [PhiS_pos m c _ _ hz, bOf_pred t hz h0]
      iintro ⟨⟨⟨HS0, HS1, ⟨%s2, %hs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hrows : RowsDone m c t.val t.isLt (updL (grid0.coords t) s2 (tileAt m c t)) := rowsDone_step m c t hz h0 s2 hs2
      have hfull : updL (grid0.coords t) s2 (tileAt m c t) = Lb m c (bOf t) := rowsDone_full m c t h1 _ hrows
      iapply (runC c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) scKT (Memref.isWhole_whole _) scV (Memref.isWhole_whole _) scL (Memref.isWhole_whole _) (fun h => h0 ((condKV_iff t).mp h)) ((condOut_iff t).mpr h1) (xBatch m c (bOf t)) (aWq m c) (aBq m c) (aWk m c) (aBk m c) (aWv m c) (aBv m c) (aWo m c) (aBo m c) (aCv m c) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact hrows
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      have e10 : k0_pay2 (updL (grid0.coords t) s2 (tileAt m c t)) (aCv m c) = outb m c (bOf t) := by rw [hfull]; rfl
      rw [← e10]; iexact H10

    · rw [Dat.leavesExact_idle (dats m 0 c) 10 t ((idle10_iff t).mpr h1) (Bool.eq_false_iff.mpr fun h => h1 ((flush0_10 t).mp h))]
      skip
      rw [PhiS_pos m c _ _ hz, bOf_pred t hz h0]
      iintro ⟨⟨⟨HS0, HS1, ⟨%s2, %hs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runB c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) scKT (Memref.isWhole_whole _) scV (Memref.isWhole_whole _) scL (Memref.isWhole_whole _) (fun h => h0 ((condKV_iff t).mp h)) (fun h => h1 ((condOut_iff t).mp h)) (xBatch m c (bOf t)) (aWq m c) (aBq m c) (aWk m c) (aBk m c) (aWv m c) (aBv m c) (aWo m c) (aBo m c) (aCv m c) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact rowsDone_step m c t hz h0 s2 hs2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨HS0, HS1, ⟨%d, -, HS2⟩⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- From any memory with zero counters every weakly fair execution of the program terminates, with every array of the
    pipeline at what the proof data computes and every other unscoped buffer as it was. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Gen

end
-- ==== Proof.KernelIdeal.Shared.lean ====
import proofs.«414912_j34961033789956_3_alg».proof.Proof.Gen.KernelIdeal.Frame
import proofs.«414912_j34961033789956_3_alg».proof.Proof.Gen.KernelIdeal.Skeleton
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which grid points take which branch

The body branches twice on the second grid coordinate `q`: keys and values are recomputed where `q = 0`, the
pooled output is written where `q = 15`. Along the row-major enumeration of the 8 × 16 grid these are the points
≡ 0 and ≡ 15 (mod 16). -/

/-- The first branch's condition, from the grid coordinates. -/
abbrev condKV (i : grid0.Coords) : Prop := (Scalar.cmpi .ne (Scalar.extui (Scalar.cmpi .eq (BitVec.ofNat 32 (i 1).val) 0#32)) 0#32) = 1#1
theorem condKV_iff : ∀ t : Fin cfg0.N, condKV (grid0.coords t) ↔ t.val % 16 = 0 :=
  (by decide +kernel : ∀ t : Fin grid0.N, condKV (grid0.coords t) ↔ t.val % 16 = 0)

/-- The second branch's condition. -/
abbrev condOut (i : grid0.Coords) : Prop := k0_cond2 i = 1#1
theorem condOut_iff : ∀ t : Fin cfg0.N, condOut (grid0.coords t) ↔ t.val % 16 = 15 :=
  (by decide +kernel : ∀ t : Fin grid0.N, condOut (grid0.coords t) ↔ t.val % 16 = 15)

/-- No input window is ever idle; the output window is idle exactly off the points ≡ 15 (mod 16). -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem idle10_iff : ∀ t : Fin cfg0.N, cfg0.idle 10 (grid0.coords t) = true ↔ ¬ t.val % 16 = 15 :=
  (by decide +kernel : ∀ t : Fin grid0.N, cfg0.idle 10 (grid0.coords t) = true ↔ ¬ t.val % 16 = 15)

/-! ## The memrefs the body is called with -/

abbrev mw0 (t : Fin cfg0.N) : Memref sig .tc .vmem S1x4096x256 .f32 := win0_0.stage (cfg0.slots t 0)
abbrev hw0 (t : Fin cfg0.N) : (mw0 t).IsWhole := hstage0_0 ((cfg0.slots t 0).cast nbuf0_0)
abbrev mw1 (t : Fin cfg0.N) : Memref sig .tc .vmem S256x256 .f32 := win0_1.stage (cfg0.slots t 1)
abbrev hw1 (t : Fin cfg0.N) : (mw1 t).IsWhole := hstage0_1 ((cfg0.slots t 1).cast nbuf0_1)
abbrev mw2 (t : Fin cfg0.N) : Memref sig .tc .vmem S256 .f32 := win0_2.stage (cfg0.slots t 2)
abbrev hw2 (t : Fin cfg0.N) : (mw2 t).IsWhole := hstage0_2 ((cfg0.slots t 2).cast nbuf0_2)
abbrev mw3 (t : Fin cfg0.N) : Memref sig .tc .vmem S256x256 .f32 := win0_3.stage (cfg0.slots t 3)
abbrev hw3 (t : Fin cfg0.N) : (mw3 t).IsWhole := hstage0_3 ((cfg0.slots t 3).cast nbuf0_3)
abbrev mw4 (t : Fin cfg0.N) : Memref sig .tc .vmem S256 .f32 := win0_4.stage (cfg0.slots t 4)
abbrev hw4 (t : Fin cfg0.N) : (mw4 t).IsWhole := hstage0_4 ((cfg0.slots t 4).cast nbuf0_4)
abbrev mw5 (t : Fin cfg0.N) : Memref sig .tc .vmem S256x256 .f32 := win0_5.stage (cfg0.slots t 5)
abbrev hw5 (t : Fin cfg0.N) : (mw5 t).IsWhole := hstage0_5 ((cfg0.slots t 5).cast nbuf0_5)
abbrev mw6 (t : Fin cfg0.N) : Memref sig .tc .vmem S256 .f32 := win0_6.stage (cfg0.slots t 6)
abbrev hw6 (t : Fin cfg0.N) : (mw6 t).IsWhole := hstage0_6 ((cfg0.slots t 6).cast nbuf0_6)
abbrev mw7 (t : Fin cfg0.N) : Memref sig .tc .vmem S256x256 .f32 := win0_7.stage (cfg0.slots t 7)
abbrev hw7 (t : Fin cfg0.N) : (mw7 t).IsWhole := hstage0_7 ((cfg0.slots t 7).cast nbuf0_7)
abbrev mw8 (t : Fin cfg0.N) : Memref sig .tc .vmem S256 .f32 := win0_8.stage (cfg0.slots t 8)
abbrev hw8 (t : Fin cfg0.N) : (mw8 t).IsWhole := hstage0_8 ((cfg0.slots t 8).cast nbuf0_8)
abbrev mw9 (t : Fin cfg0.N) : Memref sig .tc .vmem S256x1 .f32 := win0_9.stage (cfg0.slots t 9)
abbrev hw9 (t : Fin cfg0.N) : (mw9 t).IsWhole := hstage0_9 ((cfg0.slots t 9).cast nbuf0_9)
abbrev mw10 (t : Fin cfg0.N) : Memref sig .tc .vmem S1x4096x256 .f32 := win0_10.stage (cfg0.slots t 10)
abbrev hw10 (t : Fin cfg0.N) : (mw10 t).IsWhole := hstage0_10 ((cfg0.slots t 10).cast nbuf0_10)
/-- The three scratch buffers: the transposed keys, the values, the batch's logits. -/
abbrev scKT : Memref sig .tc .vmem S256x4096 .f32 := Memref.whole cc0_scratch0
abbrev scV : Memref sig .tc .vmem S4096x256 .f32 := Memref.whole cc0_scratch1
abbrev scL : Memref sig .tc .vmem S4096x256 .f32 := Memref.whole cc0_scratch2

/-- What the region is handed besides the windows: the three scratch buffers at some contents and the generator's
    register at some state. -/
theorem PhiA_eq (c : Dev nD) :
    (Pipeline.ΦA spec0 c : sProp 𝕄)
      = iprop(iprop((∃ d, owns (c : Thread nD τ) scKT fullShare d) ∗ (∃ d, owns (c : Thread nD τ) scV fullShare d) ∗ (∃ d, owns (c : Thread nD τ) scL fullShare d)) ∗ (∃ r, prngReg c r)) := by
  unfold Pipeline.ΦA; rw [scopedRest0_eq]; simp only [scKT, scV, scL, owns_whole]; try rfl

/-! ## What a point computes

At point (b, q) the body reads rows 256 q … 256 q + 255 of the batch's block (`rectQ`), computes their logits against
the keys and values held in scratch, and writes them into the same rows of the logits scratch (`rectL`). -/

abbrev rectQ (i : grid0.Coords) : Rect S1x4096x256 := Rect.unit (s := S1x4096x256) (k0_off1 i) S1x256x256.size (k0_off1_inb i)
abbrev rectL (i : grid0.Coords) : Rect S4096x256 := Rect.unit (s := S4096x256) (k0_off2 i) S256x256.size (k0_off2_inb i)

/-- The logits of the point's 256 rows, from the batch block, the weights and the scratch's keys and values. -/
def tileOf (i : grid0.Coords) (x0 : Vec F S1x4096x256 .f32) (x1 : Vec F S256x256 .f32) (x2 : Vec F S256 .f32)
    (kT : Vec F S256x4096 .f32) (vv : Vec F S4096x256 .f32) (x7 : Vec F S256x256 .f32) (x8 : Vec F S256 .f32) : FVec F S256x256 .f32 :=
  k0_pay1 (k0_pay6 (View.ld x0 (rectQ i)) x1 x2 kT vv x7) x8

/-- The logits scratch after the point: the point's rows replaced. -/
def updL (i : grid0.Coords) (xs2 : Vec F S4096x256 .f32) (tile : FVec F S256x256 .f32) : Vec F S4096x256 .f32 :=
  (rectL i).overlay xs2 tile

/-- One store through a rectangle replaces the contents on the rectangle and nowhere else. -/
theorem read_writes_one {sg : RefSig} {κ : Kind} {sp : Space} {s : Shape} {e : EltTy} {Val : EltTy → Type}
    (v : View sg κ sp s e) (f : v.ty.Contents Val) (r : Rect s) (w : r.shape.Idx → Val e) :
    v.read Val (v.writes Val f [⟨r, w⟩]) = r.overlay (v.read Val f) w := by
  funext j
  by_cases hj : j ∈ r.set
  · obtain ⟨x, rfl⟩ : ∃ x, r.emb x = j := r.exists_idx_of_mem hj
    rw [View.read_writes_cons_emb, Rect.overlay_emb]
  · rw [View.read_writes_apply_of_forall_not_mem v f j [⟨r, w⟩] (fun p hp => by
      rw [List.mem_singleton] at hp; subst hp; exact hj), Rect.overlay_of_not_mem _ _ _ hj]

/-- The zero offsets of a whole-buffer access, of each rank the body uses. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

end Cert.KernelIdeal.Gen

end
-- ==== Proof.KernelIdeal.Values.lean ====
import proofs.«414912_j34961033789956_3_alg».proof.Proof.Gen.KernelIdeal.Frame
import proofs.«414912_j34961033789956_3_alg».proof.Proof.Gen.KernelIdeal.Skeleton
import proofs.«414912_j34961033789956_3_alg».proof.Proof.KernelIdeal.Shared
import Idealize.ShloMosaic.Lib.ValueIdx
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The argument arrays, and what each grid point sees of them

The first argument is a stack of 8 batches; the window over it hands the body one whole batch, the one the first grid
coordinate names, at every point of that batch. The nine other arguments are handed to the body whole at every point. -/

abbrev aX (c : Dev nD) : Vec F S8x4096x256 .f32 := V m c main_arg0
abbrev aWq (c : Dev nD) : Vec F S256x256 .f32 := V m c main_arg1
abbrev aBq (c : Dev nD) : Vec F S256 .f32 := V m c main_arg2
abbrev aWk (c : Dev nD) : Vec F S256x256 .f32 := V m c main_arg3
abbrev aBk (c : Dev nD) : Vec F S256 .f32 := V m c main_arg4
abbrev aWv (c : Dev nD) : Vec F S256x256 .f32 := V m c main_arg5
abbrev aBv (c : Dev nD) : Vec F S256 .f32 := V m c main_arg6
abbrev aWo (c : Dev nD) : Vec F S256x256 .f32 := V m c main_arg7
abbrev aBo (c : Dev nD) : Vec F S256 .f32 := V m c main_arg8
abbrev aCv (c : Dev nD) : Vec F S256x1 .f32 := V m c main_arg9

/-- The batch a grid point belongs to. -/
def bOf (t : Fin cfg0.N) : Fin 8 := ⟨t.val / 16, by have := t.isLt; have : cfg0.N = 128 := N_0; omega⟩

/-- Batch `b` of the first argument, as a block. -/
def xBatch (c : Dev nD) (b : Fin 8) : Vec F S1x4096x256 .f32 := fun y => aX m c (ix3 b (y 1) (y 2))

/-- The block indices of the eleven windows, decided over the grid: the first window's and the output's leading index
    is the batch, every other index is zero. -/
theorem idx_facts : ∀ t : Fin cfg0.N, win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 2) = 0 ∧ win0_9.index t (1 : Fin 2) = 0
    ∧ win0_10.index t (0 : Fin 3) = t.val / 16 ∧ win0_10.index t (1 : Fin 3) = 0 ∧ win0_10.index t (2 : Fin 3) = 0 :=
  (by decide +kernel : ∀ t : Fin grid0.N, _)

theorem iblk0_eq (c : Dev nD) (t : Fin cfg0.N) : (iblk m c 0 t : Vec F S1x4096x256 .f32) = xBatch m c (bOf t) := by
  obtain ⟨e0, e1, e2, -⟩ := idx_facts t
  funext y
  show V m c main_arg0 (((cfg0.win 0).blk t).view.emb y) = V m c main_arg0 (ix3 (bOf t) (y 1) (y 2))
  refine congrArg _ (funext fun a => Fin.ext ?_)
  match a with
  | ⟨0, _⟩ => show win0_0.index t (0 : Fin 3) * 1 + 1 * (y 0).val = t.val / 16; have hy : (y 0).val < 1 := (y 0).isLt; omega
  | ⟨1, _⟩ => show win0_0.index t (1 : Fin 3) * 4096 + 1 * (y 1).val = (y 1).val; omega
  | ⟨2, _⟩ => show win0_0.index t (2 : Fin 3) * 256 + 1 * (y 2).val = (y 2).val; omega

theorem iblk1_eq (c : Dev nD) (t : Fin cfg0.N) : (iblk m c 1 t : Vec F S256x256 .f32) = aWq m c := by
  obtain ⟨-, -, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem iblk2_eq (c : Dev nD) (t : Fin cfg0.N) : (iblk m c 2 t : Vec F S256 .f32) = aBq m c := by
  obtain ⟨-, -, -, -, -, e0, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 256 + 1 * (y 0).val = (y 0).val; omega

theorem iblk3_eq (c : Dev nD) (t : Fin cfg0.N) : (iblk m c 3 t : Vec F S256x256 .f32) = aWk m c := by
  obtain ⟨-, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem iblk4_eq (c : Dev nD) (t : Fin cfg0.N) : (iblk m c 4 t : Vec F S256 .f32) = aBk m c := by
  obtain ⟨-, -, -, -, -, -, -, -, e0, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 1) * 256 + 1 * (y 0).val = (y 0).val; omega

theorem iblk5_eq (c : Dev nD) (t : Fin cfg0.N) : (iblk m c 5 t : Vec F S256x256 .f32) = aWv m c := by
  obtain ⟨-, -, -, -, -, -, -, -, -, e0, e1, -⟩ := idx_facts t
  funext y
  show V m c main_arg5 (((cfg0.win 5).blk t).view.emb y) = V m c main_arg5 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem iblk6_eq (c : Dev nD) (t : Fin cfg0.N) : (iblk m c 6 t : Vec F S256 .f32) = aBv m c := by
  obtain ⟨-, -, -, -, -, -, -, -, -, -, -, e0, -⟩ := idx_facts t
  funext y
  show V m c main_arg6 (((cfg0.win 6).blk t).view.emb y) = V m c main_arg6 y
  refine congrArg _ (funext fun a => Fin.ext ?_)
  match a with
  | ⟨0, _⟩ => show win0_6.index t (0 : Fin 1) * 256 + 1 * (y 0).val = (y 0).val; omega

theorem iblk7_eq (c : Dev nD) (t : Fin cfg0.N) : (iblk m c 7 t : Vec F S256x256 .f32) = aWo m c := by
  obtain ⟨-, -, -, -, -, -, -, -, -, -, -, -, e0, e1, -⟩ := idx_facts t
  funext y
  show V m c main_arg7 (((cfg0.win 7).blk t).view.emb y) = V m c main_arg7 y
  refine congrArg _ (funext fun a => Fin.ext ?_)
  match a with
  | ⟨0, _⟩ => show win0_7.index t (0 : Fin 2) * 256 + 1 * (y 0).val = (y 0).val; omega
  | ⟨1, _⟩ => show win0_7.index t (1 : Fin 2) * 256 + 1 * (y 1).val = (y 1).val; omega

theorem iblk8_eq (c : Dev nD) (t : Fin cfg0.N) : (iblk m c 8 t : Vec F S256 .f32) = aBo m c := by
  obtain ⟨-, -, -, -, -, -, -, -, -, -, -, -, -, -, e0, -⟩ := idx_facts t
  funext y
  show V m c main_arg8 (((cfg0.win 8).blk t).view.emb y) = V m c main_arg8 y
  refine congrArg _ (funext fun a => Fin.ext ?_)
  match a with
  | ⟨0, _⟩ => show win0_8.index t (0 : Fin 1) * 256 + 1 * (y 0).val = (y 0).val; omega

theorem iblk9_eq (c : Dev nD) (t : Fin cfg0.N) : (iblk m c 9 t : Vec F S256x1 .f32) = aCv m c := by
  obtain ⟨-, -, -, -, -, -, -, -, -, -, -, -, -, -, -, e0, e1, -⟩ := idx_facts t
  funext y
  show V m c main_arg9 (((cfg0.win 9).blk t).view.emb y) = V m c main_arg9 y
  refine congrArg _ (funext fun a => Fin.ext ?_)
  match a with
  | ⟨0, _⟩ => show win0_9.index t (0 : Fin 2) * 256 + 1 * (y 0).val = (y 0).val; omega
  | ⟨1, _⟩ => show win0_9.index t (1 : Fin 2) * 1 + 1 * (y 1).val = (y 1).val; omega

/-! ## What the scratch buffers and the output block hold, batch by batch -/

/-- The transposed keys and the values of batch `b`. -/
abbrev KTb (c : Dev nD) (b : Fin 8) : Vec F S256x4096 .f32 := k0_pay4 (xBatch m c b) (aWk m c) (aBk m c)
abbrev Vb (c : Dev nD) (b : Fin 8) : Vec F S4096x256 .f32 := k0_pay5 (xBatch m c b) (aWv m c) (aBv m c)

/-- The 256 rows of logits point `t` computes. -/
def tileAt (c : Dev nD) (t : Fin cfg0.N) : FVec F S256x256 .f32 :=
  tileOf (grid0.coords t) (xBatch m c (bOf t)) (aWq m c) (aBq m c) (KTb m c (bOf t)) (Vb m c (bOf t)) (aWo m c) (aBo m c)

/-- The point of batch `b` that computes row `r` of its logits. -/
def ptOf (b : Fin 8) (r : Fin 4096) : Fin cfg0.N := ⟨16 * b.val + r.val / 256, by have := b.isLt; have := r.isLt; have : cfg0.N = 128 := N_0; omega⟩

/-- The logits of batch `b`, all 4096 rows. -/
def Lb (c : Dev nD) (b : Fin 8) : Vec F S4096x256 .f32 := fun j =>
  tileAt m c (ptOf b (j 0)) (ix2 (⟨(j 0).val % 256, Nat.mod_lt _ (by decide)⟩ : Fin 256) (j 1))

/-- The pooled batch `b`: what the output block holds after the batch's last point. -/
def outb (c : Dev nD) (b : Fin 8) : Vec F S1x4096x256 .f32 := k0_pay2 (Lb m c b) (aCv m c)

/-- The whole result array. -/
def GK (c : Dev nD) : Vec F S8x4096x256 .f32 := fun i => outb m c (i 0) (ix3 (0 : Fin 1) (i 1) (i 2))

end Cert.KernelIdeal.Gen

end
-- ==== Proof.KernelIdeal.RunA.lean ====
import proofs.«414912_j34961033789956_3_alg».proof.Proof.Gen.KernelIdeal.Frame
import proofs.«414912_j34961033789956_3_alg».proof.Proof.Gen.KernelIdeal.Skeleton
import proofs.«414912_j34961033789956_3_alg».proof.Proof.KernelIdeal.Shared
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point of a batch

The body first projects every row of the batch block to its key and its value and stores them — the keys transposed —
whole into their scratch buffers, whatever those held; then it does what every point does, against the keys and values
just stored. -/

set_option maxHeartbeats 1000000 in
theorem runA (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x1 .f32) (harg11 : arg11.IsWhole) (arg12 : Memref sig .tc .vmem S1x4096x256 .f32) (harg12 : arg12.IsWhole) (arg13 : Memref sig .tc .vmem S256x4096 .f32) (harg13 : arg13.IsWhole) (arg14 : Memref sig .tc .vmem S4096x256 .f32) (harg14 : arg14.IsWhole) (arg15 : Memref sig .tc .vmem S4096x256 .f32) (harg15 : arg15.IsWhole) (hc0 : condKV i) (hc1 : ¬condOut i)
    (x0 : Vec F S1x4096x256 .f32) (x1 : Vec F S256x256 .f32) (x2 : Vec F S256 .f32) (x3 : Vec F S256x256 .f32) (x4 : Vec F S256 .f32) (x5 : Vec F S256x256 .f32) (x6 : Vec F S256 .f32) (x7 : Vec F S256x256 .f32) (x8 : Vec F S256 .f32) (x9 : Vec F S256x1 .f32) (X10 : Vec F S1x4096x256 .f32) (xs0 : Vec F S256x4096 .f32) (xs1 : Vec F S4096x256 .f32) (xs2 : Vec F S4096x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare X10 ∗ owns (c : Thread nD τ) arg13 fullShare xs0 ∗ owns (c : Thread nD τ) arg14 fullShare xs1 ∗ owns (c : Thread nD τ) arg15 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare X10 ∗ owns (c : Thread nD τ) arg13 fullShare (k0_pay4 x0 x3 x4) ∗ owns (c : Thread nD τ) arg14 fullShare (k0_pay5 x0 x5 x6) ∗ owns (c : Thread nD τ) arg15 fullShare (updL i xs2 (tileOf i x0 x1 x2 (k0_pay4 x0 x3 x4) (k0_pay5 x0 x5 x6) x7 x8))) -∗ K ⟨⟩))
      ⊢ wp frame (wpE (defs₀ (F := F)) Variants.none c none) E (cc0__attn_pool_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_pool_kernel_eq_skeleton]; unfold cc0__attn_pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  obtain rfl := harg12.eq_unread hf10; obtain rfl := harg13.eq_unread hfs0; obtain rfl := harg14.eq_unread hfs1; obtain rfl := harg15.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr; swap; · iexact HS0
    ipureintro
    sl_unfold_run_names
    rw [View.read_writes_eq_canon _ _ _ (fun y => ⟨_, List.mem_singleton_self _, View.mem_set_unit_zero hz2 inb_S256x4096_S256x4096_0_0 y⟩), View.canon_unit_zero hz2]
    sl_unfold_run_names
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3, read_writes_one, View.readCov_unit_zero (S := S256x4096) _ hz2, View.readCov_unit_zero (S := S4096x256) _ hz2, View.readCov_unit_zero (S := S1x4096x256) _ hz3]
  isplitl [HS1]
  · iexists _; isplitr; swap; · iexact HS1
    ipureintro
    sl_unfold_run_names
    rw [View.read_writes_eq_canon _ _ _ (fun y => ⟨_, List.mem_singleton_self _, View.mem_set_unit_zero hz2 inb_S4096x256_S4096x256_0_0 y⟩), View.canon_unit_zero hz2]
    sl_unfold_run_names
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3, read_writes_one, View.readCov_unit_zero (S := S256x4096) _ hz2, View.readCov_unit_zero (S := S4096x256) _ hz2, View.readCov_unit_zero (S := S1x4096x256) _ hz3]
  iexists _; isplitr; swap; · iexact HS2
  ipureintro
  sl_unfold_run_names
  rw [read_writes_one, harg15.read_unread]
  unfold updL tileOf
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3, read_writes_one, View.readCov_unit_zero (S := S256x4096) _ hz2, View.readCov_unit_zero (S := S4096x256) _ hz2, View.readCov_unit_zero (S := S1x4096x256) _ hz3]

end Cert.KernelIdeal.Gen

end
-- ==== Proof.KernelIdeal.RunB.lean ====
import proofs.«414912_j34961033789956_3_alg».proof.Proof.Gen.KernelIdeal.Frame
import proofs.«414912_j34961033789956_3_alg».proof.Proof.Gen.KernelIdeal.Skeleton
import proofs.«414912_j34961033789956_3_alg».proof.Proof.KernelIdeal.Shared
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A middle point of a batch (neither its first nor its last)

The body recomputes nothing and writes no output: it computes the point's 256 rows of logits from the batch block, the
weights and the keys and values the scratch holds, and writes them into their rows of the logits scratch. Every other
buffer is handed back as it was found. -/

set_option maxHeartbeats 1000000 in
theorem runB (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x1 .f32) (harg11 : arg11.IsWhole) (arg12 : Memref sig .tc .vmem S1x4096x256 .f32) (harg12 : arg12.IsWhole) (arg13 : Memref sig .tc .vmem S256x4096 .f32) (harg13 : arg13.IsWhole) (arg14 : Memref sig .tc .vmem S4096x256 .f32) (harg14 : arg14.IsWhole) (arg15 : Memref sig .tc .vmem S4096x256 .f32) (harg15 : arg15.IsWhole) (hc0 : ¬condKV i) (hc1 : ¬condOut i)
    (x0 : Vec F S1x4096x256 .f32) (x1 : Vec F S256x256 .f32) (x2 : Vec F S256 .f32) (x3 : Vec F S256x256 .f32) (x4 : Vec F S256 .f32) (x5 : Vec F S256x256 .f32) (x6 : Vec F S256 .f32) (x7 : Vec F S256x256 .f32) (x8 : Vec F S256 .f32) (x9 : Vec F S256x1 .f32) (X10 : Vec F S1x4096x256 .f32) (xs0 : Vec F S256x4096 .f32) (xs1 : Vec F S4096x256 .f32) (xs2 : Vec F S4096x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare X10 ∗ owns (c : Thread nD τ) arg13 fullShare xs0 ∗ owns (c : Thread nD τ) arg14 fullShare xs1 ∗ owns (c : Thread nD τ) arg15 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare X10 ∗ owns (c : Thread nD τ) arg13 fullShare xs0 ∗ owns (c : Thread nD τ) arg14 fullShare xs1 ∗ owns (c : Thread nD τ) arg15 fullShare (updL i xs2 (tileOf i x0 x1 x2 xs0 xs1 x7 x8))) -∗ K ⟨⟩))
      ⊢ wp frame (wpE (defs₀ (F := F)) Variants.none c none) E (cc0__attn_pool_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_pool_kernel_eq_skeleton]; unfold cc0__attn_pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  obtain rfl := harg12.eq_unread hf10; obtain rfl := harg13.eq_unread hfs0; obtain rfl := harg14.eq_unread hfs1; obtain rfl := harg15.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [HS0]
  · iexists _; isplitr; · ipureintro; exact harg13.read_unread _
    iexact HS0
  isplitl [HS1]
  · iexists _; isplitr; · ipureintro; exact harg14.read_unread _
    iexact HS1
  iexists _; isplitr; swap; · iexact HS2
  ipureintro
  rw [read_writes_one, harg15.read_unread]
  unfold updL tileOf
  sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3]

end Cert.KernelIdeal.Gen

end
-- ==== Proof.KernelIdeal.RunC.lean ====
import proofs.«414912_j34961033789956_3_alg».proof.Proof.Gen.KernelIdeal.Frame
import proofs.«414912_j34961033789956_3_alg».proof.Proof.Gen.KernelIdeal.Skeleton
import proofs.«414912_j34961033789956_3_alg».proof.Proof.KernelIdeal.Shared
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The last point of a batch

After writing its own rows of logits the body reads the whole logits scratch back — the rows the batch's earlier points
wrote and its own —, pools it against the fixed vector, and stores the pooled batch whole into the output block. -/

set_option maxHeartbeats 1000000 in
theorem runC (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S256x256 .f32) (harg7 : arg7.IsWhole) (arg8 : Memref sig .tc .vmem S256 .f32) (harg8 : arg8.IsWhole) (arg9 : Memref sig .tc .vmem S256x256 .f32) (harg9 : arg9.IsWhole) (arg10 : Memref sig .tc .vmem S256 .f32) (harg10 : arg10.IsWhole) (arg11 : Memref sig .tc .vmem S256x1 .f32) (harg11 : arg11.IsWhole) (arg12 : Memref sig .tc .vmem S1x4096x256 .f32) (harg12 : arg12.IsWhole) (arg13 : Memref sig .tc .vmem S256x4096 .f32) (harg13 : arg13.IsWhole) (arg14 : Memref sig .tc .vmem S4096x256 .f32) (harg14 : arg14.IsWhole) (arg15 : Memref sig .tc .vmem S4096x256 .f32) (harg15 : arg15.IsWhole) (hc0 : ¬condKV i) (hc1 : condOut i)
    (x0 : Vec F S1x4096x256 .f32) (x1 : Vec F S256x256 .f32) (x2 : Vec F S256 .f32) (x3 : Vec F S256x256 .f32) (x4 : Vec F S256 .f32) (x5 : Vec F S256x256 .f32) (x6 : Vec F S256 .f32) (x7 : Vec F S256x256 .f32) (x8 : Vec F S256 .f32) (x9 : Vec F S256x1 .f32) (X10 : Vec F S1x4096x256 .f32) (xs0 : Vec F S256x4096 .f32) (xs1 : Vec F S4096x256 .f32) (xs2 : Vec F S4096x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare X10 ∗ owns (c : Thread nD τ) arg13 fullShare xs0 ∗ owns (c : Thread nD τ) arg14 fullShare xs1 ∗ owns (c : Thread nD τ) arg15 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k0_pay2 (updL i xs2 (tileOf i x0 x1 x2 xs0 xs1 x7 x8)) x9) ∗ owns (c : Thread nD τ) arg13 fullShare xs0 ∗ owns (c : Thread nD τ) arg14 fullShare xs1 ∗ owns (c : Thread nD τ) arg15 fullShare (updL i xs2 (tileOf i x0 x1 x2 xs0 xs1 x7 x8))) -∗ K ⟨⟩))
      ⊢ wp frame (wpE (defs₀ (F := F)) Variants.none c none) E (cc0__attn_pool_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_pool_kernel_eq_skeleton]; unfold cc0__attn_pool_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  obtain rfl := harg12.eq_unread hf10; obtain rfl := harg13.eq_unread hfs0; obtain rfl := harg14.eq_unread hfs1; obtain rfl := harg15.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    sl_unfold_run_names
    rw [View.read_writes_eq_canon _ _ _ (fun y => ⟨_, List.mem_singleton_self _, View.mem_set_unit_zero hz3 inb_S1x4096x256_S1x4096x256_0_0_0 y⟩), View.canon_unit_zero hz3]
    unfold updL tileOf
    sl_unfold_run_names
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3, read_writes_one, View.readCov_unit_zero (S := S256x4096) _ hz2, View.readCov_unit_zero (S := S4096x256) _ hz2, View.readCov_unit_zero (S := S1x4096x256) _ hz3]
  isplitl [HS0]
  · iexists _; isplitr; · ipureintro; exact harg13.read_unread _
    iexact HS0
  isplitl [HS1]
  · iexists _; isplitr; · ipureintro; exact harg14.read_unread _
    iexact HS1
  iexists _; isplitr; swap; · iexact HS2
  ipureintro
  sl_unfold_run_names
  rw [read_writes_one, harg15.read_unread]
  unfold updL tileOf
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S256) hz1, View.ld_unit_zero (S := S256x256) hz2, View.ld_unit_zero (S := S256x1) hz2, View.ld_unit_zero (S := S256x4096) hz2, View.ld_unit_zero (S := S4096x256) hz2, View.ld_unit_zero (S := S1x4096x256) hz3, read_writes_one, View.readCov_unit_zero (S := S256x4096) _ hz2, View.readCov_unit_zero (S := S4096x256) _ hz2, View.readCov_unit_zero (S := S1x4096x256) _ hz3]

end Cert.KernelIdeal.Gen

end
-- ==== Proof.KernelIdeal.Region.lean ====
import proofs.«414912_j34961033789956_3_alg».proof.Proof.Gen.KernelIdeal.Frame
import proofs.«414912_j34961033789956_3_alg».proof.Proof.Gen.KernelIdeal.Skeleton
import proofs.«414912_j34961033789956_3_alg».proof.Proof.KernelIdeal.Values
import proofs.«414912_j34961033789956_3_alg».proof.Proof.KernelIdeal.RunA
import proofs.«414912_j34961033789956_3_alg».proof.Proof.KernelIdeal.RunB
import proofs.«414912_j34961033789956_3_alg».proof.Proof.KernelIdeal.RunC
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The invariant between points

After point `n` (batch `b`, tile `q`) the first two scratch buffers hold the transposed keys and the values of batch
`b`, and the third holds, in its rows below 256 (q + 1), the logits of batch `b`; its other rows are whatever earlier
batches left. Before the first point the scratch holds anything. -/

/-- Contents `d` of the logits scratch agree with batch `b`'s logits on the rows the batch's points up to `n` wrote. -/
def RowsDone (c : Dev nD) (n : ℕ) (hn : n < cfg0.N) (d : Vec F S4096x256 .f32) : Prop :=
  ∀ j : S4096x256.Idx, (j 0).val < 256 * (n % 16 + 1) → d j = Lb m c (bOf ⟨n, hn⟩) j

def PhiS (c : Dev nD) : (n : ℕ) → n ≤ cfg0.N → sProp 𝕄
  | 0, _ => Pipeline.ΦA spec0 c
  | n + 1, hn => iprop(iprop(owns (c : Thread nD τ) scKT fullShare (KTb m c (bOf ⟨n, hn⟩)) ∗ owns (c : Thread nD τ) scV fullShare (Vb m c (bOf ⟨n, hn⟩)) ∗ (∃ d, ⌜RowsDone m c n hn d⌝ ∗ owns (c : Thread nD τ) scL fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scKT fullShare (KTb m c (bOf ⟨n, hn⟩)) ∗ owns (c : Thread nD τ) scV fullShare (Vb m c (bOf ⟨n, hn⟩)) ∗ (∃ d, ⌜RowsDone m c n hn d⌝ ∗ owns (c : Thread nD τ) scL fullShare d)) ∗ (∃ r, prngReg c r)) := rfl

theorem PhiS_pos (c : Dev nD) (n : ℕ) (h : n ≤ cfg0.N) (hz : n ≠ 0) :
    PhiS m c n h = iprop(iprop(owns (c : Thread nD τ) scKT fullShare (KTb m c (bOf ⟨n - 1, by omega⟩)) ∗ owns (c : Thread nD τ) scV fullShare (Vb m c (bOf ⟨n - 1, by omega⟩)) ∗ (∃ d, ⌜RowsDone m c (n - 1) (by omega) d⌝ ∗ owns (c : Thread nD τ) scL fullShare d)) ∗ (∃ r, prngReg c r)) := by
  cases n with
  | zero => exact absurd rfl hz
  | succ n => rfl

/-! ## The proof data -/

/-- Per core: the arrays as the region finds them; after the body at point `t` each input's buffer still at its block
    and the output's at the pooled batch (consulted only at a batch's last point, the only one that stores it); the
    invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xBatch m c (bOf t)
    | ⟨1, _⟩ => aWq m c
    | ⟨2, _⟩ => aBq m c
    | ⟨3, _⟩ => aWk m c
    | ⟨4, _⟩ => aBk m c
    | ⟨5, _⟩ => aWv m c
    | ⟨6, _⟩ => aBv m c
    | ⟨7, _⟩ => aWo m c
    | ⟨8, _⟩ => aBo m c
    | ⟨9, _⟩ => aCv m c
    | ⟨10, _⟩ => outb m c (bOf t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = xBatch m c (bOf t) := by dsimp only [dats]
theorem after_1 (c : Dev nD) (t : Fin cfg0.N) : (dats m 0 c).after 1 t = aWq m c := by dsimp only [dats]
theorem after_2 (c : Dev nD) (t : Fin cfg0.N) : (dats m 0 c).after 2 t = aBq m c := by dsimp only [dats]
theorem after_3 (c : Dev nD) (t : Fin cfg0.N) : (dats m 0 c).after 3 t = aWk m c := by dsimp only [dats]
theorem after_4 (c : Dev nD) (t : Fin cfg0.N) : (dats m 0 c).after 4 t = aBk m c := by dsimp only [dats]
theorem after_5 (c : Dev nD) (t : Fin cfg0.N) : (dats m 0 c).after 5 t = aWv m c := by dsimp only [dats]
theorem after_6 (c : Dev nD) (t : Fin cfg0.N) : (dats m 0 c).after 6 t = aBv m c := by dsimp only [dats]
theorem after_7 (c : Dev nD) (t : Fin cfg0.N) : (dats m 0 c).after 7 t = aWo m c := by dsimp only [dats]
theorem after_8 (c : Dev nD) (t : Fin cfg0.N) : (dats m 0 c).after 8 t = aBo m c := by dsimp only [dats]
theorem after_9 (c : Dev nD) (t : Fin cfg0.N) : (dats m 0 c).after 9 t = aCv m c := by dsimp only [dats]
theorem after_10 (c : Dev nD) (t : Fin cfg0.N) : (dats m 0 c).after 10 t = outb m c (bOf t) := by dsimp only [dats]

/-- Each input's current buffer holds its block at every point, fetched there or not. -/
theorem before_0 (c : Dev nD) (t : Fin cfg0.N) (d) : (dats m 0 c).before 0 t d = xBatch m c (bOf t) :=
  (before0_0_of m (dats m 0 c) (A_eq m c 0) (fun t => (after_0 m c t).trans (iblk0_eq m c t).symm) t d).trans (iblk0_eq m c t)
theorem before_1 (c : Dev nD) (t : Fin cfg0.N) (d) : (dats m 0 c).before 1 t d = aWq m c :=
  (before0_1_of m (dats m 0 c) (A_eq m c 1) (fun t => (after_1 m c t).trans (iblk1_eq m c t).symm) t d).trans (iblk1_eq m c t)
theorem before_2 (c : Dev nD) (t : Fin cfg0.N) (d) : (dats m 0 c).before 2 t d = aBq m c :=
  (before0_2_of m (dats m 0 c) (A_eq m c 2) (fun t => (after_2 m c t).trans (iblk2_eq m c t).symm) t d).trans (iblk2_eq m c t)
theorem before_3 (c : Dev nD) (t : Fin cfg0.N) (d) : (dats m 0 c).before 3 t d = aWk m c :=
  (before0_3_of m (dats m 0 c) (A_eq m c 3) (fun t => (after_3 m c t).trans (iblk3_eq m c t).symm) t d).trans (iblk3_eq m c t)
theorem before_4 (c : Dev nD) (t : Fin cfg0.N) (d) : (dats m 0 c).before 4 t d = aBk m c :=
  (before0_4_of m (dats m 0 c) (A_eq m c 4) (fun t => (after_4 m c t).trans (iblk4_eq m c t).symm) t d).trans (iblk4_eq m c t)
theorem before_5 (c : Dev nD) (t : Fin cfg0.N) (d) : (dats m 0 c).before 5 t d = aWv m c :=
  (before0_5_of m (dats m 0 c) (A_eq m c 5) (fun t => (after_5 m c t).trans (iblk5_eq m c t).symm) t d).trans (iblk5_eq m c t)
theorem before_6 (c : Dev nD) (t : Fin cfg0.N) (d) : (dats m 0 c).before 6 t d = aBv m c :=
  (before0_6_of m (dats m 0 c) (A_eq m c 6) (fun t => (after_6 m c t).trans (iblk6_eq m c t).symm) t d).trans (iblk6_eq m c t)
theorem before_7 (c : Dev nD) (t : Fin cfg0.N) (d) : (dats m 0 c).before 7 t d = aWo m c :=
  (before0_7_of m (dats m 0 c) (A_eq m c 7) (fun t => (after_7 m c t).trans (iblk7_eq m c t).symm) t d).trans (iblk7_eq m c t)
theorem before_8 (c : Dev nD) (t : Fin cfg0.N) (d) : (dats m 0 c).before 8 t d = aBo m c :=
  (before0_8_of m (dats m 0 c) (A_eq m c 8) (fun t => (after_8 m c t).trans (iblk8_eq m c t).symm) t d).trans (iblk8_eq m c t)
theorem before_9 (c : Dev nD) (t : Fin cfg0.N) (d) : (dats m 0 c).before 9 t d = aCv m c :=
  (before0_9_of m (dats m 0 c) (A_eq m c 9) (fun t => (after_9 m c t).trans (iblk9_eq m c t).symm) t d).trans (iblk9_eq m c t)

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ d, owns (c : Thread nD τ) (mw4 t) fullShare ((dats m 0 c).before 4 t d))
    ∗ (∃ d, owns (c : Thread nD τ) (mw5 t) fullShare ((dats m 0 c).before 5 t d))
    ∗ (∃ d, owns (c : Thread nD τ) (mw6 t) fullShare ((dats m 0 c).before 6 t d))
    ∗ (∃ d, owns (c : Thread nD τ) (mw7 t) fullShare ((dats m 0 c).before 7 t d))
    ∗ (∃ d, owns (c : Thread nD τ) (mw8 t) fullShare ((dats m 0 c).before 8 t d))
    ∗ (∃ d, owns (c : Thread nD τ) (mw9 t) fullShare ((dats m 0 c).before 9 t d))
    ∗ (∃ d, owns (c : Thread nD τ) (mw10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem coords1 : ∀ t : Fin cfg0.N, ((grid0.coords t) 1).val = t.val % 16 :=
  (by decide +kernel : ∀ t : Fin grid0.N, ((grid0.coords t) 1).val = t.val % 16)

theorem offL0 (t : Fin cfg0.N) : k0_off2 (grid0.coords t) (0 : Fin 2) = 256 * (t.val % 16) := by
  rw [k0_off2_eq]; show 256 * ((grid0.coords t) 1).val = _; rw [coords1 t]
theorem offL1 (t : Fin cfg0.N) : k0_off2 (grid0.coords t) (1 : Fin 2) = 0 := by
  rw [k0_off2_eq]; rfl

/-- Membership in the rows a point writes: rows 256 q … 256 q + 255, every column. -/
theorem mem_rectL (t : Fin cfg0.N) (j : S4096x256.Idx) :
    j ∈ (rectL (grid0.coords t)).set ↔ 256 * (t.val % 16) ≤ (j 0).val ∧ (j 0).val < 256 * (t.val % 16) + 256 := by
  rw [Rect.mem_set_unit, Fin.forall_fin_two, offL0 t, offL1 t]
  have h1 : (j 1).val < 256 := (j 1).isLt
  constructor
  · intro h; exact h.1
  · intro h; exact ⟨h, Nat.zero_le _, by show (j 1).val < 0 + 256; omega⟩

/-- The batch of the point before a point that is not a batch's first is the same batch. -/
theorem bOf_pred (t : Fin cfg0.N) (hz : t.val ≠ 0) (h0 : ¬t.val % 16 = 0) :
    bOf ⟨t.val - 1, Nat.lt_of_le_of_lt (Nat.sub_le _ _) t.isLt⟩ = bOf t := by
  apply Fin.ext; unfold bOf; dsimp only; omega

/-- The point's rows of the updated scratch are the point's logits; -/
theorem updL_in (c : Dev nD) (t : Fin cfg0.N) (d : Vec F S4096x256 .f32) (j : S4096x256.Idx)
    (hj : 256 * (t.val % 16) ≤ (j 0).val ∧ (j 0).val < 256 * (t.val % 16) + 256) :
    updL (grid0.coords t) d (tileAt m c t) j = Lb m c (bOf t) j := by
  have hN : t.val < 128 := lt_of_lt_of_eq t.isLt (show cfg0.N = 128 from N_0)
  obtain ⟨x, hx⟩ : ∃ x, (rectL (grid0.coords t)).emb x = j := (rectL (grid0.coords t)).exists_idx_of_mem ((mem_rectL t j).mpr hj)
  have e : updL (grid0.coords t) d (tileAt m c t) j = tileAt m c t x := by
    rw [← hx]; exact Rect.overlay_emb _ _ _ x
  have c0 : (j 0).val = 256 * (t.val % 16) + (x 0).val := by
    have := congrArg (fun i : S4096x256.Idx => (i 0).val) hx
    simp only [Rect.emb_apply, Rect.off_unit, Rect.stride_unit, Nat.one_mul] at this
    rw [offL0 t] at this; exact this.symm
  have c1 : (j 1).val = (x 1).val := by
    have := congrArg (fun i : S4096x256.Idx => (i 1).val) hx
    simp only [Rect.emb_apply, Rect.off_unit, Rect.stride_unit, Nat.one_mul] at this
    rw [offL1 t] at this; omega
  have hx0 : (x 0).val < 256 := (x 0).isLt
  rw [e]; unfold Lb
  have hp : ptOf (bOf t) (j 0) = t := by
    apply Fin.ext; unfold ptOf bOf; dsimp only; omega
  rw [hp]
  refine congrArg (tileAt m c t) (funext fun a => Fin.ext ?_)
  match a with
  | ⟨0, _⟩ => show (x 0).val = (j 0).val % 256; omega
  | ⟨1, _⟩ => show (x 1).val = (j 1).val; omega

/-- the other rows are as before. -/
theorem updL_out (c : Dev nD) (t : Fin cfg0.N) (d : Vec F S4096x256 .f32) (j : S4096x256.Idx)
    (hj : ¬(256 * (t.val % 16) ≤ (j 0).val ∧ (j 0).val < 256 * (t.val % 16) + 256)) :
    updL (grid0.coords t) d (tileAt m c t) j = d j := by
  unfold updL; exact Rect.overlay_of_not_mem _ _ _ (fun h => hj ((mem_rectL t j).mp h))

theorem rowsDone_first (c : Dev nD) (t : Fin cfg0.N) (h0 : t.val % 16 = 0) (d : Vec F S4096x256 .f32) :
    RowsDone m c t.val t.isLt (updL (grid0.coords t) d (tileAt m c t)) := by
  intro j hj
  exact updL_in m c t d j (by omega)

theorem rowsDone_step (c : Dev nD) (t : Fin cfg0.N) (hz : t.val ≠ 0) (h0 : ¬t.val % 16 = 0) (d : Vec F S4096x256 .f32)
    (hd : RowsDone m c (t.val - 1) (Nat.lt_of_le_of_lt (Nat.sub_le _ _) t.isLt) d) :
    RowsDone m c t.val t.isLt (updL (grid0.coords t) d (tileAt m c t)) := by
  intro j hj
  by_cases hin : 256 * (t.val % 16) ≤ (j 0).val ∧ (j 0).val < 256 * (t.val % 16) + 256
  · exact updL_in m c t d j hin
  · rw [updL_out m c t d j hin]
    have := hd j (by omega)
    rw [bOf_pred t hz h0] at this
    exact this

theorem rowsDone_full (c : Dev nD) (t : Fin cfg0.N) (h1 : t.val % 16 = 15) (d : Vec F S4096x256 .f32)
    (hd : RowsDone m c t.val t.isLt d) : d = Lb m c (bOf t) := by
  funext j
  have hj : (j 0).val < 4096 := (j 0).isLt
  exact hd j (by omega)

set_option maxHeartbeats 4000000 in
/-- The body at any point: which branches it takes is decided by the point's position in its batch; the invariant hands
    it the scratch as the point before left it and takes it back with this point's rows of logits added — and, at a
    batch's first point, with the batch's keys and values; at a batch's last point the output block is the pooled batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (mw0 t) fullShare ((dats m 0 c).after 0 t) from by
    unfold Dat.leavesExact; rw [live0 t], after_0]
  rw [show (dats m 0 c).leavesExact 1 t = owns (c : Thread nD τ) (mw1 t) fullShare ((dats m 0 c).after 1 t) from by
    unfold Dat.leavesExact; rw [live1 t], after_1]
  rw [show (dats m 0 c).leavesExact 2 t = owns (c : Thread nD τ) (mw2 t) fullShare ((dats m 0 c).after 2 t) from by
    unfold Dat.leavesExact; rw [live2 t], after_2]
  rw [show (dats m 0 c).leavesExact 3 t = owns (c : Thread nD τ) (mw3 t) fullShare ((dats m 0 c).after 3 t) from by
    unfold Dat.leavesExact; rw [live3 t], after_3]
  rw [show (dats m 0 c).leavesExact 4 t = owns (c : Thread nD τ) (mw4 t) fullShare ((dats m 0 c).after 4 t) from by
    unfold Dat.leavesExact; rw [live4 t], after_4]
  rw [show (dats m 0 c).leavesExact 5 t = owns (c : Thread nD τ) (mw5 t) fullShare ((dats m 0 c).after 5 t) from by
    unfold Dat.leavesExact; rw [live5 t], after_5]
  rw [show (dats m 0 c).leavesExact 6 t = owns (c : Thread nD τ) (mw6 t) fullShare ((dats m 0 c).after 6 t) from by
    unfold Dat.leavesExact; rw [live6 t], after_6]
  rw [show (dats m 0 c).leavesExact 7 t = owns (c : Thread nD τ) (mw7 t) fullShare ((dats m 0 c).after 7 t) from by
    unfold Dat.leavesExact; rw [live7 t], after_7]
  rw [show (dats m 0 c).leavesExact 8 t = owns (c : Thread nD τ) (mw8 t) fullShare ((dats m 0 c).after 8 t) from by
    unfold Dat.leavesExact; rw [live8 t], after_8]
  rw [show (dats m 0 c).leavesExact 9 t = owns (c : Thread nD τ) (mw9 t) fullShare ((dats m 0 c).after 9 t) from by
    unfold Dat.leavesExact; rw [live9 t], after_9]
  rw [PhiS_castSucc m c t]
  by_cases h0 : t.val % 16 = 0
  · have h1 : ¬t.val % 16 = 15 := by omega
    rw [Dat.leavesExact_idle (dats m 0 c) 10 t ((idle10_iff t).mpr h1) (Bool.eq_false_iff.mpr fun h => h1 ((flush0_10 t).mp h))]
    by_cases hz : t.val = 0
    ·
        rw [PhiS_zero m c _ _ hz, PhiA_eq]
        iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runA c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) scKT (Memref.isWhole_whole _) scV (Memref.isWhole_whole _) scL (Memref.isWhole_whole _) ((condKV_iff t).mpr h0) (fun h => h1 ((condOut_iff t).mp h)) (xBatch m c (bOf t)) (aWq m c) (aBq m c) (aWk m c) (aBk m c) (aWv m c) (aBv m c) (aWo m c) (aBo m c) (aCv m c) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexists _; isplitr; swap; · iexact HS2
            ipureintro
            exact rowsDone_first m c t h0 _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

    ·
        rw [PhiS_pos m c _ _ hz]
        iintro ⟨⟨⟨HS0, HS1, ⟨%s2, %hs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runA c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) scKT (Memref.isWhole_whole _) scV (Memref.isWhole_whole _) scL (Memref.isWhole_whole _) ((condKV_iff t).mpr h0) (fun h => h1 ((condOut_iff t).mp h)) (xBatch m c (bOf t)) (aWq m c) (aBq m c) (aWk m c) (aBk m c) (aWv m c) (aBv m c) (aWo m c) (aBo m c) (aCv m c) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        iintro ⟨H0, H1, H2, H3, H4, H5, H6, H7, H8, H9, H10, HS0, HS1, HS2⟩
        isplitl [HS0 HS1 HS2 Hg]
        · isplitl [HS0 HS1 HS2]
          · isplitl [HS0]; · iexact HS0
            isplitl [HS1]; · iexact HS1
            iexists _; isplitr; swap; · iexact HS2
            ipureintro
            exact rowsDone_first m c t h0 _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10

  · have hz : t.val ≠ 0 := fun h => h0 (by rw [h])
    by_cases h1 : t.val % 16 = 15
    · rw [show (dats m 0 c).leavesExact 10 t = owns (c : Thread nD τ) (mw10 t) fullShare ((dats m 0 c).after 10 t) from by
      unfold Dat.leavesExact; rw [Bool.eq_false_iff.mpr fun h => ((idle10_iff t).mp h) h1], after_10]
      skip
      rw [PhiS_pos m c _ _ hz, bOf_pred t hz h0]
      iintro ⟨⟨⟨HS0, HS1, ⟨%s2, %hs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hrows : RowsDone m c t.val t.isLt (updL (grid0.coords t) s2 (tileAt m c t)) := rowsDone_step m c t hz h0 s2 hs2
      have hfull : updL (grid0.coords t) s2 (tileAt m c t) = Lb m c (bOf t) := rowsDone_full m c t h1 _ hrows
      iapply (runC c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) scKT (Memref.isWhole_whole _) scV (Memref.isWhole_whole _) scL (Memref.isWhole_whole _) (fun h => h0 ((condKV_iff t).mp h)) ((condOut_iff t).mpr h1) (xBatch m c (bOf t)) (aWq m c) (aBq m c) (aWk m c) (aBk m c) (aWv m c) (aBv m c) (aWo m c) (aBo m c) (aCv m c) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact hrows
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      have e10 : k0_pay2 (updL (grid0.coords t) s2 (tileAt m c t)) (aCv m c) = outb m c (bOf t) := by rw [hfull]; rfl
      rw [← e10]; iexact H10

    · rw [Dat.leavesExact_idle (dats m 0 c) 10 t ((idle10_iff t).mpr h1) (Bool.eq_false_iff.mpr fun h => h1 ((flush0_10 t).mp h))]
      skip
      rw [PhiS_pos m c _ _ hz, bOf_pred t hz h0]
      iintro ⟨⟨⟨HS0, HS1, ⟨%s2, %hs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runB c (grid0.coords t) (mw0 t) (hw0 t) (mw1 t) (hw1 t) (mw2 t) (hw2 t) (mw3 t) (hw3 t) (mw4 t) (hw4 t) (mw5 t) (hw5 t) (mw6 t) (hw6 t) (mw7 t) (hw7 t) (mw8 t) (hw8 t) (mw9 t) (hw9 t) (mw10 t) (hw10 t) scKT (Memref.isWhole_whole _) scV (Memref.isWhole_whole _) scL (Memref.isWhole_whole _) (fun h => h0 ((condKV_iff t).mp h)) (fun h => h1 ((condOut_iff t).mp h)) (xBatch m c (bOf t)) (aWq m c) (aBq m c) (aWk m c) (aBk m c) (aWv m c) (aBv m c) (aWo m c) (aBo m c) (aCv m c) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact rowsDone_step m c t hz h0 s2 hs2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨⟨HS0, HS1, ⟨%d, -, HS2⟩⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- From any memory with zero counters every weakly fair execution of the program terminates, with every array of the
    pipeline at what the proof data computes and every other unscoped buffer as it was. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Gen

end
-- ==== Proof.KernelIdeal.Final.lean ====
import proofs.«414912_j34961033789956_3_alg».proof.Proof.Gen.KernelIdeal.Frame
import proofs.«414912_j34961033789956_3_alg».proof.Proof.Gen.KernelIdeal.Skeleton
import proofs.«414912_j34961033789956_3_alg».proof.Proof.KernelIdeal.Region
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The output array after the run

The output window's block is batch `b` of the result array; it is written back once per batch, after the batch's last
point, holding the pooled batch. The eight write-backs tile the array. -/

/-- What a batch's last point writes back is that batch of `GK`. -/
theorem flushed_eq (c : Dev nD) (t : Fin cfg0.N) :
    (dats m 0 c).flushed 10 t = ((cfg0.win 10).blk t).view.read (Elt F) (GK m c) := by
  obtain ⟨-, -, -, -, -, -, -, -, -, -, -, -, -, -, -, -, -, e0, e1, e2⟩ := idx_facts t
  show (cfg0.win 10).cut (grid0.coords t) ((dats m 0 c).after 10 t) = _
  rw [after_10]
  funext y
  show outb m c (bOf t) y = GK m c (((cfg0.win 10).blk t).view.emb y)
  have hy0 : (y 0).val < 1 := (y 0).isLt
  have hb : (((cfg0.win 10).blk t).view.emb y) (0 : Fin 3) = bOf t := by
    apply Fin.ext
    show win0_10.index t (0 : Fin 3) * 1 + 1 * (y 0).val = t.val / 16
    omega
  have h1 : (((cfg0.win 10).blk t).view.emb y) (1 : Fin 3) = y 1 := by
    apply Fin.ext
    show win0_10.index t (1 : Fin 3) * 4096 + 1 * (y 1).val = (y 1).val
    omega
  have h2 : (((cfg0.win 10).blk t).view.emb y) (2 : Fin 3) = y 2 := by
    apply Fin.ext
    show win0_10.index t (2 : Fin 3) * 256 + 1 * (y 2).val = (y 2).val
    omega
  unfold GK
  rw [hb, h1, h2]
  refine congrArg (outb m c (bOf t)) (funext fun a => Fin.ext ?_)
  match a with
  | ⟨0, _⟩ => show (y 0).val = 0; omega
  | ⟨1, _⟩ => rfl
  | ⟨2, _⟩ => rfl

/-- An index of the result array is in point `t`'s block iff each coordinate is in the block's range. -/
theorem mem_blk10 (t : Fin cfg0.N) (i : S8x4096x256.Idx) :
    i ∈ ((cfg0.win 10).blk t).view.set ↔ ∀ a : Fin 3, win0_10.index t a * S1x4096x256.size a ≤ (i a).val ∧ (i a).val < win0_10.index t a * S1x4096x256.size a + S1x4096x256.size a := by
  show i ∈ ((View.whole main_v0).slice (win0_10.rect t)).set ↔ _
  rw [View.set_slice_whole, Rect.mem_set_unit]
  exact Iff.rfl

/-- Every index of the result array is in the block of its batch's last point. -/
theorem cover10 (i : S8x4096x256.Idx) : ∃ t : Fin cfg0.N, (cfg0.win 10).flush t = true ∧ i ∈ ((cfg0.win 10).blk t).view.set := by
  have hN : cfg0.N = 128 := N_0
  have hi0 : (i 0).val < 8 := (i 0).isLt
  have hi1 : (i 1).val < 4096 := (i 1).isLt
  have hi2 : (i 2).val < 256 := (i 2).isLt
  let t : Fin cfg0.N := ⟨16 * (i 0).val + 15, by omega⟩
  obtain ⟨-, -, -, -, -, -, -, -, -, -, -, -, -, -, -, -, -, e0, e1, e2⟩ := idx_facts t
  have ht : t.val = 16 * (i 0).val + 15 := rfl
  refine ⟨t, (flush0_10 t).mpr (by omega), ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 4096 ≤ (i 1).val ∧ (i 1).val < win0_10.index t (1 : Fin 3) * 4096 + 4096; omega
  | ⟨2, _⟩ => show win0_10.index t (2 : Fin 3) * 256 ≤ (i 2).val ∧ (i 2).val < win0_10.index t (2 : Fin 3) * 256 + 256; omega

/-- The result array after the run. -/
theorem final10 (c : Dev nD) : (dats m 0 c).arrAt 10 cfg0.N = GK m c :=
  (dats m 0 c).arrAt_eq_of_cover 10 (GK m c) (fun t _ => flushed_eq m c t) cover10

/-- The run, read: the result array ends at `GK` of the argument arrays, and the argument arrays are unchanged. -/
theorem run_value : θ_run defs (onTc (τ := τ) (main (F := F))) ⟨m, fun _ => 0, ρ⟩ (fun r => ∀ c : Dev nD,
      r.2.mem ((c.tc : Thread nD τ).loc main_v0) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.Gen

end
-- ==== Proof.Spec.lean ====
/-
  The mathematics both programs compute, over the extended reals, one row of a batch at a time.

  A batch is a [4096 × 256] matrix `xb`; a row `xr` of it is projected to a query `lin xr Wq bq`, every row of the
  batch to a key and a value. The query's scores against the keys are scaled, exponentiated against their maximum
  and normalised (a softmax), the values averaged under those weights (the context), and the context projected once
  more (the logits row). The batch's logits are then pooled: each row is weighted by the softmax, over the rows, of
  its inner product with a fixed vector.

  Two spellings differ in where the scale and the normalisation are applied: `…K` scales the QUERY by a factor `c`
  and divides the weighted sum of values by the sum of weights AFTERWARDS; `…R` divides the SCORE by `r` and
  normalises the weights BEFORE they multiply the values. On finite arguments, with `c = 1/r`, the two are the same
  function: `rowK_eq_rowR` (Proof/Algebra.lean).
-/
import Idealize.ShloMosaic.PureOps.Ideal

noncomputable section

namespace Cert.Spec

open Idealize.ShloMosaic

/-- The maximum of finitely many extended reals, `⊥` for none. -/
def fmax {n : Nat} (f : Fin n → EReal) : EReal := (Finset.univ : Finset (Fin n)).fold max ⊥ f

/-- An affine map of a row of 256 entries: `xr · W + b`. -/
def lin (xr : Fin 256 → EReal) (W : Fin 256 → Fin 256 → EReal) (b : Fin 256 → EReal) (e : Fin 256) : EReal :=
  (∑ d : Fin 256, xr d * W d e) + b e

/-- The scores of a query against the keys, the query scaled by `c` first. -/
def scoreK (q : Fin 256 → EReal) (K : Fin 4096 → Fin 256 → EReal) (c : EReal) (k : Fin 4096) : EReal :=
  ∑ d : Fin 256, (q d * c) * K k d

/-- The scores of a query against the keys, each divided by `r`. -/
def scoreR (q : Fin 256 → EReal) (K : Fin 4096 → Fin 256 → EReal) (r : EReal) (k : Fin 4096) : EReal :=
  Ideal.div (∑ d : Fin 256, q d * K k d) r

/-- The exponential of a score less the largest score. -/
def pexp (sc : Fin 4096 → EReal) (k : Fin 4096) : EReal := Ideal.exp (sc k - fmax sc)

/-- The context: the weighted sum of the values divided by the sum of the weights. -/
def ctxK (sc : Fin 4096 → EReal) (V : Fin 4096 → Fin 256 → EReal) (d : Fin 256) : EReal :=
  Ideal.div (∑ k : Fin 4096, pexp sc k * V k d) (∑ k : Fin 4096, pexp sc k)

/-- The context: the sum of the values under the normalised weights. -/
def ctxR (sc : Fin 4096 → EReal) (V : Fin 4096 → Fin 256 → EReal) (d : Fin 256) : EReal :=
  ∑ k : Fin 4096, Ideal.div (pexp sc k) (∑ k' : Fin 4096, pexp sc k') * V k d

/-- One row of logits, the first spelling. -/
def rowK (xr : Fin 256 → EReal) (xb : Fin 4096 → Fin 256 → EReal)
    (Wq : Fin 256 → Fin 256 → EReal) (bq : Fin 256 → EReal) (Wk : Fin 256 → Fin 256 → EReal) (bk : Fin 256 → EReal)
    (Wv : Fin 256 → Fin 256 → EReal) (bv : Fin 256 → EReal) (Wo : Fin 256 → Fin 256 → EReal) (bo : Fin 256 → EReal)
    (c : EReal) : Fin 256 → EReal :=
  lin (ctxK (scoreK (lin xr Wq bq) (fun k => lin (xb k) Wk bk) c) (fun k => lin (xb k) Wv bv)) Wo bo

/-- One row of logits, the second spelling. -/
def rowR (xr : Fin 256 → EReal) (xb : Fin 4096 → Fin 256 → EReal)
    (Wq : Fin 256 → Fin 256 → EReal) (bq : Fin 256 → EReal) (Wk : Fin 256 → Fin 256 → EReal) (bk : Fin 256 → EReal)
    (Wv : Fin 256 → Fin 256 → EReal) (bv : Fin 256 → EReal) (Wo : Fin 256 → Fin 256 → EReal) (bo : Fin 256 → EReal)
    (r : EReal) : Fin 256 → EReal :=
  lin (ctxR (scoreR (lin xr Wq bq) (fun k => lin (xb k) Wk bk) r) (fun k => lin (xb k) Wv bv)) Wo bo

/-- A row's pooling score: its inner product with `cv`. -/
def poolw (L : Fin 4096 → Fin 256 → EReal) (cv : Fin 256 → EReal) (s : Fin 4096) : EReal :=
  ∑ d : Fin 256, L s d * cv d

/-- The pooled batch: each row times its softmax weight over the rows. -/
def pool (L : Fin 4096 → Fin 256 → EReal) (cv : Fin 256 → EReal) (s : Fin 4096) (e : Fin 256) : EReal :=
  L s e * Ideal.div (Ideal.exp (poolw L cv s - fmax (poolw L cv)))
    (∑ s' : Fin 4096, Ideal.exp (poolw L cv s' - fmax (poolw L cv)))

/-- The whole result, the first spelling. -/
def outK (x : Fin 8 → Fin 4096 → Fin 256 → EReal)
    (Wq : Fin 256 → Fin 256 → EReal) (bq : Fin 256 → EReal) (Wk : Fin 256 → Fin 256 → EReal) (bk : Fin 256 → EReal)
    (Wv : Fin 256 → Fin 256 → EReal) (bv : Fin 256 → EReal) (Wo : Fin 256 → Fin 256 → EReal) (bo : Fin 256 → EReal)
    (cv : Fin 256 → EReal) (c : EReal) (bi : Fin 8) (s : Fin 4096) (e : Fin 256) : EReal :=
  pool (fun s' => rowK (x bi s') (x bi) Wq bq Wk bk Wv bv Wo bo c) cv s e

/-- The whole result, the second spelling. -/
def outR (x : Fin 8 → Fin 4096 → Fin 256 → EReal)
    (Wq : Fin 256 → Fin 256 → EReal) (bq : Fin 256 → EReal) (Wk : Fin 256 → Fin 256 → EReal) (bk : Fin 256 → EReal)
    (Wv : Fin 256 → Fin 256 → EReal) (bv : Fin 256 → EReal) (Wo : Fin 256 → Fin 256 → EReal) (bo : Fin 256 → EReal)
    (cv : Fin 256 → EReal) (r : EReal) (bi : Fin 8) (s : Fin 4096) (e : Fin 256) : EReal :=
  pool (fun s' => rowR (x bi s') (x bi) Wq bq Wk bk Wv bv Wo bo r) cv s e

end Cert.Spec

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Consts.lean ====
/-
  The float constants the two programs spell, as the extended reals their bit patterns denote: the scale
  `1/16` applied to a query, the `256` whose square root `16` divides a score, the `-∞` a running maximum
  starts from, and the `+∞` an absolute value is compared against.
-/
import Idealize.ShloMosaic.PureOps.Ideal
import Mathlib.Analysis.SpecialFunctions.Pow.Real
import Mathlib.Analysis.SpecialFunctions.Sqrt

noncomputable section

namespace Cert.Consts

open Idealize.ShloMosaic

/-- The pattern `0x3D800000`: sign `+`, exponent field `123`, fraction `0`, that is `2^23 · 2^(123-127-23) = 2^(-4)`. -/
theorem ofBits_sixteenth : Ideal.ofBits .f32 0x3D800000#32 = ((1 / 16 : ℝ) : EReal) := by
  simp [Ideal.ofBits, Ideal.ieee, -EReal.coe_mul]; norm_num

/-- The pattern `0x43800000`: sign `+`, exponent field `135`, fraction `0`, that is `2^23 · 2^(135-127-23) = 2^8`. -/
theorem ofBits_256 : Ideal.ofBits .f32 0x43800000#32 = ((256 : ℝ) : EReal) := by
  simp [Ideal.ofBits, Ideal.ieee, -EReal.coe_mul]; norm_num

/-- The square root of `256` is `16`, since `16 · 16 = 256` and `16 ≥ 0`. -/
theorem sqrt_256 : Ideal.sqrt (Ideal.ofBits .f32 0x43800000#32) = ((16 : ℝ) : EReal) := by
  rw [ofBits_256, Ideal.sqrt_coe, if_neg (by norm_num)]
  have h : Real.sqrt 256 = 16 := by
    rw [show (256 : ℝ) = 16 ^ 2 by norm_num]
    exact Real.sqrt_sq (by norm_num)
  rw [h]

/-- The pattern `0xFF800000`: sign `-`, exponent field all ones, fraction `0`, the negative infinity. -/
theorem ofBits_neg_inf : Ideal.ofBits .f32 0xFF800000#32 = (⊥ : EReal) := by
  simp [Ideal.ofBits, Ideal.ieee]

/-- The pattern `0x7F800000`: sign `+`, exponent field all ones, fraction `0`, the positive infinity. -/
theorem ofBits_pos_inf : Ideal.ofBits .f32 0x7F800000#32 = (⊤ : EReal) := by
  simp [Ideal.ofBits, Ideal.ieee]

end Cert.Consts

end
-- ==== Proof.PayAt.lean ====
/-
  The kernel's five stored values read at one index, over the extended reals.

  Each stored value of the idealized kernel is a composition of pointwise arithmetic, layout changes (a unit axis
  added or dropped, a row or a column repeated, a transpose), sums and maxima along one axis, and matrix products
  into a zero accumulator. Read at one index, each of them is one of the functions of Proof/Spec.lean applied to
  the operands read by coordinates: the key and value projections are `lin` of a row, the attention block is the
  context `ctxK` of the scaled scores contracted with the output weights, the output row adds the output bias,
  and the pooled batch is `pool`.
-/
import proofs.«414912_j34961033789956_3_alg».proof.Proof.Gen.KernelIdeal.Skeleton
import proofs.«414912_j34961033789956_3_alg».proof.Proof.Spec
import proofs.«414912_j34961033789956_3_alg».proof.Proof.LibMatmulAt
import proofs.«414912_j34961033789956_3_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Cert.KernelIdeal Cert.KernelIdeal.Gen Cert.Spec Idealize.ShloMosaic Idealize.ShloMosaic.ValueIdx

/-! ## Where the four matrix products read their operands

Each product contracts the left operand's second axis with the right operand's first and has no batch axis: at
result index `i` and contraction position `q` the left operand is read at `(i 0, q)` and the right at `(q, i 1)`. -/

theorem lhsA_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsA_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhsA_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhsA_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The [4096 × 256] by [256 × 256] product into zero, at an entry. -/
theorem matmulA_at {φ₁ φ₂ : FTy} (prec : Option ContractPrecision) (l : FVec Ideal S4096x256 φ₁) (r : FVec Ideal S256x256 φ₂)
    (p : Fin 4096) (q : Fin 256) :
    matmul dot_S4096x256_S256x256_S4096x256_1_0_0_1_n_n prec l r (constant (F := Ideal) S4096x256 .f32 0x00000000#32) (ix2 p q)
      = ∑ k : Fin 256, l (ix2 p k) * r (ix2 k q) :=
  MatmulAt.matmul_zero_at dot_S4096x256_S256x256_S4096x256_1_0_0_1_n_n rfl rfl lhsA_0 lhsA_1 rhsA_0 rhsA_1 prec l r p q

theorem lhsB_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhsB_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhsB_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhsB_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The [256 × 256] by [256 × 256] product into zero, at an entry. -/
theorem matmulB_at {φ₁ φ₂ : FTy} (prec : Option ContractPrecision) (l : FVec Ideal S256x256 φ₁) (r : FVec Ideal S256x256 φ₂)
    (p : Fin 256) (q : Fin 256) :
    matmul dot_S256x256_S256x256_S256x256_1_0_0_1_n_n prec l r (constant (F := Ideal) S256x256 .f32 0x00000000#32) (ix2 p q)
      = ∑ k : Fin 256, l (ix2 p k) * r (ix2 k q) :=
  MatmulAt.matmul_zero_at dot_S256x256_S256x256_S256x256_1_0_0_1_n_n rfl rfl lhsB_0 lhsB_1 rhsB_0 rhsB_1 prec l r p q

theorem lhsC_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem lhsC_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
theorem rhsC_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
theorem rhsC_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- The [256 × 256] by [256 × 4096] product into zero, at an entry. -/
theorem matmulC_at {φ₁ φ₂ : FTy} (prec : Option ContractPrecision) (l : FVec Ideal S256x256 φ₁) (r : FVec Ideal S256x4096 φ₂)
    (p : Fin 256) (q : Fin 4096) :
    matmul dot_S256x256_S256x4096_S256x4096_1_0_0_1_n_n prec l r (constant (F := Ideal) S256x4096 .f32 0x00000000#32) (ix2 p q)
      = ∑ k : Fin 256, l (ix2 p k) * r (ix2 k q) :=
  MatmulAt.matmul_zero_at dot_S256x256_S256x4096_S256x4096_1_0_0_1_n_n rfl rfl lhsC_0 lhsC_1 rhsC_0 rhsC_1 prec l r p q

theorem lhsD_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhsD_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhsD_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhsD_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- The [256 × 4096] by [4096 × 256] product into zero, at an entry. -/
theorem matmulD_at {φ₁ φ₂ : FTy} (prec : Option ContractPrecision) (l : FVec Ideal S256x4096 φ₁) (r : FVec Ideal S4096x256 φ₂)
    (p : Fin 256) (q : Fin 256) :
    matmul dot_S256x4096_S4096x256_S256x256_1_0_0_1_n_n prec l r (constant (F := Ideal) S256x256 .f32 0x00000000#32) (ix2 p q)
      = ∑ k : Fin 4096, l (ix2 p k) * r (ix2 k q) :=
  MatmulAt.matmul_zero_at dot_S256x4096_S4096x256_S256x256_1_0_0_1_n_n rfl rfl lhsD_0 lhsD_1 rhsD_0 rhsD_1 prec l r p q

/-! ## Layout changes by coordinates: a trailing unit axis, and a column repeated -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums and maxima along one axis, by coordinates

The sum along an axis is the sum over that axis's coordinates of the source at the index with the coordinate
inserted; the maximum is the fold of `max` from the accumulator's value, which is `⊥`, that is `fmax`. -/

/-- The lane sum of a [4096 × 256] array, at row `s`. -/
theorem sumLane_at (v : FVec Ideal S4096x256 .f32) (h : S4096x256.Reduces [1] S4096) (hφ : FKind.Formats .f32)
    (hacc : (0x00000000#32 : BitVec 32) = 0x00000000#32) (s : Fin 4096) :
    multiReduction (F := Ideal) .add [1] S4096 v 0x00000000#32 h hφ hacc (ix1 s) = ∑ k : Fin 256, v (ix2 s k) := by
  refine (Ideal.multiReduction_add_single v 0x00000000#32 h hφ hacc (ix1 s)).trans ?_
  refine Finset.sum_congr rfl fun k _ => congrArg v ?_
  funext a
  match a with
  | ⟨0, _⟩ => exact Fin.ext rfl
  | ⟨1, _⟩ => exact Fin.ext rfl

/-- The sum down the one column of a [4096 × 1] array. -/
theorem sumCol_at (v : FVec Ideal S4096x1 .f32) (h : S4096x1.Reduces [0] S1) (hφ : FKind.Formats .f32)
    (hacc : (0x00000000#32 : BitVec 32) = 0x00000000#32) (c : Fin 1) :
    multiReduction (F := Ideal) .add [0] S1 v 0x00000000#32 h hφ hacc (ix1 c) = ∑ k : Fin 4096, v (ix2 k c) := by
  refine (Ideal.multiReduction_add_single v 0x00000000#32 h hφ hacc (ix1 c)).trans ?_
  refine Finset.sum_congr rfl fun k _ => congrArg v ?_
  funext a
  match a with
  | ⟨0, _⟩ => exact Fin.ext rfl
  | ⟨1, _⟩ => exact Fin.ext rfl

/-- The maximum down the one column of a [4096 × 1] array. -/
theorem maxCol_at (v : FVec Ideal S4096x1 .f32) (h : S4096x1.Reduces [0] S1) (hφ : FKind.Formats .f32)
    (hacc : (0xFF800000#32 : BitVec 32) = 0xFF800000#32) (c : Fin 1) :
    multiReduction (F := Ideal) .maximumf [0] S1 v 0xFF800000#32 h hφ hacc (ix1 c) = fmax (fun k : Fin 4096 => v (ix2 k c)) := by
  refine (Ideal.multiReduction_maximumf_single v 0xFF800000#32 h hφ hacc (ix1 c)).trans ?_
  have e : (v ∘ h.lift (ix1 c)) = fun k : Fin 4096 => v (ix2 k c) := funext fun k => congrArg v (by
    funext a
    match a with
    | ⟨0, _⟩ => exact Fin.ext rfl
    | ⟨1, _⟩ => exact Fin.ext rfl)
  rw [e]
  show (Finset.univ : Finset (Fin 4096)).fold max (Ideal.ofBits .f32 0xFF800000#32) _ = _
  rw [Cert.Consts.ofBits_neg_inf]
  rfl

/-! ## The key and value projections -/

/-- The key projection is stored transposed: entry `(d, s)` is row `s`'s projection at column `d`. -/
theorem pay4_at (x0 : Vec Ideal S1x4096x256 .f32) (w : Vec Ideal S256x256 .f32) (b : Vec Ideal S256 .f32) (d : Fin 256) (s : Fin 4096) :
    k0_pay4 (F := Ideal) x0 w b (ix2 d s)
      = lin (fun e => x0 (ix3 (0 : Fin 1) s e)) (fun e d' => w (ix2 e d')) (fun d' => b (ix1 d')) d := by
  unfold k0_pay4 k0_pay3
  rw [shapeCast_self, transpose_ix2_apply, addf_apply, matmulA_at, broadcastTo_1b_ab_apply, shapeCast_a_1a_apply]
  unfold lin
  simp only [truncf_apply, shapeCast_1ab_ab_apply]

/-- The value projection: entry `(s, d)` is row `s`'s projection at column `d`. -/
theorem pay5_at (x0 : Vec Ideal S1x4096x256 .f32) (w : Vec Ideal S256x256 .f32) (b : Vec Ideal S256 .f32) (s : Fin 4096) (d : Fin 256) :
    k0_pay5 (F := Ideal) x0 w b (ix2 s d)
      = lin (fun e => x0 (ix3 (0 : Fin 1) s e)) (fun e d' => w (ix2 e d')) (fun d' => b (ix1 d')) d := by
  unfold k0_pay5 k0_pay3
  rw [shapeCast_self, addf_apply, matmulA_at, broadcastTo_1b_ab_apply, shapeCast_a_1a_apply]
  unfold lin
  simp only [truncf_apply, shapeCast_1ab_ab_apply]

/-! ## The output row: the bias added -/

theorem pay1_at (v34 : FVec Ideal S256x256 .f32) (bo : Vec Ideal S256 .f32) (r e : Fin 256) :
    k0_pay1 (F := Ideal) v34 bo (ix2 r e) = v34 (ix2 r e) + bo (ix1 e) := by
  unfold k0_pay1
  rw [shapeCast_self, addf_apply, broadcastTo_1b_ab_apply, shapeCast_a_1a_apply]

/-! ## The pooled batch -/

/-- An exponential at an index is the exponential of the element. -/
theorem exp_apply {s : Shape} {φ : FTy} (a : FVec Ideal s φ) (i : s.Idx) : Idealize.ShloMosaic.exp a i = Ideal.exp (a i) := rfl

/-- The rows' pooling scores as a [4096 × 1] column: row `s` holds the inner product of row `s` of the batch with
    the pooling vector. -/
theorem poolwCol_eq (L : FVec Ideal S4096x256 .f32) (cv : FVec Ideal S256x1 .f32) (hφ : FKind.Formats .f32)
    (h0 : (0x00000000#32 : BitVec 32) = 0x00000000#32) :
    shapeCast S4096x1
        (multiReduction (F := Ideal) .add [1] S4096
          (mulf L (broadcastTo S4096x256 (shapeCast S1x256 (shapeCast S256 cv shapeCasts_S256x1_S256) shapeCasts_S256_S1x256)
            broadcasts_S1x256_S4096x256))
          0x00000000#32 reduces_S4096x256_S4096 hφ h0)
        shapeCasts_S4096_S4096x1
      = fun i => poolw (fun s' d => L (ix2 s' d)) (fun d => cv (ix2 d (0 : Fin 1))) (i 0) := by
  funext i
  obtain ⟨s, u, rfl⟩ : ∃ (s : Fin 4096) (u : Fin 1), i = ix2 s u := ⟨i 0, i 1, eq_ix2 i⟩
  rw [shapeCast_a_a1_apply, sumLane_at]
  unfold poolw
  simp only [mulf_apply, broadcastTo_1b_ab_apply, shapeCast_a_1a_apply, shapeCast_a1_a_apply]

/-- The pooled batch at `(0, s, e)`: row `s` at column `e` times the softmax, over the rows, of the rows' inner
    products with the pooling vector. -/
theorem pay2_at (L : Vec Ideal S4096x256 .f32) (cv : Vec Ideal S256x1 .f32) (s : Fin 4096) (e : Fin 256) :
    k0_pay2 (F := Ideal) L cv (ix3 (0 : Fin 1) s e)
      = Cert.Spec.pool (fun s' d => L (ix2 s' d)) (fun d => cv (ix2 d (0 : Fin 1))) s e := by
  unfold k0_pay2
  rw [poolwCol_eq]
  simp only [shapeCast_ab_1ab_apply, mulf_apply, broadcastTo_a1_ab_apply, divf_apply, exp_apply, subf_apply,
    broadcastTo_1b_ab_apply, shapeCast_a_1a_apply]
  rw [sumCol_at]
  simp only [exp_apply, subf_apply, broadcastTo_1b_ab_apply, shapeCast_a_1a_apply]
  rw [maxCol_at]
  rfl

/-! ## The attention block

One block of 256 query rows against the whole batch's keys and values, in four stages: the scaled query, the
scores, the context (the values averaged under the exponentials of the scores less their row maximum, divided by
the exponentials' sum), and the product with the output weights. -/

/-- The sum along a row of a [256 × 4096] array. -/
theorem sumRow_at (v : FVec Ideal S256x4096 .f32) (h : S256x4096.Reduces [1] S256) (hφ : FKind.Formats .f32)
    (hacc : (0x00000000#32 : BitVec 32) = 0x00000000#32) (r : Fin 256) :
    multiReduction (F := Ideal) .add [1] S256 v 0x00000000#32 h hφ hacc (ix1 r) = ∑ k : Fin 4096, v (ix2 r k) := by
  refine (Ideal.multiReduction_add_single v 0x00000000#32 h hφ hacc (ix1 r)).trans ?_
  refine Finset.sum_congr rfl fun k _ => congrArg v ?_
  funext a
  match a with
  | ⟨0, _⟩ => exact Fin.ext rfl
  | ⟨1, _⟩ => exact Fin.ext rfl

/-- The maximum along a row of a [256 × 4096] array. -/
theorem maxRow_at (v : FVec Ideal S256x4096 .f32) (h : S256x4096.Reduces [1] S256) (hφ : FKind.Formats .f32)
    (hacc : (0xFF800000#32 : BitVec 32) = 0xFF800000#32) (r : Fin 256) :
    multiReduction (F := Ideal) .maximumf [1] S256 v 0xFF800000#32 h hφ hacc (ix1 r) = fmax (fun k : Fin 4096 => v (ix2 r k)) := by
  refine (Ideal.multiReduction_maximumf_single v 0xFF800000#32 h hφ hacc (ix1 r)).trans ?_
  have e : (v ∘ h.lift (ix1 r)) = fun k : Fin 4096 => v (ix2 r k) := funext fun k => congrArg v (by
    funext a
    match a with
    | ⟨0, _⟩ => exact Fin.ext rfl
    | ⟨1, _⟩ => exact Fin.ext rfl)
  rw [e]
  show (Finset.univ : Finset (Fin 4096)).fold max (Ideal.ofBits .f32 0xFF800000#32) _ = _
  rw [Cert.Consts.ofBits_neg_inf]
  rfl

/-- The scaled query block: entry `(r, d)` is row `r`'s query projection at column `d`, times the scale. -/
theorem query_eq (v6 : FVec Ideal S1x256x256 .f32) (wq : FVec Ideal S256x256 .f32) (bq : FVec Ideal S256 .f32) :
    mulf
        (addf
          (matmul dot_S256x256_S256x256_S256x256_1_0_0_1_n_n none
            (truncf .bf16 (shapeCast S256x256 v6 shapeCasts_S1x256x256_S256x256) bitsLt_bf16_f32)
            (truncf .bf16 wq bitsLt_bf16_f32) (constant (F := Ideal) S256x256 .f32 0x00000000#32))
          (broadcastTo S256x256 (shapeCast S1x256 bq shapeCasts_S256_S1x256) broadcasts_S1x256_S256x256))
        (broadcast S256x256 (Scalar.ofBits (F := Ideal) .f32 0x3D800000#32))
      = fun i => lin (fun e' => v6 (ix3 (0 : Fin 1) (i 0) e')) (fun a b' => wq (ix2 a b')) (fun b' => bq (ix1 b')) (i 1)
          * Ideal.ofBits .f32 0x3D800000#32 := by
  funext i
  obtain ⟨r, d, rfl⟩ : ∃ (r : Fin 256) (d : Fin 256), i = ix2 r d := ⟨i 0, i 1, eq_ix2 i⟩
  rw [mulf_apply, addf_apply, matmulB_at, broadcastTo_1b_ab_apply, shapeCast_a_1a_apply, broadcast_apply]
  unfold lin
  simp only [truncf_apply, shapeCast_1ab_ab_apply]
  rfl

/-- The scores block: entry `(r, k)` is the scaled query row `r` against column `k` of the transposed keys. -/
theorem scores_eq {φ₁ φ₂ : FTy} (prec : Option ContractPrecision) (Q : FVec Ideal S256x256 φ₁) (kT : FVec Ideal S256x4096 φ₂) :
    matmul dot_S256x256_S256x4096_S256x4096_1_0_0_1_n_n prec Q kT (constant (F := Ideal) S256x4096 .f32 0x00000000#32)
      = fun i => ∑ d : Fin 256, Q (ix2 (i 0) d) * kT (ix2 d (i 1)) := by
  funext i
  obtain ⟨r, k, rfl⟩ : ∃ (r : Fin 256) (k : Fin 4096), i = ix2 r k := ⟨i 0, i 1, eq_ix2 i⟩
  exact matmulC_at prec Q kT r k

/-- The context block from a scores block `S`: entry `(r, d)` is the context of row `r`'s scores at column `d`. -/
theorem ctx_eq {φ₂ : FTy} (prec : Option ContractPrecision) (S : FVec Ideal S256x4096 .f32) (V : FVec Ideal S4096x256 φ₂)
    (hφ : FKind.Formats .f32) (h0 : (0x00000000#32 : BitVec 32) = 0x00000000#32)
    (hm : (0xFF800000#32 : BitVec 32) = 0xFF800000#32) :
    divf
        (matmul dot_S256x4096_S4096x256_S256x256_1_0_0_1_n_n prec
          (Idealize.ShloMosaic.exp (subf S (broadcastTo S256x4096
            (shapeCast S256x1 (multiReduction (F := Ideal) .maximumf [1] S256 S 0xFF800000#32 reduces_S256x4096_S256 hφ hm)
              shapeCasts_S256_S256x1) broadcasts_S256x1_S256x4096)))
          V (constant (F := Ideal) S256x256 .f32 0x00000000#32))
        (broadcastTo S256x256
          (shapeCast S256x1
            (multiReduction (F := Ideal) .add [1] S256
              (Idealize.ShloMosaic.exp (subf S (broadcastTo S256x4096
                (shapeCast S256x1 (multiReduction (F := Ideal) .maximumf [1] S256 S 0xFF800000#32 reduces_S256x4096_S256 hφ hm)
                  shapeCasts_S256_S256x1) broadcasts_S256x1_S256x4096)))
              0x00000000#32 reduces_S256x4096_S256 hφ h0)
            shapeCasts_S256_S256x1)
          broadcasts_S256x1_S256x256)
      = fun i => ctxK (fun k => S (ix2 (i 0) k)) (fun k d' => V (ix2 k d')) (i 1) := by
  funext i
  obtain ⟨r, d, rfl⟩ : ∃ (r : Fin 256) (d : Fin 256), i = ix2 r d := ⟨i 0, i 1, eq_ix2 i⟩
  rw [divf_apply, matmulD_at, broadcastTo_a1_ab_apply, shapeCast_a_a1_apply, sumRow_at]
  simp only [exp_apply, subf_apply, broadcastTo_a1_ab_apply, shapeCast_a_a1_apply]
  rw [maxRow_at]
  rfl

/-- The attention block at `(r, e)`: the context of row `r`, contracted with column `e` of the output weights. -/
theorem pay6_at (v6 : Vec Ideal S1x256x256 .f32) (wq : Vec Ideal S256x256 .f32) (bq : Vec Ideal S256 .f32)
    (kT : Vec Ideal S256x4096 .f32) (V : Vec Ideal S4096x256 .f32) (wo : Vec Ideal S256x256 .f32) (r e : Fin 256) :
    k0_pay6 (F := Ideal) v6 wq bq kT V wo (ix2 r e)
      = ∑ d : Fin 256,
          ctxK (scoreK (lin (fun e' => v6 (ix3 (0 : Fin 1) r e')) (fun a b' => wq (ix2 a b')) (fun b' => bq (ix1 b')))
                (fun k d' => kT (ix2 d' k)) (Ideal.ofBits .f32 0x3D800000#32))
              (fun k d' => V (ix2 k d')) d
            * wo (ix2 d e) := by
  unfold k0_pay6
  rw [query_eq, scores_eq, ctx_eq, matmulB_at]
  rfl

end Cert.KernelIdeal.PayAt

end
-- ==== Proof.Bridge.lean ====
/-
  The kernel's result array is the first spelling of the whole result.

  The result at `(b, s, e)` is the pooled batch `b` at `(s, e)`: the pooling of the batch's 4096 rows of logits.
  Row `s` of those logits is computed at the grid point `(b, s / 256)`, as row `s % 256` of the point's 256 rows:
  the point loads rows `256 · (s / 256) …` of the batch, so its row `s % 256` is the batch's row `s`; the
  transposed keys and the values held in scratch are the key and value projections of the batch's rows; and the
  attention block contracted with the output weights, plus the output bias, is the last affine map of the context.
  So the row is `rowK` of the batch's row `s` against the batch, and the result is `outK`.
-/
import proofs.«414912_j34961033789956_3_alg».proof.Proof.KernelIdeal.Values
import proofs.«414912_j34961033789956_3_alg».proof.Proof.PayAt
import proofs.«414912_j34961033789956_3_alg».proof.Proof.Spec
import Idealize.ShloMosaic.Lib.ValueIdx

set_option maxRecDepth 16384

noncomputable section

namespace Cert.KernelIdeal.Bridge

open Cert.KernelIdeal Cert.KernelIdeal.Gen Cert.KernelIdeal.PayAt Cert.Spec
open Idealize.ShloMosaic Idealize.ShloMosaic.TcCoe Idealize.ShloMosaic.ValueIdx
open Idealize.SL.Sem

variable (m : (ℓ : Loc nD τ sig) → Buf (Elt Ideal) ℓ)

/-- The second grid coordinate of a point, along the row-major enumeration of the 8 × 16 grid. -/
theorem coords1 : ∀ t : Fin cfg0.N, ((grid0.coords t) 1).val = t.val % 16 :=
  (by decide +kernel : ∀ t : Fin grid0.N, ((grid0.coords t) 1).val = t.val % 16)

/-- The point that computes row `r` of batch `b` belongs to batch `b`. -/
theorem bOf_ptOf (b : Fin 8) (r : Fin 4096) : bOf (ptOf b r) = b := by
  apply Fin.ext
  show (16 * b.val + r.val / 256) / 16 = b.val
  have := r.isLt; omega

/-- Row `s % 256` of the 256 rows the point of row `s` loads is row `s` of the batch: the point's second
    coordinate is `s / 256`, so its rows start at `256 · (s / 256)`. -/
theorem ld_row (c : Dev nD) (b : Fin 8) (s : Fin 4096) (e : Fin 256) :
    View.ld (xBatch m c b) (rectQ (grid0.coords (ptOf b s)))
        (ix3 (0 : Fin 1) (⟨s.val % 256, Nat.mod_lt _ (by decide)⟩ : Fin 256) e)
      = aX m c (ix3 b s e) := by
  have hc : ((grid0.coords (ptOf b s)) 1).val = s.val / 256 := by
    rw [coords1]
    show (16 * b.val + s.val / 256) % 16 = s.val / 256
    have := s.isLt; omega
  have ho := k0_off1_eq (grid0.coords (ptOf b s))
  show aX m c (ix3 b _ _) = aX m c (ix3 b s e)
  refine congrArg _ (funext fun a => Fin.ext ?_)
  match a with
  | ⟨0, _⟩ => rfl
  | ⟨1, _⟩ =>
    show k0_off1 (grid0.coords (ptOf b s)) 1 + 1 * (s.val % 256) = s.val
    rw [ho]
    show 256 * ((grid0.coords (ptOf b s)) 1).val + 1 * (s.val % 256) = s.val
    rw [hc]; omega
  | ⟨2, _⟩ =>
    show k0_off1 (grid0.coords (ptOf b s)) 2 + 1 * e.val = e.val
    rw [ho]
    show 0 + 1 * e.val = e.val
    omega

/-- The transposed keys of a batch, read by coordinates, are the key projections of its rows. -/
theorem KTb_at (c : Dev nD) (b : Fin 8) :
    (fun (k : Fin 4096) (d' : Fin 256) => KTb m c b (ix2 d' k))
      = fun k => lin (fun d => aX m c (ix3 b k d)) (fun d e => aWk m c (ix2 d e)) (fun e => aBk m c (ix1 e)) :=
  funext fun k => funext fun d' => pay4_at (xBatch m c b) (aWk m c) (aBk m c) d' k

/-- The values of a batch, read by coordinates, are the value projections of its rows. -/
theorem Vb_at (c : Dev nD) (b : Fin 8) :
    (fun (k : Fin 4096) (d' : Fin 256) => Vb m c b (ix2 k d'))
      = fun k => lin (fun d => aX m c (ix3 b k d)) (fun d e => aWv m c (ix2 d e)) (fun e => aBv m c (ix1 e)) :=
  funext fun k => funext fun d' => pay5_at (xBatch m c b) (aWv m c) (aBv m c) k d'

/-- Row `s` of a batch's logits is the first spelling's row of logits of the batch's row `s`. -/
theorem Lb_row (c : Dev nD) (b : Fin 8) (s : Fin 4096) (e : Fin 256) :
    Lb (F := Ideal) m c b (ix2 s e)
      = rowK (fun d => aX m c (ix3 b s d)) (fun k d => aX m c (ix3 b k d))
          (fun d e => aWq m c (ix2 d e)) (fun e => aBq m c (ix1 e))
          (fun d e => aWk m c (ix2 d e)) (fun e => aBk m c (ix1 e))
          (fun d e => aWv m c (ix2 d e)) (fun e => aBv m c (ix1 e))
          (fun d e => aWo m c (ix2 d e)) (fun e => aBo m c (ix1 e))
          (Ideal.ofBits .f32 0x3D800000#32) e := by
  show k0_pay1 (k0_pay6 (View.ld (xBatch m c (bOf (ptOf b s))) (rectQ (grid0.coords (ptOf b s))))
      (aWq m c) (aBq m c) (KTb m c (bOf (ptOf b s))) (Vb m c (bOf (ptOf b s))) (aWo m c)) (aBo m c)
      (ix2 (⟨s.val % 256, Nat.mod_lt _ (by decide)⟩ : Fin 256) e) = _
  rw [bOf_ptOf, pay1_at, pay6_at]
  have hq : (fun e' : Fin 256 => View.ld (xBatch m c b) (rectQ (grid0.coords (ptOf b s)))
        (ix3 (0 : Fin 1) (⟨s.val % 256, Nat.mod_lt _ (by decide)⟩ : Fin 256) e'))
      = fun d => aX m c (ix3 b s d) := funext (ld_row m c b s)
  rw [hq, KTb_at m, Vb_at m]
  rfl

/-- The pooled batch `b`, read by coordinates, is the first spelling of the whole result at batch `b`. -/
theorem outb_at (c : Dev nD) (b : Fin 8) (s : Fin 4096) (e : Fin 256) :
    outb (F := Ideal) m c b (ix3 (0 : Fin 1) s e)
      = outK (fun b s d => aX m c (ix3 b s d))
          (fun d e => aWq m c (ix2 d e)) (fun e => aBq m c (ix1 e))
          (fun d e => aWk m c (ix2 d e)) (fun e => aBk m c (ix1 e))
          (fun d e => aWv m c (ix2 d e)) (fun e => aBv m c (ix1 e))
          (fun d e => aWo m c (ix2 d e)) (fun e => aBo m c (ix1 e))
          (fun d => aCv m c (ix2 d (0 : Fin 1)))
          (Ideal.ofBits .f32 0x3D800000#32) b s e := by
  show k0_pay2 (Lb m c b) (aCv m c) (ix3 (0 : Fin 1) s e)
      = pool (fun s' : Fin 4096 => rowK (fun d => aX m c (ix3 b s' d)) (fun k d => aX m c (ix3 b k d))
          (fun d e => aWq m c (ix2 d e)) (fun e => aBq m c (ix1 e))
          (fun d e => aWk m c (ix2 d e)) (fun e => aBk m c (ix1 e))
          (fun d e => aWv m c (ix2 d e)) (fun e => aBv m c (ix1 e))
          (fun d e => aWo m c (ix2 d e)) (fun e => aBo m c (ix1 e))
          (Ideal.ofBits .f32 0x3D800000#32)) (fun d => aCv m c (ix2 d (0 : Fin 1))) s e
  rw [pay2_at]
  have h : (fun (s' : Fin 4096) (d : Fin 256) => Lb (F := Ideal) m c b (ix2 s' d))
      = fun s' : Fin 4096 => rowK (fun d => aX m c (ix3 b s' d)) (fun k d => aX m c (ix3 b k d))
          (fun d e => aWq m c (ix2 d e)) (fun e => aBq m c (ix1 e))
          (fun d e => aWk m c (ix2 d e)) (fun e => aBk m c (ix1 e))
          (fun d e => aWv m c (ix2 d e)) (fun e => aBv m c (ix1 e))
          (fun d e => aWo m c (ix2 d e)) (fun e => aBo m c (ix1 e))
          (Ideal.ofBits .f32 0x3D800000#32) :=
    funext fun s' => funext fun d => Lb_row m c b s' d
  rw [h]

/-- The kernel's result array is the first spelling of the whole result, on the ten argument arrays read by
    coordinates. -/
theorem GK_eq (c : Dev nD) (i : S8x4096x256.Idx) :
    GK (F := Ideal) m c i
      = outK (fun b s d => aX m c (ix3 b s d))
          (fun d e => aWq m c (ix2 d e)) (fun e => aBq m c (ix1 e))
          (fun d e => aWk m c (ix2 d e)) (fun e => aBk m c (ix1 e))
          (fun d e => aWv m c (ix2 d e)) (fun e => aBv m c (ix1 e))
          (fun d e => aWo m c (ix2 d e)) (fun e => aBo m c (ix1 e))
          (fun d => aCv m c (ix2 d (0 : Fin 1)))
          (Ideal.ofBits .f32 0x3D800000#32) (i 0) (i 1) (i 2) :=
  outb_at m c (i 0) (i 1) (i 2)

end Cert.KernelIdeal.Bridge

end
-- ==== Proof.RefValue.lean ====
/-
  The reference program computes the specification, entry by entry.

  Each stage of the reference — the three affine projections of a row, the scaled scores of a query against the
  keys of its batch, their row maximum, the exponentials against that maximum, their sum, the normalised weights,
  the context, the output projection, and the pooling of a batch's rows under the softmax of their inner products
  with a fixed vector — is read at one index and identified with the corresponding function of `Cert.Spec`.
  No stage is ever compared as a whole array: every statement is about one entry, over arbitrary argument arrays.
-/
import proofs.«414912_j34961033789956_3_alg».proof.Proof.Gen.ReferenceIdeal.Run
import proofs.«414912_j34961033789956_3_alg».proof.Proof.Gen.ReferenceIdeal.Read
import proofs.«414912_j34961033789956_3_alg».proof.Proof.Spec
import proofs.«414912_j34961033789956_3_alg».proof.Proof.Consts
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.Spec

variable [Cert.ReferenceIdeal.Facts]

/-! ## The arguments as families of rows, matrices and vectors -/

/-- The input as batches of rows of entries. -/
abbrev X (x : FVec Ideal S8x4096x256 .f32) : Fin 8 → Fin 4096 → Fin 256 → EReal := fun b s d => x (ix3 b s d)
/-- A weight matrix by (input, output) coordinate. -/
abbrev Mx (W : FVec Ideal S256x256 .f32) : Fin 256 → Fin 256 → EReal := fun d e => W (ix2 d e)
/-- A bias vector by coordinate. -/
abbrev Vc (v : FVec Ideal S256 .f32) : Fin 256 → EReal := fun e => v (ix1 e)
/-- The pooling vector, stored as a one-column matrix. -/
abbrev Cv (v : FVec Ideal S256x1 .f32) : Fin 256 → EReal := fun d => v (ix2 d (0 : Fin 1))
/-- The divisor of the scores: the square root of the constant the program spells. -/
abbrev rt : EReal := Ideal.sqrt (Ideal.ofBits .f32 0x43800000#32)

/-! ## Where each stage reads its operands

A projection's entry (b, s, e) reads row (b, s) of its left operand and column e of the weights; the bias is
broadcast along the first two axes. -/

theorem l0 (b : Fin 8) (s : Fin 4096) (e k : Fin 256) : lidx_main_v0 (ix3 b s e) k = ix3 b s k :=
  funext fun a => Fin.ext (by match a with | ⟨0, _⟩ => rfl | ⟨1, _⟩ => rfl | ⟨2, _⟩ => rfl)
theorem r0 (b : Fin 8) (s : Fin 4096) (e k : Fin 256) : ridx_main_v0 (ix3 b s e) k = ix2 k e :=
  funext fun a => Fin.ext (by match a with | ⟨0, _⟩ => rfl | ⟨1, _⟩ => rfl)
theorem i2 (b : Fin 8) (s : Fin 4096) (e : Fin 256) : idx_main_v1 (idx_main_v2 (ix3 b s e)) = ix1 e :=
  funext fun a => Fin.ext (by match a with | ⟨0, _⟩ => rfl)
theorem l4 (b : Fin 8) (s : Fin 4096) (e k : Fin 256) : lidx_main_v4 (ix3 b s e) k = ix3 b s k :=
  funext fun a => Fin.ext (by match a with | ⟨0, _⟩ => rfl | ⟨1, _⟩ => rfl | ⟨2, _⟩ => rfl)
theorem r4 (b : Fin 8) (s : Fin 4096) (e k : Fin 256) : ridx_main_v4 (ix3 b s e) k = ix2 k e :=
  funext fun a => Fin.ext (by match a with | ⟨0, _⟩ => rfl | ⟨1, _⟩ => rfl)
theorem i6 (b : Fin 8) (s : Fin 4096) (e : Fin 256) : idx_main_v5 (idx_main_v6 (ix3 b s e)) = ix1 e :=
  funext fun a => Fin.ext (by match a with | ⟨0, _⟩ => rfl)
theorem l8 (b : Fin 8) (s : Fin 4096) (e k : Fin 256) : lidx_main_v8 (ix3 b s e) k = ix3 b s k :=
  funext fun a => Fin.ext (by match a with | ⟨0, _⟩ => rfl | ⟨1, _⟩ => rfl | ⟨2, _⟩ => rfl)
theorem r8 (b : Fin 8) (s : Fin 4096) (e k : Fin 256) : ridx_main_v8 (ix3 b s e) k = ix2 k e :=
  funext fun a => Fin.ext (by match a with | ⟨0, _⟩ => rfl | ⟨1, _⟩ => rfl)
theorem i10 (b : Fin 8) (s : Fin 4096) (e : Fin 256) : idx_main_v9 (idx_main_v10 (ix3 b s e)) = ix1 e :=
  funext fun a => Fin.ext (by match a with | ⟨0, _⟩ => rfl)
theorem l28 (b : Fin 8) (s : Fin 4096) (e k : Fin 256) : lidx_main_v28 (ix3 b s e) k = ix3 b s k :=
  funext fun a => Fin.ext (by match a with | ⟨0, _⟩ => rfl | ⟨1, _⟩ => rfl | ⟨2, _⟩ => rfl)
theorem r28 (b : Fin 8) (s : Fin 4096) (e k : Fin 256) : ridx_main_v28 (ix3 b s e) k = ix2 k e :=
  funext fun a => Fin.ext (by match a with | ⟨0, _⟩ => rfl | ⟨1, _⟩ => rfl)
theorem i30 (b : Fin 8) (s : Fin 4096) (e : Fin 256) : idx_main_v29 (idx_main_v30 (ix3 b s e)) = ix1 e :=
  funext fun a => Fin.ext (by match a with | ⟨0, _⟩ => rfl)

/-- The score (b, s, k) contracts row (b, s) of the queries with row (b, k) of the keys. -/
theorem l13 (b : Fin 8) (s k : Fin 4096) (d : Fin 256) : lidx_main_v13 (ix3 b s k) d = ix3 b s d :=
  funext fun a => Fin.ext (by match a with | ⟨0, _⟩ => rfl | ⟨1, _⟩ => rfl | ⟨2, _⟩ => rfl)
theorem r13 (b : Fin 8) (s k : Fin 4096) (d : Fin 256) : ridx_main_v13 (ix3 b s k) d = ix3 b k d :=
  funext fun a => Fin.ext (by match a with | ⟨0, _⟩ => rfl | ⟨1, _⟩ => rfl | ⟨2, _⟩ => rfl)
/-- A row's maximum and a row's sum are broadcast back along the key axis. -/
theorem i20 (b : Fin 8) (s k : Fin 4096) : idx_main_v19 (idx_main_v20 (ix3 b s k)) = ix2 b s :=
  funext fun a => Fin.ext (by match a with | ⟨0, _⟩ => rfl | ⟨1, _⟩ => rfl)
theorem i23 (b : Fin 8) (s k : Fin 4096) : idx_main_v23 (ix2 b s) k = ix3 b s k :=
  funext fun a => Fin.ext (by match a with | ⟨0, _⟩ => rfl | ⟨1, _⟩ => rfl | ⟨2, _⟩ => rfl)
theorem i25 (b : Fin 8) (s k : Fin 4096) : idx_main_v24 (idx_main_v25 (ix3 b s k)) = ix2 b s :=
  funext fun a => Fin.ext (by match a with | ⟨0, _⟩ => rfl | ⟨1, _⟩ => rfl)
/-- The context (b, s, d) contracts the weights of row (b, s) with column d of the batch's values. -/
theorem l27 (b : Fin 8) (s k : Fin 4096) (d : Fin 256) : lidx_main_v27 (ix3 b s d) k = ix3 b s k :=
  funext fun a => Fin.ext (by match a with | ⟨0, _⟩ => rfl | ⟨1, _⟩ => rfl | ⟨2, _⟩ => rfl)
theorem r27 (b : Fin 8) (s k : Fin 4096) (d : Fin 256) : ridx_main_v27 (ix3 b s d) k = ix3 b k d :=
  funext fun a => Fin.ext (by match a with | ⟨0, _⟩ => rfl | ⟨1, _⟩ => rfl | ⟨2, _⟩ => rfl)
/-- The pooling score (b, s) contracts the logits row (b, s) with the one column of the pooling vector. -/
theorem l32 (b : Fin 8) (s : Fin 4096) (z : Fin 1) (k : Fin 256) : lidx_main_v32 (ix3 b s z) k = ix3 b s k :=
  funext fun a => Fin.ext (by match a with | ⟨0, _⟩ => rfl | ⟨1, _⟩ => rfl | ⟨2, _⟩ => rfl)
theorem r32 (b : Fin 8) (s : Fin 4096) (z : Fin 1) (k : Fin 256) : ridx_main_v32 (ix3 b s z) k = ix2 k z :=
  funext fun a => Fin.ext (by match a with | ⟨0, _⟩ => rfl | ⟨1, _⟩ => rfl)
/-- A batch's maximum and sum over its rows are broadcast back along the rows. -/
theorem i37 (b : Fin 8) (s : Fin 4096) (z : Fin 1) : idx_main_v36 (idx_main_v37 (ix3 b s z)) = ix2 b (0 : Fin 1) :=
  funext fun a => Fin.ext (by match a with | ⟨0, _⟩ => rfl | ⟨1, _⟩ => rfl)
theorem i40 (b : Fin 8) (z : Fin 1) (k : Fin 4096) : idx_main_v40 (ix2 b z) k = ix3 b k z :=
  funext fun a => Fin.ext (by match a with | ⟨0, _⟩ => rfl | ⟨1, _⟩ => rfl | ⟨2, _⟩ => rfl)
theorem i42 (b : Fin 8) (s : Fin 4096) (z : Fin 1) : idx_main_v41 (idx_main_v42 (ix3 b s z)) = ix2 b (0 : Fin 1) :=
  funext fun a => Fin.ext (by match a with | ⟨0, _⟩ => rfl | ⟨1, _⟩ => rfl)
/-- A row's pooling weight is broadcast along the row. -/
theorem i44 (b : Fin 8) (s : Fin 4096) (e : Fin 256) : idx_main_v44 (ix3 b s e) = ix3 b s (0 : Fin 1) :=
  funext fun a => Fin.ext (by match a with | ⟨0, _⟩ => rfl | ⟨1, _⟩ => rfl | ⟨2, _⟩ => rfl)

/-! ## A maximum over one axis, from minus infinity

The reduce with a maximum body is a fold of `max` over the reduced axis's coordinates, started at the initial
value; started at `⊥` it is the specification's `fmax`. -/

theorem hred2 : S8x4096x4096.Reduces [2] S8x4096 := by decide
theorem hred1 : S8x4096x1.Reduces [1] S8x1 := by decide

/-- The result index (b, s) with the key coordinate k put back is (b, s, k). -/
theorem lift2 (b : Fin 8) (s : Fin 4096) (k : Fin (S8x4096x4096.size 2)) :
    hred2.lift (ix2 b s) k = ix3 b s (⟨k.val, k.isLt⟩ : Fin 4096) :=
  funext fun a => Fin.ext (by match a with | ⟨0, _⟩ => rfl | ⟨1, _⟩ => rfl | ⟨2, _⟩ => rfl)
/-- The result index (b, z) with the row coordinate k put back is (b, k, z). -/
theorem lift1 (b : Fin 8) (z : Fin 1) (k : Fin (S8x4096x1.size 1)) :
    hred1.lift (ix2 b z) k = ix3 b (⟨k.val, k.isLt⟩ : Fin 4096) z :=
  funext fun a => Fin.ext (by match a with | ⟨0, _⟩ => rfl | ⟨1, _⟩ => rfl | ⟨2, _⟩ => rfl)

/-- The maximum over the keys of a score slab, at row (b, s). -/
theorem rowmax_at (y : FVec Ideal S8x4096x4096 .f32) (b : Fin 8) (s : Fin 4096) :
    Host.reduce FloatOps.maximumf y (val_main_cst_0 (F := Ideal)) reducesTo_S8x4096x4096_S8x4096_d2 h_S_ (ix2 b s)
      = fmax (fun k => y (ix3 b s k)) := by
  rw [Host.reduce_eq_fold_single FloatOps.maximumf y _ reducesTo_S8x4096x4096_S8x4096_d2 hred2 h_S_, val_main_cst_0_apply,
    Ideal.ofBits_def, Cert.Consts.ofBits_neg_inf]
  have hf : (y ∘ hred2.lift (ix2 b s)) = fun k : Fin 4096 => y (ix3 b s k) := funext fun k => congrArg y (lift2 b s k)
  exact congrArg (fun f => Finset.fold max (⊥ : EReal) f (Finset.univ : Finset (Fin 4096))) hf

/-- The maximum over the rows of a batch's pooling scores. -/
theorem colmax_at (y : FVec Ideal S8x4096x1 .f32) (b : Fin 8) (z : Fin 1) :
    Host.reduce FloatOps.maximumf y (val_main_cst_3 (F := Ideal)) reducesTo_S8x4096x1_S8x1_d1 h_S_ (ix2 b z)
      = fmax (fun k => y (ix3 b k z)) := by
  rw [Host.reduce_eq_fold_single FloatOps.maximumf y _ reducesTo_S8x4096x1_S8x1_d1 hred1 h_S_, val_main_cst_3_apply,
    Ideal.ofBits_def, Cert.Consts.ofBits_neg_inf]
  have hf : (y ∘ hred1.lift (ix2 b z)) = fun k : Fin 4096 => y (ix3 b k z) := funext fun k => congrArg y (lift1 b z k)
  exact congrArg (fun f => Finset.fold max (⊥ : EReal) f (Finset.univ : Finset (Fin 4096))) hf

/-! ## The stages, each at one entry -/

section Stages

variable (x0 : FVec Ideal S8x4096x256 .f32) (x1 : FVec Ideal S256x256 .f32) (x2 : FVec Ideal S256 .f32)
  (x3 : FVec Ideal S256x256 .f32) (x4 : FVec Ideal S256 .f32) (x5 : FVec Ideal S256x256 .f32) (x6 : FVec Ideal S256 .f32)
  (x7 : FVec Ideal S256x256 .f32) (x8 : FVec Ideal S256 .f32) (x9 : FVec Ideal S256x1 .f32)

/-- The query of row (b, s): the row times the query weights plus the bias. -/
theorem q_at (b : Fin 8) (s : Fin 4096) (e : Fin 256) :
    val_main_v3 (F := Ideal) x0 x1 x2 (ix3 b s e) = lin (X x0 b s) (Mx x1) (Vc x2) e := by
  rw [val_main_v3_apply, val_main_v0_apply, val_main_v2_apply, val_main_v1_apply]
  simp only [Ideal.addf_def, l0, r0, i2]
  rfl

/-- The key of row (b, s). -/
theorem k_at (b : Fin 8) (s : Fin 4096) (e : Fin 256) :
    val_main_v7 (F := Ideal) x0 x3 x4 (ix3 b s e) = lin (X x0 b s) (Mx x3) (Vc x4) e := by
  rw [val_main_v7_apply, val_main_v4_apply, val_main_v6_apply, val_main_v5_apply]
  simp only [Ideal.addf_def, l4, r4, i6]
  rfl

/-- The value of row (b, s). -/
theorem v_at (b : Fin 8) (s : Fin 4096) (e : Fin 256) :
    val_main_v11 (F := Ideal) x0 x5 x6 (ix3 b s e) = lin (X x0 b s) (Mx x5) (Vc x6) e := by
  rw [val_main_v11_apply, val_main_v8_apply, val_main_v10_apply, val_main_v9_apply]
  simp only [Ideal.addf_def, l8, r8, i10]
  rfl

/-- The scores of row (b, s) against the keys of batch b, each divided by the square root. -/
abbrev Sc (b : Fin 8) (s : Fin 4096) : Fin 4096 → EReal :=
  scoreR (lin (X x0 b s) (Mx x1) (Vc x2)) (fun k => lin (X x0 b k) (Mx x3) (Vc x4)) rt

theorem score_at (b : Fin 8) (s k : Fin 4096) :
    val_main_v15 (F := Ideal) x0 x1 x2 x3 x4 (ix3 b s k) = Sc x0 x1 x2 x3 x4 b s k := by
  rw [val_main_v15_apply, val_main_v13_apply, val_main_v14_apply, val_main_v12_apply, val_main_cst_apply]
  simp only [Ideal.hostDivf_def, Ideal.hostUnary_sqrt_def, Ideal.ofBits_def, l13, r13, q_at, k_at]
  rfl

/-- The largest score of row (b, s): the maximum with the broadcast minus infinity changes nothing. -/
theorem max_at (b : Fin 8) (s : Fin 4096) :
    val_main_v18 (F := Ideal) x0 x1 x2 x3 x4 (ix2 b s) = fmax (Sc x0 x1 x2 x3 x4 b s) := by
  rw [val_main_v18_apply, val_main_v17_apply, val_main_cst_1_apply]
  unfold val_main_v16
  rw [rowmax_at]
  simp only [Ideal.maximumf_def, Ideal.ofBits_def, Cert.Consts.ofBits_neg_inf, max_bot_left, score_at]

/-- The exponential of a score less the row's largest. -/
theorem pexp_at (b : Fin 8) (s k : Fin 4096) :
    val_main_v22 (F := Ideal) x0 x1 x2 x3 x4 (ix3 b s k) = pexp (Sc x0 x1 x2 x3 x4 b s) k := by
  rw [val_main_v22_apply, val_main_v21_apply, val_main_v20_apply, val_main_v19_apply, i20, score_at, max_at]
  simp only [Ideal.hostUnary_exp_def, Ideal.subf_def]
  rfl

/-- The sum of a row's exponentials: the sum starts from zero. -/
theorem sum_at (b : Fin 8) (s : Fin 4096) :
    val_main_v23 (F := Ideal) x0 x1 x2 x3 x4 (ix2 b s) = ∑ k : Fin 4096, pexp (Sc x0 x1 x2 x3 x4 b s) k := by
  rw [val_main_v23_apply, val_main_cst_2_apply]
  simp only [Ideal.ofBits_def, Ideal.ofBits_zero_f32, zero_add, i23, pexp_at]

/-- The normalised weight of key k for row (b, s). -/
theorem w_at (b : Fin 8) (s k : Fin 4096) :
    val_main_v26 (F := Ideal) x0 x1 x2 x3 x4 (ix3 b s k)
      = Ideal.div (pexp (Sc x0 x1 x2 x3 x4 b s) k) (∑ k' : Fin 4096, pexp (Sc x0 x1 x2 x3 x4 b s) k') := by
  rw [val_main_v26_apply, val_main_v25_apply, val_main_v24_apply, i25, pexp_at, sum_at]
  rfl

/-- The context of row (b, s): the batch's values under the row's weights. -/
theorem ctx_at (b : Fin 8) (s : Fin 4096) (d : Fin 256) :
    val_main_v27 (F := Ideal) x0 x1 x2 x3 x4 x5 x6 (ix3 b s d)
      = ctxR (Sc x0 x1 x2 x3 x4 b s) (fun k => lin (X x0 b k) (Mx x5) (Vc x6)) d := by
  rw [val_main_v27_apply]
  simp only [l27, r27, w_at, v_at]
  rfl

/-- The logits of row s of batch b. -/
abbrev Lg (b : Fin 8) (s : Fin 4096) : Fin 256 → EReal :=
  rowR (X x0 b s) (X x0 b) (Mx x1) (Vc x2) (Mx x3) (Vc x4) (Mx x5) (Vc x6) (Mx x7) (Vc x8) rt

theorem logits_at (b : Fin 8) (s : Fin 4096) (e : Fin 256) :
    val_main_v31 (F := Ideal) x0 x1 x2 x3 x4 x5 x6 x7 x8 (ix3 b s e) = Lg x0 x1 x2 x3 x4 x5 x6 x7 x8 b s e := by
  rw [val_main_v31_apply, val_main_v28_apply, val_main_v30_apply, val_main_v29_apply]
  simp only [Ideal.addf_def, l28, r28, i30, ctx_at]
  rfl

/-- The pooling score of row s of batch b: its logits against the pooling vector. -/
theorem poolw_at (b : Fin 8) (s : Fin 4096) :
    val_main_v32 (F := Ideal) x0 x1 x2 x3 x4 x5 x6 x7 x8 x9 (ix3 b s (0 : Fin 1)) = poolw (Lg x0 x1 x2 x3 x4 x5 x6 x7 x8 b) (Cv x9) s := by
  rw [val_main_v32_apply]
  simp only [l32, r32, logits_at]
  rfl

/-- The largest pooling score of batch b. -/
theorem pmax_at (b : Fin 8) :
    val_main_v35 (F := Ideal) x0 x1 x2 x3 x4 x5 x6 x7 x8 x9 (ix2 b (0 : Fin 1)) = fmax (poolw (Lg x0 x1 x2 x3 x4 x5 x6 x7 x8 b) (Cv x9)) := by
  rw [val_main_v35_apply, val_main_v34_apply, val_main_cst_4_apply]
  unfold val_main_v33
  rw [colmax_at]
  simp only [Ideal.maximumf_def, Ideal.ofBits_def, Cert.Consts.ofBits_neg_inf, max_bot_left, poolw_at]

/-- The exponential of a pooling score less the batch's largest. -/
theorem pe_at (b : Fin 8) (s : Fin 4096) :
    val_main_v39 (F := Ideal) x0 x1 x2 x3 x4 x5 x6 x7 x8 x9 (ix3 b s (0 : Fin 1)) = Ideal.exp (poolw (Lg x0 x1 x2 x3 x4 x5 x6 x7 x8 b) (Cv x9) s - fmax (poolw (Lg x0 x1 x2 x3 x4 x5 x6 x7 x8 b) (Cv x9))) := by
  rw [val_main_v39_apply, val_main_v38_apply, val_main_v37_apply, val_main_v36_apply, i37, poolw_at, pmax_at]
  rfl

/-- The sum of a batch's pooling exponentials. -/
theorem ps_at (b : Fin 8) :
    val_main_v40 (F := Ideal) x0 x1 x2 x3 x4 x5 x6 x7 x8 x9 (ix2 b (0 : Fin 1)) = ∑ s' : Fin 4096, Ideal.exp (poolw (Lg x0 x1 x2 x3 x4 x5 x6 x7 x8 b) (Cv x9) s' - fmax (poolw (Lg x0 x1 x2 x3 x4 x5 x6 x7 x8 b) (Cv x9))) := by
  rw [val_main_v40_apply, val_main_cst_5_apply]
  simp only [Ideal.ofBits_def, Ideal.ofBits_zero_f32, zero_add, i40, pe_at]

/-- The pooling weight of row s of batch b. -/
theorem pw_at (b : Fin 8) (s : Fin 4096) :
    val_main_v43 (F := Ideal) x0 x1 x2 x3 x4 x5 x6 x7 x8 x9 (ix3 b s (0 : Fin 1))
      = Ideal.div (Ideal.exp (poolw (Lg x0 x1 x2 x3 x4 x5 x6 x7 x8 b) (Cv x9) s - fmax (poolw (Lg x0 x1 x2 x3 x4 x5 x6 x7 x8 b) (Cv x9)))) (∑ s' : Fin 4096, Ideal.exp (poolw (Lg x0 x1 x2 x3 x4 x5 x6 x7 x8 b) (Cv x9) s' - fmax (poolw (Lg x0 x1 x2 x3 x4 x5 x6 x7 x8 b) (Cv x9)))) := by
  rw [val_main_v43_apply, val_main_v42_apply, val_main_v41_apply, i42, pe_at, ps_at]
  rfl

/-- The result at (b, s, e): the logits entry times the row's pooling weight. -/
theorem out_at (b : Fin 8) (s : Fin 4096) (e : Fin 256) :
    val_main_v45 (F := Ideal) x0 x1 x2 x3 x4 x5 x6 x7 x8 x9 (ix3 b s e)
      = outR (X x0) (Mx x1) (Vc x2) (Mx x3) (Vc x4) (Mx x5) (Vc x6) (Mx x7) (Vc x8) (Cv x9) rt b s e := by
  rw [val_main_v45_apply, val_main_v44_apply, i44, logits_at, pw_at]
  rfl

/-- The reference's composed term is the specification's second spelling, at every index. -/
theorem term_eq (i : S8x4096x256.Idx) :
    val_main_v45 (F := Ideal) x0 x1 x2 x3 x4 x5 x6 x7 x8 x9 i
      = outR (fun b s d => x0 (ix3 b s d)) (fun d e => x1 (ix2 d e)) (fun e => x2 (ix1 e)) (fun d e => x3 (ix2 d e))
          (fun e => x4 (ix1 e)) (fun d e => x5 (ix2 d e)) (fun e => x6 (ix1 e)) (fun d e => x7 (ix2 d e)) (fun e => x8 (ix1 e))
          (fun d => x9 (ix2 d (0 : Fin 1))) (Ideal.sqrt (Ideal.ofBits .f32 0x43800000#32)) (i 0) (i 1) (i 2) :=
  (congrArg (val_main_v45 (F := Ideal) x0 x1 x2 x3 x4 x5 x6 x7 x8 x9) (eq_ix3 i)).trans (out_at x0 x1 x2 x3 x4 x5 x6 x7 x8 x9 (i 0) (i 1) (i 2))

end Stages

/-- The run's result buffer is the specification's second spelling of the arguments' launch contents. -/
theorem res_eq (m : (ℓ : Loc nD τ sig) → Buf (Elt Ideal) ℓ) (c : Dev nD) :
    Cert.ReferenceIdeal.Value.res_out0 (F := Ideal) m c
      = fun i => outR (fun b s d => m ((c.tc : Thread nD τ).loc main_arg0) (ix3 b s d))
          (fun d e => m ((c.tc : Thread nD τ).loc main_arg1) (ix2 d e)) (fun e => m ((c.tc : Thread nD τ).loc main_arg2) (ix1 e))
          (fun d e => m ((c.tc : Thread nD τ).loc main_arg3) (ix2 d e)) (fun e => m ((c.tc : Thread nD τ).loc main_arg4) (ix1 e))
          (fun d e => m ((c.tc : Thread nD τ).loc main_arg5) (ix2 d e)) (fun e => m ((c.tc : Thread nD τ).loc main_arg6) (ix1 e))
          (fun d e => m ((c.tc : Thread nD τ).loc main_arg7) (ix2 d e)) (fun e => m ((c.tc : Thread nD τ).loc main_arg8) (ix1 e))
          (fun d => m ((c.tc : Thread nD τ).loc main_arg9) (ix2 d (0 : Fin 1)))
          (Ideal.sqrt (Ideal.ofBits .f32 0x43800000#32)) (i 0) (i 1) (i 2) := by
  funext i
  show Cert.ReferenceIdeal.Value.res_main_v45 (F := Ideal) m c i = _
  rw [val_main_v45_eq]
  exact term_eq _ _ _ _ _ _ _ _ _ _ i

end Cert.ReferenceIdeal.RefValue

end
-- ==== Proof.Algebra.lean ====
/-
  The two spellings of one row of logits agree on finite arguments.

  With every input, weight and bias a real, the queries, keys and values are reals (a finite sum of products of
  reals plus a real). The scaled scores agree entrywise: `Σ_d (q_d · (1/16)) · K_kd = (Σ_d q_d · K_kd) · (1/16)`,
  and a division by the nonzero real `16` is the product with `1/16`. The scores are reals, so their maximum
  over the nonempty index set is a real `m`, each weight `exp (s_k - m)` is a positive real, and so is their sum
  `l`. Dividing the weighted sum of the values by `l` and weighting the values by `p_k / l` are then the same
  real: `(Σ_k p_k · V_kd) · (1/l) = Σ_k (p_k · (1/l)) · V_kd`. The last projection and the pooling are applied to
  equal arguments.
-/
import proofs.«414912_j34961033789956_3_alg».proof.Proof.Spec
import Mathlib.Data.EReal.Basic
import Mathlib.Data.EReal.Operations
import Mathlib.Data.Finset.Fold
import Mathlib.Algebra.BigOperators.Ring.Finset
import Mathlib.Algebra.Order.BigOperators.Group.Finset
import Mathlib.Analysis.Complex.Exponential

noncomputable section

namespace Cert.Spec

open Idealize.ShloMosaic

/-! ### Coercions of finite sums and maxima -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, started from `⊥`, of finitely many reals over a nonempty index set is a real. -/
theorem fold_max_coe {ι : Type*} (t : Finset ι) (ht : t.Nonempty) (f : ι → ℝ) :
    ∃ m : ℝ, t.fold max ⊥ (fun i => (f i : EReal)) = (m : EReal) := by
  classical
  induction t using Finset.induction_on with
  | empty => exact absurd ht Finset.not_nonempty_empty
  | insert a t ha ih =>
    rw [Finset.fold_insert ha]
    rcases t.eq_empty_or_nonempty with rfl | hne
    · exact ⟨f a, by rw [Finset.fold_empty, max_eq_left bot_le]⟩
    · obtain ⟨m, hm⟩ := ih hne
      exact ⟨max (f a) m, by rw [hm]; exact (EReal.coe_strictMono.monotone.map_max).symm⟩

/-! ### Each stage on reals -/

/-- An affine map of reals is a real. -/
theorem lin_coe (x : Fin 256 → ℝ) (W : Fin 256 → Fin 256 → ℝ) (b : Fin 256 → ℝ) (e : Fin 256) :
    lin (fun d => (x d : EReal)) (fun d e => (W d e : EReal)) (fun e => (b e : EReal)) e
      = (((∑ d : Fin 256, x d * W d e) + b e : ℝ) : EReal) := by
  show (∑ d : Fin 256, (x d : EReal) * (W d e : EReal)) + (b e : EReal) = _
  rw [EReal.coe_add, coe_sum]
  simp only [EReal.coe_mul]

/-- The scores of a real query scaled by a real, against real keys. -/
theorem scoreK_coe (q : Fin 256 → ℝ) (K : Fin 4096 → Fin 256 → ℝ) (c : ℝ) (k : Fin 4096) :
    scoreK (fun d => (q d : EReal)) (fun k d => (K k d : EReal)) (c : EReal) k
      = ((∑ d : Fin 256, (q d * c) * K k d : ℝ) : EReal) := by
  show (∑ d : Fin 256, ((q d : EReal) * (c : EReal)) * (K k d : EReal)) = _
  rw [coe_sum]
  simp only [EReal.coe_mul]

/-- The scores of a real query against real keys, divided by a nonzero real. -/
theorem scoreR_coe (q : Fin 256 → ℝ) (K : Fin 4096 → Fin 256 → ℝ) (r : ℝ) (hr : r ≠ 0) (k : Fin 4096) :
    scoreR (fun d => (q d : EReal)) (fun k d => (K k d : EReal)) (r : EReal) k
      = (((∑ d : Fin 256, q d * K k d) * (1 / r) : ℝ) : EReal) := by
  show Ideal.div (∑ d : Fin 256, (q d : EReal) * (K k d : EReal)) (r : EReal) = _
  rw [Ideal.div_coe hr, EReal.coe_mul, coe_sum]
  simp only [EReal.coe_mul]

/-- Scaling the query by `1/16` and dividing the score by `16` give the same real scores. -/
theorem scoreK_eq_scoreR_coe (q : Fin 256 → ℝ) (K : Fin 4096 → Fin 256 → ℝ) :
    scoreK (fun d => (q d : EReal)) (fun k d => (K k d : EReal)) ((1 / 16 : ℝ) : EReal)
      = scoreR (fun d => (q d : EReal)) (fun k d => (K k d : EReal)) ((16 : ℝ) : EReal) := by
  funext k
  rw [scoreK_coe, scoreR_coe q K 16 (by norm_num), EReal.coe_eq_coe_iff, Finset.sum_mul]
  exact Finset.sum_congr rfl (fun d _ => by ring)

/-- On real scores and real values the two contexts agree: the weights `exp (s_k - m)` are positive reals, so
    is their sum `l`, and `(Σ_k p_k · V_kd) · (1/l) = Σ_k (p_k · (1/l)) · V_kd`. -/
theorem ctxK_eq_ctxR_coe (s : Fin 4096 → ℝ) (V : Fin 4096 → Fin 256 → ℝ) :
    ctxK (fun k => (s k : EReal)) (fun k d => (V k d : EReal))
      = ctxR (fun k => (s k : EReal)) (fun k d => (V k d : EReal)) := by
  funext d
  obtain ⟨m, hm⟩ : ∃ m : ℝ, fmax (fun k : Fin 4096 => (s k : EReal)) = (m : EReal) :=
    fold_max_coe Finset.univ Finset.univ_nonempty s
  have hp : ∀ k : Fin 4096, pexp (fun k => (s k : EReal)) k = ((Real.exp (s k - m) : ℝ) : EReal) := by
    intro k
    show Ideal.exp ((s k : EReal) - fmax (fun k : Fin 4096 => (s k : EReal))) = _
    rw [hm, ← EReal.coe_sub, Ideal.exp_coe]
  have hl : (0 : ℝ) < ∑ k : Fin 4096, Real.exp (s k - m) :=
    Finset.sum_pos (fun k _ => Real.exp_pos _) Finset.univ_nonempty
  have hL : (∑ k : Fin 4096, ((Real.exp (s k - m) : ℝ) : EReal))
      = ((∑ k : Fin 4096, Real.exp (s k - m) : ℝ) : EReal) := (coe_sum _ _).symm
  show Ideal.div (∑ k : Fin 4096, pexp (fun k => (s k : EReal)) k * (V k d : EReal))
        (∑ k : Fin 4096, pexp (fun k => (s k : EReal)) k)
      = ∑ k : Fin 4096, Ideal.div (pexp (fun k => (s k : EReal)) k)
          (∑ k' : Fin 4096, pexp (fun k => (s k : EReal)) k') * (V k d : EReal)
  simp only [hp, hL, Ideal.div_coe hl.ne', ← EReal.coe_mul]
  rw [← coe_sum, ← coe_sum, ← EReal.coe_mul, EReal.coe_eq_coe_iff, Finset.sum_mul]
  exact Finset.sum_congr rfl (fun k _ => by ring)

/-! ### One row, and the whole result -/

theorem rowK_eq_rowR (xr : Fin 256 → EReal) (xb : Fin 4096 → Fin 256 → EReal)
    (Wq : Fin 256 → Fin 256 → EReal) (bq : Fin 256 → EReal) (Wk : Fin 256 → Fin 256 → EReal) (bk : Fin 256 → EReal)
    (Wv : Fin 256 → Fin 256 → EReal) (bv : Fin 256 → EReal) (Wo : Fin 256 → Fin 256 → EReal) (bo : Fin 256 → EReal)
    (c r : EReal) (hc : c = ((1 / 16 : ℝ) : EReal)) (hr : r = ((16 : ℝ) : EReal))
    (hxr : ∀ d, ∃ t : ℝ, xr d = (t : EReal)) (hxb : ∀ k d, ∃ t : ℝ, xb k d = (t : EReal))
    (hWq : ∀ d e, ∃ t : ℝ, Wq d e = (t : EReal)) (hbq : ∀ e, ∃ t : ℝ, bq e = (t : EReal))
    (hWk : ∀ d e, ∃ t : ℝ, Wk d e = (t : EReal)) (hbk : ∀ e, ∃ t : ℝ, bk e = (t : EReal))
    (hWv : ∀ d e, ∃ t : ℝ, Wv d e = (t : EReal)) (hbv : ∀ e, ∃ t : ℝ, bv e = (t : EReal)) :
    rowK xr xb Wq bq Wk bk Wv bv Wo bo c = rowR xr xb Wq bq Wk bk Wv bv Wo bo r := by
  choose xr' hxr' using hxr
  choose xb' hxb' using hxb
  choose Wq' hWq' using hWq
  choose bq' hbq' using hbq
  choose Wk' hWk' using hWk
  choose bk' hbk' using hbk
  choose Wv' hWv' using hWv
  choose bv' hbv' using hbv
  obtain rfl : xr = fun d => (xr' d : EReal) := funext hxr'
  obtain rfl : xb = fun k d => (xb' k d : EReal) := funext fun k => funext (hxb' k)
  obtain rfl : Wq = fun d e => (Wq' d e : EReal) := funext fun d => funext (hWq' d)
  obtain rfl : bq = fun e => (bq' e : EReal) := funext hbq'
  obtain rfl : Wk = fun d e => (Wk' d e : EReal) := funext fun d => funext (hWk' d)
  obtain rfl : bk = fun e => (bk' e : EReal) := funext hbk'
  obtain rfl : Wv = fun d e => (Wv' d e : EReal) := funext fun d => funext (hWv' d)
  obtain rfl : bv = fun e => (bv' e : EReal) := funext hbv'
  subst hc hr
  -- the query, the keys and the values are reals
  have hq : lin (fun d => (xr' d : EReal)) (fun d e => (Wq' d e : EReal)) (fun e => (bq' e : EReal))
      = fun e => (((∑ d : Fin 256, xr' d * Wq' d e) + bq' e : ℝ) : EReal) := funext (lin_coe _ _ _)
  have hk : (fun k : Fin 4096 =>
        lin (fun d => (xb' k d : EReal)) (fun d e => (Wk' d e : EReal)) (fun e => (bk' e : EReal)))
      = fun k e => (((∑ d : Fin 256, xb' k d * Wk' d e) + bk' e : ℝ) : EReal) :=
    funext fun k => funext (lin_coe _ _ _)
  have hv : (fun k : Fin 4096 =>
        lin (fun d => (xb' k d : EReal)) (fun d e => (Wv' d e : EReal)) (fun e => (bv' e : EReal)))
      = fun k e => (((∑ d : Fin 256, xb' k d * Wv' d e) + bv' e : ℝ) : EReal) :=
    funext fun k => funext (lin_coe _ _ _)
  show lin (ctxK (scoreK (lin (fun d => (xr' d : EReal)) (fun d e => (Wq' d e : EReal)) (fun e => (bq' e : EReal)))
          (fun k : Fin 4096 =>
            lin (fun d => (xb' k d : EReal)) (fun d e => (Wk' d e : EReal)) (fun e => (bk' e : EReal)))
          ((1 / 16 : ℝ) : EReal))
        (fun k : Fin 4096 =>
          lin (fun d => (xb' k d : EReal)) (fun d e => (Wv' d e : EReal)) (fun e => (bv' e : EReal)))) Wo bo
      = lin (ctxR (scoreR (lin (fun d => (xr' d : EReal)) (fun d e => (Wq' d e : EReal)) (fun e => (bq' e : EReal)))
          (fun k : Fin 4096 =>
            lin (fun d => (xb' k d : EReal)) (fun d e => (Wk' d e : EReal)) (fun e => (bk' e : EReal)))
          ((16 : ℝ) : EReal))
        (fun k : Fin 4096 =>
          lin (fun d => (xb' k d : EReal)) (fun d e => (Wv' d e : EReal)) (fun e => (bv' e : EReal)))) Wo bo
  rw [hq, hk, hv, scoreK_eq_scoreR_coe]
  -- the scores are reals
  have hs : scoreR (fun e => (((∑ d : Fin 256, xr' d * Wq' d e) + bq' e : ℝ) : EReal))
        (fun k e => (((∑ d : Fin 256, xb' k d * Wk' d e) + bk' e : ℝ) : EReal)) ((16 : ℝ) : EReal)
      = fun k => (((∑ e : Fin 256, ((∑ d : Fin 256, xr' d * Wq' d e) + bq' e)
          * ((∑ d : Fin 256, xb' k d * Wk' d e) + bk' e)) * (1 / 16) : ℝ) : EReal) :=
    funext (scoreR_coe _ _ 16 (by norm_num))
  rw [hs, ctxK_eq_ctxR_coe]

theorem outK_eq_outR (x : Fin 8 → Fin 4096 → Fin 256 → EReal)
    (Wq : Fin 256 → Fin 256 → EReal) (bq : Fin 256 → EReal) (Wk : Fin 256 → Fin 256 → EReal) (bk : Fin 256 → EReal)
    (Wv : Fin 256 → Fin 256 → EReal) (bv : Fin 256 → EReal) (Wo : Fin 256 → Fin 256 → EReal) (bo : Fin 256 → EReal)
    (cv : Fin 256 → EReal)
    (c r : EReal) (hc : c = ((1 / 16 : ℝ) : EReal)) (hr : r = ((16 : ℝ) : EReal))
    (hx : ∀ b s d, ∃ t : ℝ, x b s d = (t : EReal))
    (hWq : ∀ d e, ∃ t : ℝ, Wq d e = (t : EReal)) (hbq : ∀ e, ∃ t : ℝ, bq e = (t : EReal))
    (hWk : ∀ d e, ∃ t : ℝ, Wk d e = (t : EReal)) (hbk : ∀ e, ∃ t : ℝ, bk e = (t : EReal))
    (hWv : ∀ d e, ∃ t : ℝ, Wv d e = (t : EReal)) (hbv : ∀ e, ∃ t : ℝ, bv e = (t : EReal)) :
    outK x Wq bq Wk bk Wv bv Wo bo cv c = outR x Wq bq Wk bk Wv bv Wo bo cv r := by
  funext bi s e
  have h : (fun s' : Fin 4096 => rowK (x bi s') (x bi) Wq bq Wk bk Wv bv Wo bo c)
      = fun s' : Fin 4096 => rowR (x bi s') (x bi) Wq bq Wk bk Wv bv Wo bo r :=
    funext fun s' => rowK_eq_rowR _ _ _ _ _ _ _ _ _ _ c r hc hr (hx bi s') (hx bi) hWq hbq hWk hbk hWv hbv
  show pool (fun s' : Fin 4096 => rowK (x bi s') (x bi) Wq bq Wk bk Wv bv Wo bo c) cv s e
      = pool (fun s' : Fin 4096 => rowR (x bi s') (x bi) Wq bq Wk bk Wv bv Wo bo r) cv s e
  rw [h]

end Cert.Spec

end
-- ==== Proof.Finite.lean ====
/-
  Every entry of the float inputs is a real number.

  The precondition says of each input array that the absolute value of every entry is below +∞, and conjoins the
  ten statements. Over the extended reals |a| = max a (-a), and max a (-a) < ⊤ excludes a = ⊤ and also a = ⊥, whose
  negation is ⊤; what is left is a real.
-/
import proofs.«414912_j34961033789956_3_alg».proof.Defs
import proofs.«414912_j34961033789956_3_alg».proof.Proof.Gen.Pre_finite_inputs
import Idealize.ShloMosaic.Lib.ReduceAll
import Idealize.ShloMosaic.Lib.ValueIdx
import Idealize.ShloMosaic.Lib.IdealHost
import Idealize.ShloMosaic.Lib.KernelVsHost
import Idealize.ShloMosaic.PureOps.Ideal.Laws

noncomputable section

namespace Cert.Finite

open Idealize.ShloMosaic Idealize.ShloMosaic.ValueIdx Idealize.SL.Sem
open Cert.Pre_finite_inputs

/-- The rank-0 shape has one index. -/
instance : Subsingleton S_.Idx := ⟨fun a b => funext fun d => d.elim0⟩

/-- An extended real whose absolute value is below +∞ is a real: the comparison is 1 exactly when the value is
    neither infinity. -/
theorem real_of_abs_lt (a : Ideal .f32)
    (h : FloatOps.cmpf .olt (FloatOps.hostAbsf a) (Ideal.ofBits .f32 0x7F800000#32) = 1#1) :
    ∃ t : ℝ, a = (t : EReal) := by
  have e : IntOp.xori (BitVec.ofBool (decide ((a : EReal) = ⊤ ∨ (a : EReal) = ⊥))) 1#1 = 1#1 :=
    (Ideal.xori_weird_eq_hostAbsf_olt_inf a).trans h
  induction a using EReal.rec with
  | bot => simp [IntOp.xori] at e
  | coe t => exact ⟨t, rfl⟩
  | top => simp [IntOp.xori] at e

/-- One array: if the conjunction over all its entries of |entry| < +∞ is 1, every entry is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : ∃ t : ℝ, x i = (t : EReal) := by
  have h := Host.reduce_andi_all _ _ hr hu ix0 e i
  rw [cmpf_apply, broadcastInDim_scalar_apply, constant_apply] at h
  exact real_of_abs_lt (x i) h

/-- A conjunction of two one-bit scalars that is 1 has both conjuncts 1. -/
theorem and_ix0 (a b : IVec S_ 1) (h : andi a b ix0 = 1#1) : a ix0 = 1#1 ∧ b ix0 = 1#1 := IntOp.andi_eq_one.1 h

/-- The precondition's function at the ten inputs, all ones: every entry of every input is a real. -/
theorem real_of_fn [Facts] (x : FVec Ideal S8x4096x256 .f32) (Wq : FVec Ideal S256x256 .f32) (bq : FVec Ideal S256 .f32)
    (Wk : FVec Ideal S256x256 .f32) (bk : FVec Ideal S256 .f32) (Wv : FVec Ideal S256x256 .f32) (bv : FVec Ideal S256 .f32)
    (Wo : FVec Ideal S256x256 .f32) (bo : FVec Ideal S256 .f32) (cv : FVec Ideal S256x1 .f32)
    (h : fn (F := Ideal) x Wq bq Wk bk Wv bv Wo bo cv = fun _ => 1#1) :
    (∀ i, ∃ t : ℝ, x i = (t : EReal)) ∧ (∀ i, ∃ t : ℝ, Wq i = (t : EReal)) ∧ (∀ i, ∃ t : ℝ, bq i = (t : EReal))
    ∧ (∀ i, ∃ t : ℝ, Wk i = (t : EReal)) ∧ (∀ i, ∃ t : ℝ, bk i = (t : EReal)) ∧ (∀ i, ∃ t : ℝ, Wv i = (t : EReal))
    ∧ (∀ i, ∃ t : ℝ, bv i = (t : EReal)) ∧ (∀ i, ∃ t : ℝ, Wo i = (t : EReal)) ∧ (∀ i, ∃ t : ℝ, bo i = (t : EReal))
    ∧ (∀ i, ∃ t : ℝ, cv i = (t : EReal)) := by
  have h0 := congrFun h ix0
  dsimp only [fn, fn_part1, fn_part2] at h0
  obtain ⟨h0, hcv⟩ := and_ix0 _ _ h0
  obtain ⟨h0, hbo⟩ := and_ix0 _ _ h0
  obtain ⟨h0, hWo⟩ := and_ix0 _ _ h0
  obtain ⟨h0, hbv⟩ := and_ix0 _ _ h0
  obtain ⟨h0, hWv⟩ := and_ix0 _ _ h0
  obtain ⟨h0, hbk⟩ := and_ix0 _ _ h0
  obtain ⟨h0, hWk⟩ := and_ix0 _ _ h0
  obtain ⟨h0, hbq⟩ := and_ix0 _ _ h0
  obtain ⟨hx, hWq⟩ := and_ix0 _ _ h0
  exact ⟨real_of_all x _ _ _ hx, real_of_all Wq _ _ _ hWq, real_of_all bq _ _ _ hbq, real_of_all Wk _ _ _ hWk,
    real_of_all bk _ _ _ hbk, real_of_all Wv _ _ _ hWv, real_of_all bv _ _ _ hbv, real_of_all Wo _ _ _ hWo,
    real_of_all bo _ _ _ hbo, real_of_all cv _ _ _ hcv⟩

/-- At the program's memory: under the precondition, on every device, every entry of the first seven argument
    arrays (the input batch and the three projections' weights and biases) is a real. -/
theorem real_of_pre [Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : S8x4096x256.Idx, ∃ t : ℝ, m ((c.tc : Thread Cert.KernelIdeal.nD Cert.KernelIdeal.τ).loc Cert.KernelIdeal.main_arg0) i = (t : EReal))
    ∧ (∀ i : S256x256.Idx, ∃ t : ℝ, m ((c.tc : Thread Cert.KernelIdeal.nD Cert.KernelIdeal.τ).loc Cert.KernelIdeal.main_arg1) i = (t : EReal))
    ∧ (∀ i : S256.Idx, ∃ t : ℝ, m ((c.tc : Thread Cert.KernelIdeal.nD Cert.KernelIdeal.τ).loc Cert.KernelIdeal.main_arg2) i = (t : EReal))
    ∧ (∀ i : S256x256.Idx, ∃ t : ℝ, m ((c.tc : Thread Cert.KernelIdeal.nD Cert.KernelIdeal.τ).loc Cert.KernelIdeal.main_arg3) i = (t : EReal))
    ∧ (∀ i : S256.Idx, ∃ t : ℝ, m ((c.tc : Thread Cert.KernelIdeal.nD Cert.KernelIdeal.τ).loc Cert.KernelIdeal.main_arg4) i = (t : EReal))
    ∧ (∀ i : S256x256.Idx, ∃ t : ℝ, m ((c.tc : Thread Cert.KernelIdeal.nD Cert.KernelIdeal.τ).loc Cert.KernelIdeal.main_arg5) i = (t : EReal))
    ∧ (∀ i : S256.Idx, ∃ t : ℝ, m ((c.tc : Thread Cert.KernelIdeal.nD Cert.KernelIdeal.τ).loc Cert.KernelIdeal.main_arg6) i = (t : EReal)) := by
  obtain ⟨h0, h1, h2, h3, h4, h5, h6, -⟩ := real_of_fn _ _ _ _ _ _ _ _ _ _ (hpre c)
  exact ⟨h0, h1, h2, h3, h4, h5, h6⟩

/-- The same for all ten argument arrays. -/
theorem real_of_pre_all [Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : S8x4096x256.Idx, ∃ t : ℝ, m ((c.tc : Thread Cert.KernelIdeal.nD Cert.KernelIdeal.τ).loc Cert.KernelIdeal.main_arg0) i = (t : EReal))
    ∧ (∀ i : S256x256.Idx, ∃ t : ℝ, m ((c.tc : Thread Cert.KernelIdeal.nD Cert.KernelIdeal.τ).loc Cert.KernelIdeal.main_arg1) i = (t : EReal))
    ∧ (∀ i : S256.Idx, ∃ t : ℝ, m ((c.tc : Thread Cert.KernelIdeal.nD Cert.KernelIdeal.τ).loc Cert.KernelIdeal.main_arg2) i = (t : EReal))
    ∧ (∀ i : S256x256.Idx, ∃ t : ℝ, m ((c.tc : Thread Cert.KernelIdeal.nD Cert.KernelIdeal.τ).loc Cert.KernelIdeal.main_arg3) i = (t : EReal))
    ∧ (∀ i : S256.Idx, ∃ t : ℝ, m ((c.tc : Thread Cert.KernelIdeal.nD Cert.KernelIdeal.τ).loc Cert.KernelIdeal.main_arg4) i = (t : EReal))
    ∧ (∀ i : S256x256.Idx, ∃ t : ℝ, m ((c.tc : Thread Cert.KernelIdeal.nD Cert.KernelIdeal.τ).loc Cert.KernelIdeal.main_arg5) i = (t : EReal))
    ∧ (∀ i : S256.Idx, ∃ t : ℝ, m ((c.tc : Thread Cert.KernelIdeal.nD Cert.KernelIdeal.τ).loc Cert.KernelIdeal.main_arg6) i = (t : EReal))
    ∧ (∀ i : S256x256.Idx, ∃ t : ℝ, m ((c.tc : Thread Cert.KernelIdeal.nD Cert.KernelIdeal.τ).loc Cert.KernelIdeal.main_arg7) i = (t : EReal))
    ∧ (∀ i : S256.Idx, ∃ t : ℝ, m ((c.tc : Thread Cert.KernelIdeal.nD Cert.KernelIdeal.τ).loc Cert.KernelIdeal.main_arg8) i = (t : EReal))
    ∧ (∀ i : S256x1.Idx, ∃ t : ℝ, m ((c.tc : Thread Cert.KernelIdeal.nD Cert.KernelIdeal.τ).loc Cert.KernelIdeal.main_arg9) i = (t : EReal)) :=
  real_of_fn _ _ _ _ _ _ _ _ _ _ (hpre c)

end Cert.Finite

end
-- ==== Proof.Algebraic.lean ====
/-
  The two idealized programs compute one function.

  The kernel's result array, read off its run, is `GK` of the argument arrays (Proof/KernelIdeal/Final.lean), which
  at the extended reals is the first spelling `Spec.outK` of attention-then-pooling, with the query scaled by 1/16 and
  the softmax normalised after the values are summed (Proof/Bridge.lean). The reference's result, read off its run, is
  the second spelling `Spec.outR`, with the scores divided by √256 and the softmax normalised before (Proof/RefValue.lean).
  On finite inputs the two spellings agree (Proof/Algebra.lean); the precondition makes every input finite
  (Proof/Finite.lean); 1/16 and √256 = 16 are Proof/Consts.lean.
-/
import proofs.«414912_j34961033789956_3_alg».proof.Defs
import proofs.«414912_j34961033789956_3_alg».proof.Proof.KernelIdeal.Final
import proofs.«414912_j34961033789956_3_alg».proof.Proof.Bridge
import proofs.«414912_j34961033789956_3_alg».proof.Proof.RefValue
import proofs.«414912_j34961033789956_3_alg».proof.Proof.Algebra
import proofs.«414912_j34961033789956_3_alg».proof.Proof.Consts
import proofs.«414912_j34961033789956_3_alg».proof.Proof.Finite
import proofs.«414912_j34961033789956_3_alg».proof.Proof.Gen.Pre_finite_inputs

noncomputable section

namespace Cert.Proof.Claims

open Idealize.ShloMosaic Idealize.ShloMosaic.TcCoe Idealize.SL.Sem Idealize.ShloMosaic.ValueIdx

theorem algebraic : Cert.algebraic_KernelIdeal_ReferenceIdeal := by
  intro m ρ m' ρ' hpre hagree
  refine ⟨fun c => Cert.KernelIdeal.Gen.GK (F := Ideal) m c, Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  obtain ⟨fx, fWq, fbq, fWk, fbk, fWv, fbv⟩ := Cert.Finite.real_of_pre m hpre c
  show Cert.ReferenceIdeal.Value.res_out0 (F := Ideal) m' c = Cert.KernelIdeal.Gen.GK (F := Ideal) m c
  rw [Cert.ReferenceIdeal.RefValue.res_eq, h0, h1, h2, h3, h4, h5, h6, h7, h8, h9]
  funext i
  refine Eq.trans ?_ (Cert.KernelIdeal.Bridge.GK_eq m c i).symm
  exact congrFun (congrFun (congrFun (Cert.Spec.outK_eq_outR _ _ _ _ _ _ _ _ _ _ _ _ Cert.Consts.ofBits_sixteenth Cert.Consts.sqrt_256
    (fun b s d => fx (ix3 b s d)) (fun d e => fWq (ix2 d e)) (fun e => fbq (ix1 e)) (fun d e => fWk (ix2 d e)) (fun e => fbk (ix1 e))
    (fun d e => fWv (ix2 d e)) (fun e => fbv (ix1 e))).symm (i 0)) (i 1)) (i 2)

end Cert.Proof.Claims

end
-- ==== Proof.lean ====
/- The proof of `Cert.Claim`: the attention-and-pooling kernel against its reference, over the extended reals.

   The kernel sweeps a grid of 8 batches × 16 query tiles. At a batch's first tile it projects the whole batch to keys
   and values and keeps them in scratch; at every tile it computes the tile's 256 rows of logits against them and keeps
   those in a third scratch; at the batch's last tile it pools the 4096 rows of logits and writes the batch's output.
   The frames of the two printed kernels (the word-level one and its idealization, the same text in two namespaces)
   come from one body proof, written generic in the value instance (Proof/KernelIdeal/*, laid out again as
   Proof/Kernel/*): the body is run symbolically in each of its three branch cases, and the invariant between grid
   points says what the three scratch buffers hold. The reference's frame is its generated run. The idealization
   rewrote nothing, so `preserves` is trivial. `algebraic` is Proof/Algebraic.lean. -/
import proofs.«414912_j34961033789956_3_alg».proof.Defs
import proofs.«414912_j34961033789956_3_alg».proof.Proof.Gen.Kernel
import proofs.«414912_j34961033789956_3_alg».proof.Proof.Gen.KernelIdeal
import proofs.«414912_j34961033789956_3_alg».proof.Proof.Gen.ReferenceIdeal
import proofs.«414912_j34961033789956_3_alg».proof.Proof.Gen.Pre_finite_inputs
import proofs.«414912_j34961033789956_3_alg».proof.Proof.Gen.ReferenceIdeal.Run
import proofs.«414912_j34961033789956_3_alg».proof.Proof.Kernel.Region
import proofs.«414912_j34961033789956_3_alg».proof.Proof.KernelIdeal.Region
import proofs.«414912_j34961033789956_3_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    Claims.algebraic⟩

end Cert.Proof

end
